-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x1 : Shape := ⟨2, ![65536, 1]⟩
abbrev S65536x2 : Shape := ⟨2, ![65536, 2]⟩
abbrev S65536x3 : Shape := ⟨2, ![65536, 3]⟩
abbrev S65536x5 : Shape := ⟨2, ![65536, 5]⟩
abbrev S65536x10 : Shape := ⟨2, ![65536, 10]⟩
abbrev S64x20 : Shape := ⟨2, ![64, 20]⟩
abbrev S20 : Shape := ⟨1, ![20]⟩
abbrev S50000x10 : Shape := ⟨2, ![50000, 10]⟩
abbrev S50000x20 : Shape := ⟨2, ![50000, 20]⟩
abbrev S135x64 : Shape := ⟨2, ![135, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_
  bcast_S_S50000x10 : S_.BroadcastsInDim S50000x10 (![] : Fin 0 → Fin S50000x10.rank)
  reducesTo_S50000x10_S_d0_1 : S50000x10.ReducesTo [0, 1] S_
  bcast_S_S50000x20 : S_.BroadcastsInDim S50000x20 (![] : Fin 0 → Fin S50000x20.rank)
  reducesTo_S50000x20_S_d0_1 : S50000x20.ReducesTo [0, 1] S_
  bcast_S_S135x64 : S_.BroadcastsInDim S135x64 (![] : Fin 0 → Fin S135x64.rank)
  reducesTo_S135x64_S_d0_1 : S135x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S65536x1 : S_.BroadcastsInDim S65536x1 (![] : Fin 0 → Fin S65536x1.rank)
  reducesTo_S65536x1_S_d0_1 : S65536x1.ReducesTo [0, 1] S_
  bcast_S_S65536x2 : S_.BroadcastsInDim S65536x2 (![] : Fin 0 → Fin S65536x2.rank)
  reducesTo_S65536x2_S_d0_1 : S65536x2.ReducesTo [0, 1] S_
  bcast_S_S65536x3 : S_.BroadcastsInDim S65536x3 (![] : Fin 0 → Fin S65536x3.rank)
  reducesTo_S65536x3_S_d0_1 : S65536x3.ReducesTo [0, 1] S_
  bcast_S_S65536x5 : S_.BroadcastsInDim S65536x5 (![] : Fin 0 → Fin S65536x5.rank)
  reducesTo_S65536x5_S_d0_1 : S65536x5.ReducesTo [0, 1] S_
  bcast_S_S65536x10 : S_.BroadcastsInDim S65536x10 (![] : Fin 0 → Fin S65536x10.rank)
  reducesTo_S65536x10_S_d0_1 : S65536x10.ReducesTo [0, 1] S_

variable [Facts]

def fn_part6 {F : FTy → Type} [FloatOps F] (main_arg6 : IVec S65536x10 32) (main_v98 : IVec S_ 1) (main_v100 : IVec S65536x10 1) (main_c_40 : IVec S_ 32) : IVec S_ 1 :=
  let main_v101 : IVec S65536x10 32 := broadcastInDim S65536x10 ![] bcast_S_S65536x10 main_c_40
  let main_v102 : IVec S65536x10 1 := cmpi .slt main_arg6 main_v101
  let main_v103 : IVec S65536x10 1 := andi main_v100 main_v102
  let main_c_41 : IVec S_ 1 := constantI S_ 1 1#1
  let main_v104 : IVec S_ 1 := (fun x v => Host.reduce IntOp.andi x v reducesTo_S65536x10_S_d0_1 h_S_) main_v103 main_c_41
  let main_v105 : IVec S_ 1 := andi main_v98 main_v104
  main_v105

def fn_part5 {F : FTy → Type} [FloatOps F] (main_arg4 : IVec S65536x3 32) (main_arg5 : IVec S65536x5 32) (main_arg6 : IVec S65536x10 32) (main_v84 : IVec S_ 1) : IVec S_ 1 :=
  let main_c_33 : IVec S_ 32 := constantI S_ 32 0#32
  let main_v85 : IVec S65536x3 32 := broadcastInDim S65536x3 ![] bcast_S_S65536x3 main_c_33
  let main_v86 : IVec S65536x3 1 := cmpi .sge main_arg4 main_v85
  let main_c_34 : IVec S_ 32 := constantI S_ 32 50000#32
  let main_v87 : IVec S65536x3 32 := broadcastInDim S65536x3 ![] bcast_S_S65536x3 main_c_34
  let main_v88 : IVec S65536x3 1 := cmpi .slt main_arg4 main_v87
  let main_v89 : IVec S65536x3 1 := andi main_v86 main_v88
  let main_c_35 : IVec S_ 1 := constantI S_ 1 1#1
  let main_v90 : IVec S_ 1 := (fun x v => Host.reduce IntOp.andi x v reducesTo_S65536x3_S_d0_1 h_S_) main_v89 main_c_35
  let main_v91 : IVec S_ 1 := andi main_v84 main_v90
  let main_c_36 : IVec S_ 32 := constantI S_ 32 0#32
  let main_v92 : IVec S65536x5 32 := broadcastInDim S65536x5 ![] bcast_S_S65536x5 main_c_36
  let main_v93 : IVec S65536x5 1 := cmpi .sge main_arg5 main_v92
  let main_c_37 : IVec S_ 32 := constantI S_ 32 50000#32
  let main_v94 : IVec S65536x5 32 := broadcastInDim S65536x5 ![] bcast_S_S65536x5 main_c_37
  let main_v95 : IVec S65536x5 1 := cmpi .slt main_arg5 main_v94
  let main_v96 : IVec S65536x5 1 := andi main_v93 main_v95
  let main_c_38 : IVec S_ 1 := constantI S_ 1 1#1
  let main_v97 : IVec S_ 1 := (fun x v => Host.reduce IntOp.andi x v reducesTo_S65536x5_S_d0_1 h_S_) main_v96 main_c_38
  let main_v98 : IVec S_ 1 := andi main_v91 main_v97
  let main_c_39 : IVec S_ 32 := constantI S_ 32 0#32
  let main_v99 : IVec S65536x10 32 := broadcastInDim S65536x10 ![] bcast_S_S65536x10 main_c_39
  let main_v100 : IVec S65536x10 1 := cmpi .sge main_arg6 main_v99
  let main_c_40 : IVec S_ 32 := constantI S_ 32 50000#32
  fn_part6 (F := F) main_arg6 main_v98 main_v100 main_c_40

def fn_part4 {F : FTy → Type} [FloatOps F] (main_arg2 : IVec S65536x2 32) (main_arg3 : IVec S65536x3 32) (main_arg4 : IVec S65536x3 32) (main_arg5 : IVec S65536x5 32) (main_arg6 : IVec S65536x10 32) (main_v63 : IVec S_ 1) (main_v65 : IVec S65536x1 1) (main_v67 : IVec S65536x1 1) : IVec S_ 1 :=
  let main_v68 : IVec S65536x1 1 := andi main_v65 main_v67
  let main_c_26 : IVec S_ 1 := constantI S_ 1 1#1
  let main_v69 : IVec S_ 1 := (fun x v => Host.reduce IntOp.andi x v reducesTo_S65536x1_S_d0_1 h_S_) main_v68 main_c_26
  let main_v70 : IVec S_ 1 := andi main_v63 main_v69
  let main_c_27 : IVec S_ 32 := constantI S_ 32 0#32
  let main_v71 : IVec S65536x2 32 := broadcastInDim S65536x2 ![] bcast_S_S65536x2 main_c_27
  let main_v72 : IVec S65536x2 1 := cmpi .sge main_arg2 main_v71
  let main_c_28 : IVec S_ 32 := constantI S_ 32 50000#32
  let main_v73 : IVec S65536x2 32 := broadcastInDim S65536x2 ![] bcast_S_S65536x2 main_c_28
  let main_v74 : IVec S65536x2 1 := cmpi .slt main_arg2 main_v73
  let main_v75 : IVec S65536x2 1 := andi main_v72 main_v74
  let main_c_29 : IVec S_ 1 := constantI S_ 1 1#1
  let main_v76 : IVec S_ 1 := (fun x v => Host.reduce IntOp.andi x v reducesTo_S65536x2_S_d0_1 h_S_) main_v75 main_c_29
  let main_v77 : IVec S_ 1 := andi main_v70 main_v76
  let main_c_30 : IVec S_ 32 := constantI S_ 32 0#32
  let main_v78 : IVec S65536x3 32 := broadcastInDim S65536x3 ![] bcast_S_S65536x3 main_c_30
  let main_v79 : IVec S65536x3 1 := cmpi .sge main_arg3 main_v78
  let main_c_31 : IVec S_ 32 := constantI S_ 32 50000#32
  let main_v80 : IVec S65536x3 32 := broadcastInDim S65536x3 ![] bcast_S_S65536x3 main_c_31
  let main_v81 : IVec S65536x3 1 := cmpi .slt main_arg3 main_v80
  let main_v82 : IVec S65536x3 1 := andi main_v79 main_v81
  let main_c_32 : IVec S_ 1 := constantI S_ 1 1#1
  let main_v83 : IVec S_ 1 := (fun x v => Host.reduce IntOp.andi x v reducesTo_S65536x3_S_d0_1 h_S_) main_v82 main_c_32
  let main_v84 : IVec S_ 1 := andi main_v77 main_v83
  fn_part5 (F := F) main_arg4 main_arg5 main_arg6 main_v84

def fn_part3 {F : FTy → Type} [FloatOps F] (main_arg1 : IVec S65536x1 32) (main_arg2 : IVec S65536x2 32) (main_arg3 : IVec S65536x3 32) (main_arg4 : IVec S65536x3 32) (main_arg5 : IVec S65536x5 32) (main_arg6 : IVec S65536x10 32) (main_arg17 : FVec F S64x128 .f32) (main_arg18 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg17
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S65536x1 32 := broadcastInDim S65536x1 ![] bcast_S_S65536x1 main_c_24
  let main_v65 : IVec S65536x1 1 := cmpi .sge main_arg1 main_v64
  let main_c_25 : IVec S_ 32 := constantI S_ 32 50000#32
  let main_v66 : IVec S65536x1 32 := broadcastInDim S65536x1 ![] bcast_S_S65536x1 main_c_25
  let main_v67 : IVec S65536x1 1 := cmpi .slt main_arg1 main_v66
  fn_part4 (F := F) main_arg2 main_arg3 main_arg4 main_arg5 main_arg6 main_v63 main_v65 main_v67

def fn_part2 {F : FTy → Type} [FloatOps F] (main_arg1 : IVec S65536x1 32) (main_arg2 : IVec S65536x2 32) (main_arg3 : IVec S65536x3 32) (main_arg4 : IVec S65536x3 32) (main_arg5 : IVec S65536x5 32) (main_arg6 : IVec S65536x10 32) (main_arg13 : FVec F S50000x20 .f32) (main_arg14 : FVec F S50000x20 .f32) (main_arg15 : FVec F S135x64 .f32) (main_arg16 : FVec F S64 .f32) (main_arg17 : FVec F S64x128 .f32) (main_arg18 : FVec F S128 .f32) (main_v33 : IVec S_ 1) : IVec S_ 1 :=
  let main_v34 : FVec F S50000x20 .f32 := Host.absf main_arg13
  let main_cst_12 : FVec F S_ .f32 := constant S_ .f32 0x7F800000#32
  let main_v35 : FVec F S50000x20 .f32 := broadcastInDim S50000x20 ![] bcast_S_S50000x20 main_cst_12
  let main_v36 : IVec S50000x20 1 := cmpf .olt main_v34 main_v35
  let main_c_13 : IVec S_ 1 := constantI S_ 1 1#1
  let main_v37 : IVec S_ 1 := (fun x v => Host.reduce IntOp.andi x v reducesTo_S50000x20_S_d0_1 h_S_) main_v36 main_c_13
  let main_v38 : IVec S_ 1 := andi main_v33 main_v37
  let main_v39 : FVec F S50000x20 .f32 := Host.absf main_arg14
  let main_cst_14 : FVec F S_ .f32 := constant S_ .f32 0x7F800000#32
  let main_v40 : FVec F S50000x20 .f32 := broadcastInDim S50000x20 ![] bcast_S_S50000x20 main_cst_14
  let main_v41 : IVec S50000x20 1 := cmpf .olt main_v39 main_v40
  let main_c_15 : IVec S_ 1 := constantI S_ 1 1#1
  let main_v42 : IVec S_ 1 := (fun x v => Host.reduce IntOp.andi x v reducesTo_S50000x20_S_d0_1 h_S_) main_v41 main_c_15
  let main_v43 : IVec S_ 1 := andi main_v38 main_v42
  let main_v44 : FVec F S135x64 .f32 := Host.absf main_arg15
  let main_cst_16 : FVec F S_ .f32 := constant S_ .f32 0x7F800000#32
  let main_v45 : FVec F S135x64 .f32 := broadcastInDim S135x64 ![] bcast_S_S135x64 main_cst_16
  let main_v46 : IVec S135x64 1 := cmpf .olt main_v44 main_v45
  let main_c_17 : IVec S_ 1 := constantI S_ 1 1#1
  let main_v47 : IVec S_ 1 := (fun x v => Host.reduce IntOp.andi x v reducesTo_S135x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg1 main_arg2 main_arg3 main_arg4 main_arg5 main_arg6 main_arg17 main_arg18 main_v48 main_v49 main_v50

def fn_part1 {F : FTy → Type} [FloatOps F] (main_arg1 : IVec S65536x1 32) (main_arg2 : IVec S65536x2 32) (main_arg3 : IVec S65536x3 32) (main_arg4 : IVec S65536x3 32) (main_arg5 : IVec S65536x5 32) (main_arg6 : IVec S65536x10 32) (main_arg10 : FVec F S50000x10 .f32) (main_arg11 : FVec F S50000x20 .f32) (main_arg12 : FVec F S50000x20 .f32) (main_arg13 : FVec F S50000x20 .f32) (main_arg14 : FVec F S50000x20 .f32) (main_arg15 : FVec F S135x64 .f32) (main_arg16 : FVec F S64 .f32) (main_arg17 : FVec F S64x128 .f32) (main_arg18 : FVec F S128 .f32) (main_v13 : IVec S_ 1) (main_v16 : IVec S50000x10 1) : IVec S_ 1 :=
  let main_c_5 : IVec S_ 1 := constantI S_ 1 1#1
  let main_v17 : IVec S_ 1 := (fun x v => Host.reduce IntOp.andi x v reducesTo_S50000x10_S_d0_1 h_S_) main_v16 main_c_5
  let main_v18 : IVec S_ 1 := andi main_v13 main_v17
  let main_v19 : FVec F S50000x10 .f32 := Host.absf main_arg10
  let main_cst_6 : FVec F S_ .f32 := constant S_ .f32 0x7F800000#32
  let main_v20 : FVec F S50000x10 .f32 := broadcastInDim S50000x10 ![] bcast_S_S50000x10 main_cst_6
  let main_v21 : IVec S50000x10 1 := cmpf .olt main_v19 main_v20
  let main_c_7 : IVec S_ 1 := constantI S_ 1 1#1
  let main_v22 : IVec S_ 1 := (fun x v => Host.reduce IntOp.andi x v reducesTo_S50000x10_S_d0_1 h_S_) main_v21 main_c_7
  let main_v23 : IVec S_ 1 := andi main_v18 main_v22
  let main_v24 : FVec F S50000x20 .f32 := Host.absf main_arg11
  let main_cst_8 : FVec F S_ .f32 := constant S_ .f32 0x7F800000#32
  let main_v25 : FVec F S50000x20 .f32 := broadcastInDim S50000x20 ![] bcast_S_S50000x20 main_cst_8
  let main_v26 : IVec S50000x20 1 := cmpf .olt main_v24 main_v25
  let main_c_9 : IVec S_ 1 := constantI S_ 1 1#1
  let main_v27 : IVec S_ 1 := (fun x v => Host.reduce IntOp.andi x v reducesTo_S50000x20_S_d0_1 h_S_) main_v26 main_c_9
  let main_v28 : IVec S_ 1 := andi main_v23 main_v27
  let main_v29 : FVec F S50000x20 .f32 := Host.absf main_arg12
  let main_cst_10 : FVec F S_ .f32 := constant S_ .f32 0x7F800000#32
  let main_v30 : FVec F S50000x20 .f32 := broadcastInDim S50000x20 ![] bcast_S_S50000x20 main_cst_10
  let main_v31 : IVec S50000x20 1 := cmpf .olt main_v29 main_v30
  let main_c_11 : IVec S_ 1 := constantI S_ 1 1#1
  let main_v32 : IVec S_ 1 := (fun x v => Host.reduce IntOp.andi x v reducesTo_S50000x20_S_d0_1 h_S_) main_v31 main_c_11
  let main_v33 : IVec S_ 1 := andi main_v28 main_v32
  fn_part2 (F := F) main_arg1 main_arg2 main_arg3 main_arg4 main_arg5 main_arg6 main_arg13 main_arg14 main_arg15 main_arg16 main_arg17 main_arg18 main_v33

def fn {F : FTy → Type} [FloatOps F] (main_arg0 : FVec F S65536x64 .f32) (main_arg1 : IVec S65536x1 32) (main_arg2 : IVec S65536x2 32) (main_arg3 : IVec S65536x3 32) (main_arg4 : IVec S65536x3 32) (main_arg5 : IVec S65536x5 32) (main_arg6 : IVec S65536x10 32) (main_arg7 : FVec F S64x20 .f32) (main_arg8 : FVec F S20 .f32) (main_arg9 : FVec F S50000x10 .f32) (main_arg10 : FVec F S50000x10 .f32) (main_arg11 : FVec F S50000x20 .f32) (main_arg12 : FVec F S50000x20 .f32) (main_arg13 : FVec F S50000x20 .f32) (main_arg14 : FVec F S50000x20 .f32) (main_arg15 : FVec F S135x64 .f32) (main_arg16 : FVec F S64 .f32) (main_arg17 : FVec F S64x128 .f32) (main_arg18 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x20 .f32 := Host.absf main_arg7
  let main_cst_0 : FVec F S_ .f32 := constant S_ .f32 0x7F800000#32
  let main_v5 : FVec F S64x20 .f32 := broadcastInDim S64x20 ![] bcast_S_S64x20 main_cst_0
  let main_v6 : IVec S64x20 1 := cmpf .olt main_v4 main_v5
  let main_c_1 : IVec S_ 1 := constantI S_ 1 1#1
  let main_v7 : IVec S_ 1 := (fun x v => Host.reduce IntOp.andi x v reducesTo_S64x20_S_d0_1 h_S_) main_v6 main_c_1
  let main_v8 : IVec S_ 1 := andi main_v3 main_v7
  let main_v9 : FVec F S20 .f32 := Host.absf main_arg8
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S50000x10 .f32 := Host.absf main_arg9
  let main_cst_4 : FVec F S_ .f32 := constant S_ .f32 0x7F800000#32
  let main_v15 : FVec F S50000x10 .f32 := broadcastInDim S50000x10 ![] bcast_S_S50000x10 main_cst_4
  let main_v16 : IVec S50000x10 1 := cmpf .olt main_v14 main_v15
  fn_part1 (F := F) main_arg1 main_arg2 main_arg3 main_arg4 main_arg5 main_arg6 main_arg10 main_arg11 main_arg12 main_arg13 main_arg14 main_arg15 main_arg16 main_arg17 main_arg18 main_v13 main_v16
-- ==== Kernel.lean ====
abbrev S65536x64 : Shape := ⟨2, ![65536, 64]⟩
abbrev S65536x1 : Shape := ⟨2, ![65536, 1]⟩
abbrev S65536x2 : Shape := ⟨2, ![65536, 2]⟩
abbrev S65536x3 : Shape := ⟨2, ![65536, 3]⟩
abbrev S65536x5 : Shape := ⟨2, ![65536, 5]⟩
abbrev S65536x10 : Shape := ⟨2, ![65536, 10]⟩
abbrev S64x20 : Shape := ⟨2, ![64, 20]⟩
abbrev S20 : Shape := ⟨1, ![20]⟩
abbrev S50000x10 : Shape := ⟨2, ![50000, 10]⟩
abbrev S50000x20 : Shape := ⟨2, ![50000, 20]⟩
abbrev S135x64 : Shape := ⟨2, ![135, 64]⟩
abbrev S64 : Shape := ⟨1, ![64]⟩
abbrev S64x128 : Shape := ⟨2, ![64, 128]⟩
abbrev S128 : Shape := ⟨1, ![128]⟩
abbrev S_ : Shape := ⟨0, ![]⟩
abbrev S65536x1x1 : Shape := ⟨3, ![65536, 1, 1]⟩
abbrev S65536x1x10 : Shape := ⟨3, ![65536, 1, 10]⟩
abbrev S65536x2x1 : Shape := ⟨3, ![65536, 2, 1]⟩
abbrev S65536x2x10 : Shape := ⟨3, ![65536, 2, 10]⟩
abbrev S65536x3x1 : Shape := ⟨3, ![65536, 3, 1]⟩
abbrev S65536x3x20 : Shape := ⟨3, ![65536, 3, 20]⟩
abbrev S65536x20 : Shape := ⟨2, ![65536, 20]⟩
abbrev S65536x5x1 : Shape := ⟨3, ![65536, 5, 1]⟩
abbrev S65536x5x20 : Shape := ⟨3, ![65536, 5, 20]⟩
abbrev S65536x10x1 : Shape := ⟨3, ![65536, 10, 1]⟩
abbrev S65536x10x20 : Shape := ⟨3, ![65536, 10, 20]⟩
abbrev S65536x164 : Shape := ⟨2, ![65536, 164]⟩
abbrev S1x20 : Shape := ⟨2, ![1, 20]⟩
abbrev S1x64 : Shape := ⟨2, ![1, 64]⟩
abbrev S1x128 : Shape := ⟨2, ![1, 128]⟩
abbrev S65536x128 : Shape := ⟨2, ![65536, 128]⟩
abbrev S2048x164 : Shape := ⟨2, ![2048, 164]⟩
abbrev S2048x128 : Shape := ⟨2, ![2048, 128]⟩
abbrev S2048x64 : Shape := ⟨2, ![2048, 64]⟩
abbrev S2048x10 : Shape := ⟨2, ![2048, 10]⟩
abbrev S2048x20 : Shape := ⟨2, ![2048, 20]⟩
abbrev S2048 : Shape := ⟨1, ![2048]⟩
abbrev S2048x1 : Shape := ⟨2, ![2048, 1]⟩
abbrev S2048x15 : Shape := ⟨2, ![2048, 15]⟩
abbrev S2048x135 : Shape := ⟨2, ![2048, 135]⟩

abbrev nBuf : Space → Nat
  | .hbm => 234
  | .vmem => 10
  | .smem => 0
  | _ => 0

abbrev hbmTy0_0 (i : Nat) : BufTy := match i % 128 with
  | 0 => ⟨S65536x64, .f32⟩
  | 1 => ⟨S65536x1, .i32⟩
  | 2 => ⟨S65536x2, .i32⟩
  | 3 => ⟨S65536x3, .i32⟩
  | 4 => ⟨S65536x3, .i32⟩
  | 5 => ⟨S65536x5, .i32⟩
  | 6 => ⟨S65536x10, .i32⟩
  | 7 => ⟨S64x20, .f32⟩
  | 8 => ⟨S20, .f32⟩
  | 9 => ⟨S50000x10, .f32⟩
  | 10 => ⟨S50000x10, .f32⟩
  | 11 => ⟨S50000x20, .f32⟩
  | 12 => ⟨S50000x20, .f32⟩
  | 13 => ⟨S50000x20, .f32⟩
  | 14 => ⟨S50000x20, .f32⟩
  | 15 => ⟨S135x64, .f32⟩
  | 16 => ⟨S64, .f32⟩
  | 17 => ⟨S64x128, .f32⟩
  | 18 => ⟨S128, .f32⟩
  | 19 => ⟨S_, .i32⟩
  | 20 => ⟨S_, .i32⟩
  | 21 => ⟨S_, .i32⟩
  | 22 => ⟨S65536x1, .i32⟩
  | 23 => ⟨S65536x1, .i32⟩
  | 24 => ⟨S_, .i32⟩
  | 25 => ⟨S65536x1, .i32⟩
  | 26 => ⟨S65536x1, .i32⟩
  | 27 => ⟨S_, .i32⟩
  | 28 => ⟨S65536x1, .i32⟩
  | 29 => ⟨S65536x1, .i1⟩
  | 30 => ⟨S_, .i32⟩
  | 31 => ⟨S65536x1, .i32⟩
  | 32 => ⟨S65536x1, .i32⟩
  | 33 => ⟨S65536x1, .i32⟩
  | 34 => ⟨S65536x1x1, .i32⟩
  | 35 => ⟨S65536x1x10, .f32⟩
  | 36 => ⟨S65536x1x10, .f32⟩
  | 37 => ⟨S_, .f32⟩
  | 38 => ⟨S65536x1, .f32⟩
  | 39 => ⟨S65536x1x1, .f32⟩
  | 40 => ⟨S65536x1x1, .f32⟩
  | 41 => ⟨S_, .f32⟩
  | 42 => ⟨S65536x1x1, .f32⟩
  | 43 => ⟨S65536x1x1, .f32⟩
  | 44 => ⟨S_, .f32⟩
  | 45 => ⟨S65536x1x1, .f32⟩
  | 46 => ⟨S65536x1x1, .f32⟩
  | 47 => ⟨S_, .f32⟩
  | 48 => ⟨S65536x1x1, .f32⟩
  | 49 => ⟨S65536x1x1, .f32⟩
  | 50 => ⟨S65536x1x10, .f32⟩
  | 51 => ⟨S65536x1x10, .f32⟩
  | 52 => ⟨S_, .f32⟩
  | 53 => ⟨S65536x10, .f32⟩
  | 54 => ⟨S_, .i32⟩
  | 55 => ⟨S_, .i32⟩
  | 56 => ⟨S_, .i32⟩
  | 57 => ⟨S65536x2, .i32⟩
  | 58 => ⟨S65536x2, .i32⟩
  | 59 => ⟨S_, .i32⟩
  | 60 => ⟨S65536x2, .i32⟩
  | 61 => ⟨S65536x2, .i32⟩
  | 62 => ⟨S_, .i32⟩
  | 63 => ⟨S65536x2, .i32⟩
  | 64 => ⟨S65536x2, .i1⟩
  | 65 => ⟨S_, .i32⟩
  | 66 => ⟨S65536x2, .i32⟩
  | 67 => ⟨S65536x2, .i32⟩
  | 68 => ⟨S65536x2, .i32⟩
  | 69 => ⟨S65536x2x1, .i32⟩
  | 70 => ⟨S65536x2x10, .f32⟩
  | 71 => ⟨S65536x2x10, .f32⟩
  | 72 => ⟨S_, .f32⟩
  | 73 => ⟨S65536x2, .f32⟩
  | 74 => ⟨S65536x2x1, .f32⟩
  | 75 => ⟨S65536x2x1, .f32⟩
  | 76 => ⟨S_, .f32⟩
  | 77 => ⟨S65536x2x1, .f32⟩
  | 78 => ⟨S65536x2x1, .f32⟩
  | 79 => ⟨S_, .f32⟩
  | 80 => ⟨S65536x2x1, .f32⟩
  | 81 => ⟨S65536x2x1, .f32⟩
  | 82 => ⟨S_, .f32⟩
  | 83 => ⟨S65536x2x1, .f32⟩
  | 84 => ⟨S65536x2x1, .f32⟩
  | 85 => ⟨S65536x2x10, .f32⟩
  | 86 => ⟨S65536x2x10, .f32⟩
  | 87 => ⟨S_, .f32⟩
  | 88 => ⟨S65536x10, .f32⟩
  | 89 => ⟨S_, .i32⟩
  | 90 => ⟨S_, .i32⟩
  | 91 => ⟨S_, .i32⟩
  | 92 => ⟨S65536x3, .i32⟩
  | 93 => ⟨S65536x3, .i32⟩
  | 94 => ⟨S_, .i32⟩
  | 95 => ⟨S65536x3, .i32⟩
  | 96 => ⟨S65536x3, .i32⟩
  | 97 => ⟨S_, .i32⟩
  | 98 => ⟨S65536x3, .i32⟩
  | 99 => ⟨S65536x3, .i1⟩
  | 100 => ⟨S_, .i32⟩
  | 101 => ⟨S65536x3, .i32⟩
  | 102 => ⟨S65536x3, .i32⟩
  | 103 => ⟨S65536x3, .i32⟩
  | 104 => ⟨S65536x3x1, .i32⟩
  | 105 => ⟨S65536x3x20, .f32⟩
  | 106 => ⟨S65536x3x20, .f32⟩
  | 107 => ⟨S_, .f32⟩
  | 108 => ⟨S65536x3, .f32⟩
  | 109 => ⟨S65536x3x1, .f32⟩
  | 110 => ⟨S65536x3x1, .f32⟩
  | 111 => ⟨S_, .f32⟩
  | 112 => ⟨S65536x3x1, .f32⟩
  | 113 => ⟨S65536x3x1, .f32⟩
  | 114 => ⟨S_, .f32⟩
  | 115 => ⟨S65536x3x1, .f32⟩
  | 116 => ⟨S65536x3x1, .f32⟩
  | 117 => ⟨S_, .f32⟩
  | 118 => ⟨S65536x3x1, .f32⟩
  | 119 => ⟨S65536x3x1, .f32⟩
  | 120 => ⟨S65536x3x20, .f32⟩
  | 121 => ⟨S65536x3x20, .f32⟩
  | 122 => ⟨S_, .f32⟩
  | 123 => ⟨S65536x20, .f32⟩
  | 124 => ⟨S_, .i32⟩
  | 125 => ⟨S_, .i32⟩
  | 126 => ⟨S_, .i32⟩
  | 127 => ⟨S65536x3, .i32⟩
  | _ => ⟨S65536x64, .f32⟩

abbrev hbmTy0_1 (i : Nat) : BufTy := match i % 128 with
  | 0 => ⟨S65536x3, .i32⟩
  | 1 => ⟨S_, .i32⟩
  | 2 => ⟨S65536x3, .i32⟩
  | 3 => ⟨S65536x3, .i32⟩
  | 4 => ⟨S_, .i32⟩
  | 5 => ⟨S65536x3, .i32⟩
  | 6 => ⟨S65536x3, .i1⟩
  | 7 => ⟨S_, .i32⟩
  | 8 => ⟨S65536x3, .i32⟩
  | 9 => ⟨S65536x3, .i32⟩
  | 10 => ⟨S65536x3, .i32⟩
  | 11 => ⟨S65536x3x1, .i32⟩
  | 12 => ⟨S65536x3x20, .f32⟩
  | 13 => ⟨S65536x3x20, .f32⟩
  | 14 => ⟨S_, .f32⟩
  | 15 => ⟨S65536x3, .f32⟩
  | 16 => ⟨S65536x3x1, .f32⟩
  | 17 => ⟨S65536x3x1, .f32⟩
  | 18 => ⟨S_, .f32⟩
  | 19 => ⟨S65536x3x1, .f32⟩
  | 20 => ⟨S65536x3x1, .f32⟩
  | 21 => ⟨S_, .f32⟩
  | 22 => ⟨S65536x3x1, .f32⟩
  | 23 => ⟨S65536x3x1, .f32⟩
  | 24 => ⟨S_, .f32⟩
  | 25 => ⟨S65536x3x1, .f32⟩
  | 26 => ⟨S65536x3x1, .f32⟩
  | 27 => ⟨S65536x3x20, .f32⟩
  | 28 => ⟨S65536x3x20, .f32⟩
  | 29 => ⟨S_, .f32⟩
  | 30 => ⟨S65536x20, .f32⟩
  | 31 => ⟨S_, .i32⟩
  | 32 => ⟨S_, .i32⟩
  | 33 => ⟨S_, .i32⟩
  | 34 => ⟨S65536x5, .i32⟩
  | 35 => ⟨S65536x5, .i32⟩
  | 36 => ⟨S_, .i32⟩
  | 37 => ⟨S65536x5, .i32⟩
  | 38 => ⟨S65536x5, .i32⟩
  | 39 => ⟨S_, .i32⟩
  | 40 => ⟨S65536x5, .i32⟩
  | 41 => ⟨S65536x5, .i1⟩
  | 42 => ⟨S_, .i32⟩
  | 43 => ⟨S65536x5, .i32⟩
  | 44 => ⟨S65536x5, .i32⟩
  | 45 => ⟨S65536x5, .i32⟩
  | 46 => ⟨S65536x5x1, .i32⟩
  | 47 => ⟨S65536x5x20, .f32⟩
  | 48 => ⟨S65536x5x20, .f32⟩
  | 49 => ⟨S_, .f32⟩
  | 50 => ⟨S65536x5, .f32⟩
  | 51 => ⟨S65536x5x1, .f32⟩
  | 52 => ⟨S65536x5x1, .f32⟩
  | 53 => ⟨S_, .f32⟩
  | 54 => ⟨S65536x5x1, .f32⟩
  | 55 => ⟨S65536x5x1, .f32⟩
  | 56 => ⟨S_, .f32⟩
  | 57 => ⟨S65536x5x1, .f32⟩
  | 58 => ⟨S65536x5x1, .f32⟩
  | 59 => ⟨S_, .f32⟩
  | 60 => ⟨S65536x5x1, .f32⟩
  | 61 => ⟨S65536x5x1, .f32⟩
  | 62 => ⟨S65536x5x20, .f32⟩
  | 63 => ⟨S65536x5x20, .f32⟩
  | 64 => ⟨S_, .f32⟩
  | 65 => ⟨S65536x20, .f32⟩
  | 66 => ⟨S_, .i32⟩
  | 67 => ⟨S_, .i32⟩
  | 68 => ⟨S_, .i32⟩
  | 69 => ⟨S65536x10, .i32⟩
  | 70 => ⟨S65536x10, .i32⟩
  | 71 => ⟨S_, .i32⟩
  | 72 => ⟨S65536x10, .i32⟩
  | 73 => ⟨S65536x10, .i32⟩
  | 74 => ⟨S_, .i32⟩
  | 75 => ⟨S65536x10, .i32⟩
  | 76 => ⟨S65536x10, .i1⟩
  | 77 => ⟨S_, .i32⟩
  | 78 => ⟨S65536x10, .i32⟩
  | 79 => ⟨S65536x10, .i32⟩
  | 80 => ⟨S65536x10, .i32⟩
  | 81 => ⟨S65536x10x1, .i32⟩
  | 82 => ⟨S65536x10x20, .f32⟩
  | 83 => ⟨S65536x10x20, .f32⟩
  | 84 => ⟨S_, .f32⟩
  | 85 => ⟨S65536x10, .f32⟩
  | 86 => ⟨S65536x10x1, .f32⟩
  | 87 => ⟨S65536x10x1, .f32⟩
  | 88 => ⟨S_, .f32⟩
  | 89 => ⟨S65536x10x1, .f32⟩
  | 90 => ⟨S65536x10x1, .f32⟩
  | 91 => ⟨S_, .f32⟩
  | 92 => ⟨S65536x10x1, .f32⟩
  | 93 => ⟨S65536x10x1, .f32⟩
  | 94 => ⟨S_, .f32⟩
  | 95 => ⟨S65536x10x1, .f32⟩
  | 96 => ⟨S65536x10x1, .f32⟩
  | 97 => ⟨S65536x10x20, .f32⟩
  | 98 => ⟨S65536x10x20, .f32⟩
  | 99 => ⟨S_, .f32⟩
  | 100 => ⟨S65536x20, .f32⟩
  | 101 => ⟨S65536x164, .f32⟩
  | 102 => ⟨S1x20, .f32⟩
  | 103 => ⟨S1x64, .f32⟩
  | 104 => ⟨S1x128, .f32⟩
  | 105 => ⟨S65536x128, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | .local _ .vmem, ⟨0, _⟩ => ⟨S2048x164, .f32⟩
  | .local _ .vmem, ⟨1, _⟩ => ⟨S2048x164, .f32⟩
  | .local _ .vmem, ⟨2, _⟩ => ⟨S64x20, .f32⟩
  | .local _ .vmem, ⟨3, _⟩ => ⟨S1x20, .f32⟩
  | .local _ .vmem, ⟨4, _⟩ => ⟨S135x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v0 : Ref sig .tc := ⟨.hbm, 26, rfl⟩
abbrev main_c_1 : Ref sig .tc := ⟨.hbm, 27, rfl⟩
abbrev main_v1 : Ref sig .tc := ⟨.hbm, 28, rfl⟩
abbrev main_v2 : Ref sig .tc := ⟨.hbm, 29, rfl⟩
abbrev main_c_2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_v13 : Ref sig .tc := ⟨.hbm, 43, rfl⟩
abbrev main_cst_4 : Ref sig .tc := ⟨.hbm, 44, rfl⟩
abbrev main_v14 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_6 : Ref sig .tc := ⟨.hbm, 52, rfl⟩
abbrev main_v20 : Ref sig .tc := ⟨.hbm, 53, rfl⟩
abbrev main_c_7 : Ref sig .tc := ⟨.hbm, 54, rfl⟩
abbrev main_c_8 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v21 : Ref sig .tc := ⟨.hbm, 61, rfl⟩
abbrev main_c_9 : Ref sig .tc := ⟨.hbm, 62, rfl⟩
abbrev main_v22 : Ref sig .tc := ⟨.hbm, 63, rfl⟩
abbrev main_v23 : Ref sig .tc := ⟨.hbm, 64, rfl⟩
abbrev main_c_10 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_11 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_12 : Ref sig .tc := ⟨.hbm, 76, rfl⟩
abbrev main_v33 : Ref sig .tc := ⟨.hbm, 77, rfl⟩
abbrev main_v34 : Ref sig .tc := ⟨.hbm, 78, rfl⟩
abbrev main_cst_13 : Ref sig .tc := ⟨.hbm, 79, rfl⟩
abbrev main_v35 : Ref sig .tc := ⟨.hbm, 80, rfl⟩
abbrev main_v36 : Ref sig .tc := ⟨.hbm, 81, rfl⟩
abbrev main_cst_14 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_15 : Ref sig .tc := ⟨.hbm, 87, rfl⟩
abbrev main_v41 : Ref sig .tc := ⟨.hbm, 88, rfl⟩
abbrev main_c_16 : Ref sig .tc := ⟨.hbm, 89, rfl⟩
abbrev main_c_17 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v42 : Ref sig .tc := ⟨.hbm, 96, rfl⟩
abbrev main_c_18 : Ref sig .tc := ⟨.hbm, 97, rfl⟩
abbrev main_v43 : Ref sig .tc := ⟨.hbm, 98, rfl⟩
abbrev main_v44 : Ref sig .tc := ⟨.hbm, 99, rfl⟩
abbrev main_c_19 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_20 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_21 : Ref sig .tc := ⟨.hbm, 111, rfl⟩
abbrev main_v54 : Ref sig .tc := ⟨.hbm, 112, rfl⟩
abbrev main_v55 : Ref sig .tc := ⟨.hbm, 113, rfl⟩
abbrev main_cst_22 : Ref sig .tc := ⟨.hbm, 114, rfl⟩
abbrev main_v56 : Ref sig .tc := ⟨.hbm, 115, rfl⟩
abbrev main_v57 : Ref sig .tc := ⟨.hbm, 116, rfl⟩
abbrev main_cst_23 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_24 : Ref sig .tc := ⟨.hbm, 122, rfl⟩
abbrev main_v62 : Ref sig .tc := ⟨.hbm, 123, rfl⟩
abbrev main_c_25 : Ref sig .tc := ⟨.hbm, 124, rfl⟩
abbrev main_c_26 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v63 : Ref sig .tc := ⟨.hbm, 131, rfl⟩
abbrev main_c_27 : Ref sig .tc := ⟨.hbm, 132, rfl⟩
abbrev main_v64 : Ref sig .tc := ⟨.hbm, 133, rfl⟩
abbrev main_v65 : Ref sig .tc := ⟨.hbm, 134, rfl⟩
abbrev main_c_28 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_29 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_30 : Ref sig .tc := ⟨.hbm, 146, rfl⟩
abbrev main_v75 : Ref sig .tc := ⟨.hbm, 147, rfl⟩
abbrev main_v76 : Ref sig .tc := ⟨.hbm, 148, rfl⟩
abbrev main_cst_31 : Ref sig .tc := ⟨.hbm, 149, rfl⟩
abbrev main_v77 : Ref sig .tc := ⟨.hbm, 150, rfl⟩
abbrev main_v78 : Ref sig .tc := ⟨.hbm, 151, rfl⟩
abbrev main_cst_32 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_cst_33 : Ref sig .tc := ⟨.hbm, 157, rfl⟩
abbrev main_v83 : Ref sig .tc := ⟨.hbm, 158, rfl⟩
abbrev main_c_34 : Ref sig .tc := ⟨.hbm, 159, rfl⟩
abbrev main_c_35 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_v84 : Ref sig .tc := ⟨.hbm, 166, rfl⟩
abbrev main_c_36 : Ref sig .tc := ⟨.hbm, 167, rfl⟩
abbrev main_v85 : Ref sig .tc := ⟨.hbm, 168, rfl⟩
abbrev main_v86 : Ref sig .tc := ⟨.hbm, 169, rfl⟩
abbrev main_c_37 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_cst_38 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_39 : Ref sig .tc := ⟨.hbm, 181, rfl⟩
abbrev main_v96 : Ref sig .tc := ⟨.hbm, 182, rfl⟩
abbrev main_v97 : Ref sig .tc := ⟨.hbm, 183, rfl⟩
abbrev main_cst_40 : Ref sig .tc := ⟨.hbm, 184, rfl⟩
abbrev main_v98 : Ref sig .tc := ⟨.hbm, 185, rfl⟩
abbrev main_v99 : Ref sig .tc := ⟨.hbm, 186, rfl⟩
abbrev main_cst_41 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_cst_42 : Ref sig .tc := ⟨.hbm, 192, rfl⟩
abbrev main_v104 : Ref sig .tc := ⟨.hbm, 193, rfl⟩
abbrev main_c_43 : Ref sig .tc := ⟨.hbm, 194, rfl⟩
abbrev main_c_44 : Ref sig .tc := ⟨.hbm, 195, rfl⟩
abbrev main_call5_v0 : Ref sig .tc := ⟨.hbm, 196, rfl⟩
abbrev main_call5_v1 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_v105 : Ref sig .tc := ⟨.hbm, 201, rfl⟩
abbrev main_c_45 : Ref sig .tc := ⟨.hbm, 202, rfl⟩
abbrev main_v106 : Ref sig .tc := ⟨.hbm, 203, rfl⟩
abbrev main_v107 : Ref sig .tc := ⟨.hbm, 204, rfl⟩
abbrev main_c_46 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_cst_47 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_cst_48 : Ref sig .tc := ⟨.hbm, 216, rfl⟩
abbrev main_v117 : Ref sig .tc := ⟨.hbm, 217, rfl⟩
abbrev main_v118 : Ref sig .tc := ⟨.hbm, 218, rfl⟩
abbrev main_cst_49 : Ref sig .tc := ⟨.hbm, 219, rfl⟩
abbrev main_v119 : Ref sig .tc := ⟨.hbm, 220, rfl⟩
abbrev main_v120 : Ref sig .tc := ⟨.hbm, 221, rfl⟩
abbrev main_cst_50 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_cst_51 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x164 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S135x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S65536x1 : S_.BroadcastsInDim S65536x1 (![] : Fin 0 → Fin S65536x1.rank)
  bcast_S65536x1_S65536x1x1_0_1 : S65536x1.BroadcastsInDim S65536x1x1 (![0, 1] : Fin 2 → Fin S65536x1x1.rank)
  reducesTo_S65536x1x10_S65536x1_d2 : S65536x1x10.ReducesTo [2] S65536x1
  h_S_ : 0 < S_.numel
  bcast_S_S65536x1x1 : S_.BroadcastsInDim S65536x1x1 (![] : Fin 0 → Fin S65536x1x1.rank)
  bcast_S65536x1x1_S65536x1x10_0_1_2 : S65536x1x1.BroadcastsInDim S65536x1x10 (![0, 1, 2] : Fin 3 → Fin S65536x1x10.rank)
  reducesTo_S65536x1x10_S65536x10_d1 : S65536x1x10.ReducesTo [1] S65536x10
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  reducesTo_S65536x2x10_S65536x2_d2 : S65536x2x10.ReducesTo [2] S65536x2
  bcast_S_S65536x2x1 : S_.BroadcastsInDim S65536x2x1 (![] : Fin 0 → Fin S65536x2x1.rank)
  bcast_S65536x2x1_S65536x2x10_0_1_2 : S65536x2x1.BroadcastsInDim S65536x2x10 (![0, 1, 2] : Fin 3 → Fin S65536x2x10.rank)
  reducesTo_S65536x2x10_S65536x10_d1 : S65536x2x10.ReducesTo [1] S65536x10
  bcast_S_S65536x3 : S_.BroadcastsInDim S65536x3 (![] : Fin 0 → Fin S65536x3.rank)
  bcast_S65536x3_S65536x3x1_0_1 : S65536x3.BroadcastsInDim S65536x3x1 (![0, 1] : Fin 2 → Fin S65536x3x1.rank)
  reducesTo_S65536x3x20_S65536x3_d2 : S65536x3x20.ReducesTo [2] S65536x3
  bcast_S_S65536x3x1 : S_.BroadcastsInDim S65536x3x1 (![] : Fin 0 → Fin S65536x3x1.rank)
  bcast_S65536x3x1_S65536x3x20_0_1_2 : S65536x3x1.BroadcastsInDim S65536x3x20 (![0, 1, 2] : Fin 3 → Fin S65536x3x20.rank)
  reducesTo_S65536x3x20_S65536x20_d1 : S65536x3x20.ReducesTo [1] S65536x20
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  reducesTo_S65536x5x20_S65536x5_d2 : S65536x5x20.ReducesTo [2] S65536x5
  bcast_S_S65536x5x1 : S_.BroadcastsInDim S65536x5x1 (![] : Fin 0 → Fin S65536x5x1.rank)
  bcast_S65536x5x1_S65536x5x20_0_1_2 : S65536x5x1.BroadcastsInDim S65536x5x20 (![0, 1, 2] : Fin 3 → Fin S65536x5x20.rank)
  reducesTo_S65536x5x20_S65536x20_d1 : S65536x5x20.ReducesTo [1] S65536x20
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  reducesTo_S65536x10x20_S65536x10_d2 : S65536x10x20.ReducesTo [2] S65536x10
  bcast_S_S65536x10x1 : S_.BroadcastsInDim S65536x10x1 (![] : Fin 0 → Fin S65536x10x1.rank)
  bcast_S65536x10x1_S65536x10x20_0_1_2 : S65536x10x1.BroadcastsInDim S65536x10x20 (![0, 1, 2] : Fin 3 → Fin S65536x10x20.rank)
  reducesTo_S65536x10x20_S65536x20_d1 : S65536x10x20.ReducesTo [1] S65536x20
  concatenates_S65536x64_S65536x10_S65536x10_S65536x20_S65536x20_S65536x20_S65536x20_S65536x164_d1 : Shape.Concatenates [S65536x64, S65536x10, S65536x10, S65536x20, S65536x20, S65536x20, S65536x20] S65536x164 1
  shapeCasts_S20_S1x20 : S20.ShapeCasts S1x20
  shapeCasts_S64_S1x64 : S64.ShapeCasts S1x64
  shapeCasts_S128_S1x128 : S128.ShapeCasts S1x128
  inb_S2048x164_S2048x164_0_0 : ∀ a, (![0, 0] : Fin 2 → Nat) a + S2048x164.size a ≤ S2048x164.size a
  h_S2048x164 : 0 < S2048x164.numel
  shapeCasts_S2048x164_S2048x164 : S2048x164.ShapeCasts S2048x164
  slices_S2048x164_o0_0_S2048x64 : S2048x164.Slices ![0, 0] S2048x64
  slices_S2048x164_o0_64_S2048x10 : S2048x164.Slices ![0, 64] S2048x10
  slices_S2048x164_o0_74_S2048x10 : S2048x164.Slices ![0, 74] S2048x10
  slices_S2048x164_o0_84_S2048x20 : S2048x164.Slices ![0, 84] S2048x20
  slices_S2048x164_o0_104_S2048x20 : S2048x164.Slices ![0, 104] S2048x20
  slices_S2048x164_o0_124_S2048x20 : S2048x164.Slices ![0, 124] S2048x20
  slices_S2048x164_o0_144_S2048x20 : S2048x164.Slices ![0, 144] S2048x20
  bitsLt_bf16_f32 : FTy.bits .bf16 < FTy.bits .f32
  inb_S64x20_S64x20_0_0 : ∀ a, (![0, 0] : Fin 2 → Nat) a + S64x20.size a ≤ S64x20.size a
  h_S64x20 : 0 < S64x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  concatenates_S2048x10_S2048x10_S2048x20_d1 : Shape.Concatenates [S2048x10, S2048x10] S2048x20 1
  reduces_S2048x20_S2048 : S2048x20.Reduces [1] S2048
  shapeCasts_S2048_S2048x1 : S2048.ShapeCasts S2048x1
  concatenates_S2048x1_S2048x1_S2048x1_S2048x1_S2048x1_S2048x1_S2048x1_S2048x1_S2048x1_S2048x1_S2048x1_S2048x1_S2048x1_S2048x1_S2048x1_S2048x15_d1 : Shape.Concatenates [S2048x1, S2048x1, S2048x1, S2048x1, S2048x1, S2048x1, S2048x1, S2048x1, S2048x1, S2048x1, S2048x1, S2048x1, S2048x1, S2048x1, S2048x1] S2048x15 1
  concatenates_S2048x20_S2048x10_S2048x10_S2048x20_S2048x20_S2048x20_S2048x20_S2048x15_S2048x135_d1 : Shape.Concatenates [S2048x20, S2048x10, S2048x10, S2048x20, S2048x20, S2048x20, S2048x20, S2048x15] S2048x135 1
  inb_S135x64_S135x64_0_0 : ∀ a, (![0, 0] : Fin 2 → Nat) a + S135x64.size a ≤ S135x64.size a
  h_S135x64 : 0 < S135x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  gather_S50000x10_S65536x1x1_S65536x1x10_2_0_n_n_0_2_110_wf : GatherDims.WF S50000x10 S65536x1x1 S65536x1x10 [2] [0] [] [0] [] 2 ![1, 10]
  gather_S50000x10_S65536x2x1_S65536x2x10_2_0_n_n_0_2_110_wf : GatherDims.WF S50000x10 S65536x2x1 S65536x2x10 [2] [0] [] [0] [] 2 ![1, 10]
  gather_S50000x20_S65536x3x1_S65536x3x20_2_0_n_n_0_2_120_wf : GatherDims.WF S50000x20 S65536x3x1 S65536x3x20 [2] [0] [] [0] [] 2 ![1, 20]
  gather_S50000x20_S65536x5x1_S65536x5x20_2_0_n_n_0_2_120_wf : GatherDims.WF S50000x20 S65536x5x1 S65536x5x20 [2] [0] [] [0] [] 2 ![1, 20]
  gather_S50000x20_S65536x10x1_S65536x10x20_2_0_n_n_0_2_120_wf : GatherDims.WF S50000x20 S65536x10x1 S65536x10x20 [2] [0] [] [0] [] 2 ![1, 20]
  dot_S2048x64_S64x20_S2048x20_1_0_0_1_n_n_wf : DotDims.WF S2048x64 S64x20 S2048x20 [1] [0] [0] [1] [] []
  dot_S2048x135_S135x64_S2048x64_1_0_0_1_n_n_wf : DotDims.WF S2048x135 S135x64 S2048x64 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x164.size a ≤ S65536x164.size a
  hwx0_0 : ∀ i : grid0.Coords, EltTy.bits .f32 = 32 ∨ (Rect.block (s := S65536x164) S2048x164.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x20.size a ≤ S64x20.size a
  hwx0_1 : ∀ i : grid0.Coords, EltTy.bits .f32 = 32 ∨ (Rect.block (s := S64x20) S64x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S135x64.size a ≤ S135x64.size a
  hwx0_3 : ∀ i : grid0.Coords, EltTy.bits .f32 = 32 ∨ (Rect.block (s := S135x64) S135x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S65536x128.size a
  hwx0_7 : ∀ i : grid0.Coords, EltTy.bits .f32 = 32 ∨ (Rect.block (s := S65536x128) S2048x128.size (cc0_transform_7 i) (hinb0_7 i)).WholeWords (EltTy.packing .f32)

variable [Facts₀]

def gather_S50000x10_S65536x1x1_S65536x1x10_2_0_n_n_0_2_110 : GatherDims S50000x10 S65536x1x1 S65536x1x10 where
  offsetDims := [2]
  collapsedSliceDims := [0]
  operandBatchingDims := []
  startIndicesBatchingDims := []
  startIndexMap := [0]
  indexVectorDim := 2
  sliceSizes := ![1, 10]
  wf := gather_S50000x10_S65536x1x1_S65536x1x10_2_0_n_n_0_2_110_wf
def gather_S50000x10_S65536x2x1_S65536x2x10_2_0_n_n_0_2_110 : GatherDims S50000x10 S65536x2x1 S65536x2x10 where
  offsetDims := [2]
  collapsedSliceDims := [0]
  operandBatchingDims := []
  startIndicesBatchingDims := []
  startIndexMap := [0]
  indexVectorDim := 2
  sliceSizes := ![1, 10]
  wf := gather_S50000x10_S65536x2x1_S65536x2x10_2_0_n_n_0_2_110_wf
def gather_S50000x20_S65536x3x1_S65536x3x20_2_0_n_n_0_2_120 : GatherDims S50000x20 S65536x3x1 S65536x3x20 where
  offsetDims := [2]
  collapsedSliceDims := [0]
  operandBatchingDims := []
  startIndicesBatchingDims := []
  startIndexMap := [0]
  indexVectorDim := 2
  sliceSizes := ![1, 20]
  wf := gather_S50000x20_S65536x3x1_S65536x3x20_2_0_n_n_0_2_120_wf
def gather_S50000x20_S65536x5x1_S65536x5x20_2_0_n_n_0_2_120 : GatherDims S50000x20 S65536x5x1 S65536x5x20 where
  offsetDims := [2]
  collapsedSliceDims := [0]
  operandBatchingDims := []
  startIndicesBatchingDims := []
  startIndexMap := [0]
  indexVectorDim := 2
  sliceSizes := ![1, 20]
  wf := gather_S50000x20_S65536x5x1_S65536x5x20_2_0_n_n_0_2_120_wf
def gather_S50000x20_S65536x10x1_S65536x10x20_2_0_n_n_0_2_120 : GatherDims S50000x20 S65536x10x1 S65536x10x20 where
  offsetDims := [2]
  collapsedSliceDims := [0]
  operandBatchingDims := []
  startIndicesBatchingDims := []
  startIndexMap := [0]
  indexVectorDim := 2
  sliceSizes := ![1, 20]
  wf := gather_S50000x20_S65536x10x1_S65536x10x20_2_0_n_n_0_2_120_wf
def dot_S2048x64_S64x20_S2048x20_1_0_0_1_n_n : DotDims S2048x64 S64x20 S2048x20 where
  lhsContracting := [1]
  rhsContracting := [0]
  lhsNonContracting := [0]
  rhsNonContracting := [1]
  lhsBatch := []
  rhsBatch := []
  wf := dot_S2048x64_S64x20_S2048x20_1_0_0_1_n_n_wf
def dot_S2048x135_S135x64_S2048x64_1_0_0_1_n_n : DotDims S2048x135 S135x64 S2048x64 where
  lhsContracting := [1]
  rhsContracting := [0]
  lhsNonContracting := [0]
  rhsNonContracting := [1]
  lhsBatch := []
  rhsBatch := []
  wf := dot_S2048x135_S135x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_v126) S2048x164.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v127) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S135x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v128) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg17) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v129) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v130) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x1 : Shape := ⟨2, ![65536, 1]⟩
abbrev S65536x2 : Shape := ⟨2, ![65536, 2]⟩
abbrev S65536x3 : Shape := ⟨2, ![65536, 3]⟩
abbrev S65536x5 : Shape := ⟨2, ![65536, 5]⟩
abbrev S65536x10 : Shape := ⟨2, ![65536, 10]⟩
abbrev S64x20 : Shape := ⟨2, ![64, 20]⟩
abbrev S20 : Shape := ⟨1, ![20]⟩
abbrev S50000x10 : Shape := ⟨2, ![50000, 10]⟩
abbrev S50000x20 : Shape := ⟨2, ![50000, 20]⟩
abbrev S135x64 : Shape := ⟨2, ![135, 64]⟩
abbrev S64 : Shape := ⟨1, ![64]⟩
abbrev S64x128 : Shape := ⟨2, ![64, 128]⟩
abbrev S128 : Shape := ⟨1, ![128]⟩
abbrev S15 : Shape := ⟨1, ![15]⟩
abbrev S65536x20 : Shape := ⟨2, ![65536, 20]⟩
abbrev S1x20 : Shape := ⟨2, ![1, 20]⟩
abbrev S_ : Shape := ⟨0, ![]⟩
abbrev S65536x1x1 : Shape := ⟨3, ![65536, 1, 1]⟩
abbrev S65536x1x10 : Shape := ⟨3, ![65536, 1, 10]⟩
abbrev S65536x2x1 : Shape := ⟨3, ![65536, 2, 1]⟩
abbrev S65536x2x10 : Shape := ⟨3, ![65536, 2, 10]⟩
abbrev S65536x3x1 : Shape := ⟨3, ![65536, 3, 1]⟩
abbrev S65536x3x20 : Shape := ⟨3, ![65536, 3, 20]⟩
abbrev S65536x5x1 : Shape := ⟨3, ![65536, 5, 1]⟩
abbrev S65536x5x20 : Shape := ⟨3, ![65536, 5, 20]⟩
abbrev S65536x10x1 : Shape := ⟨3, ![65536, 10, 1]⟩
abbrev S65536x10x20 : Shape := ⟨3, ![65536, 10, 20]⟩
abbrev S65536x1x20 : Shape := ⟨3, ![65536, 1, 20]⟩
abbrev S65536x6x20 : Shape := ⟨3, ![65536, 6, 20]⟩
abbrev S65536x6x6 : Shape := ⟨3, ![65536, 6, 6]⟩
abbrev S15x1 : Shape := ⟨2, ![15, 1]⟩
abbrev S15x2 : Shape := ⟨2, ![15, 2]⟩
abbrev S65536x15 : Shape := ⟨2, ![65536, 15]⟩
abbrev S65536x135 : Shape := ⟨2, ![65536, 135]⟩
abbrev S1x64 : Shape := ⟨2, ![1, 64]⟩
abbrev S65536x128 : Shape := ⟨2, ![65536, 128]⟩
abbrev S1x128 : Shape := ⟨2, ![1, 128]⟩

abbrev nBuf : Space → Nat
  | .hbm => 226
  | .vmem => 0
  | .smem => 0
  | _ => 0

abbrev hbmTy0_0 (i : Nat) : BufTy := match i % 128 with
  | 0 => ⟨S65536x64, .f32⟩
  | 1 => ⟨S65536x1, .i32⟩
  | 2 => ⟨S65536x2, .i32⟩
  | 3 => ⟨S65536x3, .i32⟩
  | 4 => ⟨S65536x3, .i32⟩
  | 5 => ⟨S65536x5, .i32⟩
  | 6 => ⟨S65536x10, .i32⟩
  | 7 => ⟨S64x20, .f32⟩
  | 8 => ⟨S20, .f32⟩
  | 9 => ⟨S50000x10, .f32⟩
  | 10 => ⟨S50000x10, .f32⟩
  | 11 => ⟨S50000x20, .f32⟩
  | 12 => ⟨S50000x20, .f32⟩
  | 13 => ⟨S50000x20, .f32⟩
  | 14 => ⟨S50000x20, .f32⟩
  | 15 => ⟨S135x64, .f32⟩
  | 16 => ⟨S64, .f32⟩
  | 17 => ⟨S64x128, .f32⟩
  | 18 => ⟨S128, .f32⟩
  | 19 => ⟨S15, .i32⟩
  | 20 => ⟨S15, .i1⟩
  | 21 => ⟨S15, .i32⟩
  | 22 => ⟨S15, .i1⟩
  | 23 => ⟨S65536x20, .f32⟩
  | 24 => ⟨S1x20, .f32⟩
  | 25 => ⟨S65536x20, .f32⟩
  | 26 => ⟨S65536x20, .f32⟩
  | 27 => ⟨S_, .i32⟩
  | 28 => ⟨S65536x1, .i32⟩
  | 29 => ⟨S65536x1, .i1⟩
  | 30 => ⟨S_, .i32⟩
  | 31 => ⟨S65536x1, .i32⟩
  | 32 => ⟨S65536x1, .i32⟩
  | 33 => ⟨S65536x1, .i32⟩
  | 34 => ⟨S65536x1x1, .i32⟩
  | 35 => ⟨S65536x1x10, .f32⟩
  | 36 => ⟨S65536x1x10, .f32⟩
  | 37 => ⟨S_, .f32⟩
  | 38 => ⟨S65536x1, .f32⟩
  | 39 => ⟨S65536x1x1, .f32⟩
  | 40 => ⟨S65536x1x1, .f32⟩
  | 41 => ⟨S_, .f32⟩
  | 42 => ⟨S65536x1x1, .f32⟩
  | 43 => ⟨S65536x1x1, .f32⟩
  | 44 => ⟨S_, .f32⟩
  | 45 => ⟨S65536x1x1, .f32⟩
  | 46 => ⟨S65536x1x1, .f32⟩
  | 47 => ⟨S_, .f32⟩
  | 48 => ⟨S65536x1x1, .f32⟩
  | 49 => ⟨S65536x1x1, .f32⟩
  | 50 => ⟨S65536x1x10, .f32⟩
  | 51 => ⟨S65536x1x10, .f32⟩
  | 52 => ⟨S_, .f32⟩
  | 53 => ⟨S65536x10, .f32⟩
  | 54 => ⟨S_, .i32⟩
  | 55 => ⟨S65536x2, .i32⟩
  | 56 => ⟨S65536x2, .i1⟩
  | 57 => ⟨S_, .i32⟩
  | 58 => ⟨S65536x2, .i32⟩
  | 59 => ⟨S65536x2, .i32⟩
  | 60 => ⟨S65536x2, .i32⟩
  | 61 => ⟨S65536x2x1, .i32⟩
  | 62 => ⟨S65536x2x10, .f32⟩
  | 63 => ⟨S65536x2x10, .f32⟩
  | 64 => ⟨S_, .f32⟩
  | 65 => ⟨S65536x2, .f32⟩
  | 66 => ⟨S65536x2x1, .f32⟩
  | 67 => ⟨S65536x2x1, .f32⟩
  | 68 => ⟨S_, .f32⟩
  | 69 => ⟨S65536x2x1, .f32⟩
  | 70 => ⟨S65536x2x1, .f32⟩
  | 71 => ⟨S_, .f32⟩
  | 72 => ⟨S65536x2x1, .f32⟩
  | 73 => ⟨S65536x2x1, .f32⟩
  | 74 => ⟨S_, .f32⟩
  | 75 => ⟨S65536x2x1, .f32⟩
  | 76 => ⟨S65536x2x1, .f32⟩
  | 77 => ⟨S65536x2x10, .f32⟩
  | 78 => ⟨S65536x2x10, .f32⟩
  | 79 => ⟨S_, .f32⟩
  | 80 => ⟨S65536x10, .f32⟩
  | 81 => ⟨S_, .i32⟩
  | 82 => ⟨S65536x3, .i32⟩
  | 83 => ⟨S65536x3, .i1⟩
  | 84 => ⟨S_, .i32⟩
  | 85 => ⟨S65536x3, .i32⟩
  | 86 => ⟨S65536x3, .i32⟩
  | 87 => ⟨S65536x3, .i32⟩
  | 88 => ⟨S65536x3x1, .i32⟩
  | 89 => ⟨S65536x3x20, .f32⟩
  | 90 => ⟨S65536x3x20, .f32⟩
  | 91 => ⟨S_, .f32⟩
  | 92 => ⟨S65536x3, .f32⟩
  | 93 => ⟨S65536x3x1, .f32⟩
  | 94 => ⟨S65536x3x1, .f32⟩
  | 95 => ⟨S_, .f32⟩
  | 96 => ⟨S65536x3x1, .f32⟩
  | 97 => ⟨S65536x3x1, .f32⟩
  | 98 => ⟨S_, .f32⟩
  | 99 => ⟨S65536x3x1, .f32⟩
  | 100 => ⟨S65536x3x1, .f32⟩
  | 101 => ⟨S_, .f32⟩
  | 102 => ⟨S65536x3x1, .f32⟩
  | 103 => ⟨S65536x3x1, .f32⟩
  | 104 => ⟨S65536x3x20, .f32⟩
  | 105 => ⟨S65536x3x20, .f32⟩
  | 106 => ⟨S_, .f32⟩
  | 107 => ⟨S65536x20, .f32⟩
  | 108 => ⟨S_, .i32⟩
  | 109 => ⟨S65536x3, .i32⟩
  | 110 => ⟨S65536x3, .i1⟩
  | 111 => ⟨S_, .i32⟩
  | 112 => ⟨S65536x3, .i32⟩
  | 113 => ⟨S65536x3, .i32⟩
  | 114 => ⟨S65536x3, .i32⟩
  | 115 => ⟨S65536x3x1, .i32⟩
  | 116 => ⟨S65536x3x20, .f32⟩
  | 117 => ⟨S65536x3x20, .f32⟩
  | 118 => ⟨S_, .f32⟩
  | 119 => ⟨S65536x3, .f32⟩
  | 120 => ⟨S65536x3x1, .f32⟩
  | 121 => ⟨S65536x3x1, .f32⟩
  | 122 => ⟨S_, .f32⟩
  | 123 => ⟨S65536x3x1, .f32⟩
  | 124 => ⟨S65536x3x1, .f32⟩
  | 125 => ⟨S_, .f32⟩
  | 126 => ⟨S65536x3x1, .f32⟩
  | 127 => ⟨S65536x3x1, .f32⟩
  | _ => ⟨S65536x64, .f32⟩

abbrev hbmTy0_1 (i : Nat) : BufTy := match i % 128 with
  | 0 => ⟨S_, .f32⟩
  | 1 => ⟨S65536x3x1, .f32⟩
  | 2 => ⟨S65536x3x1, .f32⟩
  | 3 => ⟨S65536x3x20, .f32⟩
  | 4 => ⟨S65536x3x20, .f32⟩
  | 5 => ⟨S_, .f32⟩
  | 6 => ⟨S65536x20, .f32⟩
  | 7 => ⟨S_, .i32⟩
  | 8 => ⟨S65536x5, .i32⟩
  | 9 => ⟨S65536x5, .i1⟩
  | 10 => ⟨S_, .i32⟩
  | 11 => ⟨S65536x5, .i32⟩
  | 12 => ⟨S65536x5, .i32⟩
  | 13 => ⟨S65536x5, .i32⟩
  | 14 => ⟨S65536x5x1, .i32⟩
  | 15 => ⟨S65536x5x20, .f32⟩
  | 16 => ⟨S65536x5x20, .f32⟩
  | 17 => ⟨S_, .f32⟩
  | 18 => ⟨S65536x5, .f32⟩
  | 19 => ⟨S65536x5x1, .f32⟩
  | 20 => ⟨S65536x5x1, .f32⟩
  | 21 => ⟨S_, .f32⟩
  | 22 => ⟨S65536x5x1, .f32⟩
  | 23 => ⟨S65536x5x1, .f32⟩
  | 24 => ⟨S_, .f32⟩
  | 25 => ⟨S65536x5x1, .f32⟩
  | 26 => ⟨S65536x5x1, .f32⟩
  | 27 => ⟨S_, .f32⟩
  | 28 => ⟨S65536x5x1, .f32⟩
  | 29 => ⟨S65536x5x1, .f32⟩
  | 30 => ⟨S65536x5x20, .f32⟩
  | 31 => ⟨S65536x5x20, .f32⟩
  | 32 => ⟨S_, .f32⟩
  | 33 => ⟨S65536x20, .f32⟩
  | 34 => ⟨S_, .i32⟩
  | 35 => ⟨S65536x10, .i32⟩
  | 36 => ⟨S65536x10, .i1⟩
  | 37 => ⟨S_, .i32⟩
  | 38 => ⟨S65536x10, .i32⟩
  | 39 => ⟨S65536x10, .i32⟩
  | 40 => ⟨S65536x10, .i32⟩
  | 41 => ⟨S65536x10x1, .i32⟩
  | 42 => ⟨S65536x10x20, .f32⟩
  | 43 => ⟨S65536x10x20, .f32⟩
  | 44 => ⟨S_, .f32⟩
  | 45 => ⟨S65536x10, .f32⟩
  | 46 => ⟨S65536x10x1, .f32⟩
  | 47 => ⟨S65536x10x1, .f32⟩
  | 48 => ⟨S_, .f32⟩
  | 49 => ⟨S65536x10x1, .f32⟩
  | 50 => ⟨S65536x10x1, .f32⟩
  | 51 => ⟨S_, .f32⟩
  | 52 => ⟨S65536x10x1, .f32⟩
  | 53 => ⟨S65536x10x1, .f32⟩
  | 54 => ⟨S_, .f32⟩
  | 55 => ⟨S65536x10x1, .f32⟩
  | 56 => ⟨S65536x10x1, .f32⟩
  | 57 => ⟨S65536x10x20, .f32⟩
  | 58 => ⟨S65536x10x20, .f32⟩
  | 59 => ⟨S_, .f32⟩
  | 60 => ⟨S65536x20, .f32⟩
  | 61 => ⟨S65536x20, .f32⟩
  | 62 => ⟨S65536x1x20, .f32⟩
  | 63 => ⟨S65536x1x20, .f32⟩
  | 64 => ⟨S65536x1x20, .f32⟩
  | 65 => ⟨S65536x1x20, .f32⟩
  | 66 => ⟨S65536x1x20, .f32⟩
  | 67 => ⟨S65536x1x20, .f32⟩
  | 68 => ⟨S65536x6x20, .f32⟩
  | 69 => ⟨S65536x6x6, .f32⟩
  | 70 => ⟨S_, .i32⟩
  | 71 => ⟨S15, .i32⟩
  | 72 => ⟨S15, .i32⟩
  | 73 => ⟨S15, .i32⟩
  | 74 => ⟨S_, .i32⟩
  | 75 => ⟨S15, .i32⟩
  | 76 => ⟨S15, .i32⟩
  | 77 => ⟨S15, .i32⟩
  | 78 => ⟨S15x1, .i32⟩
  | 79 => ⟨S15x1, .i32⟩
  | 80 => ⟨S15x2, .i32⟩
  | 81 => ⟨S65536x15, .f32⟩
  | 82 => ⟨S65536x135, .f32⟩
  | 83 => ⟨S65536x64, .f32⟩
  | 84 => ⟨S1x64, .f32⟩
  | 85 => ⟨S65536x64, .f32⟩
  | 86 => ⟨S65536x64, .f32⟩
  | 87 => ⟨S_, .f32⟩
  | 88 => ⟨S65536x64, .f32⟩
  | 89 => ⟨S65536x64, .i1⟩
  | 90 => ⟨S_, .f32⟩
  | 91 => ⟨S65536x64, .f32⟩
  | 92 => ⟨S65536x64, .f32⟩
  | 93 => ⟨S65536x64, .f32⟩
  | 94 => ⟨S65536x128, .f32⟩
  | 95 => ⟨S1x128, .f32⟩
  | 96 => ⟨S65536x128, .f32⟩
  | 97 => ⟨S65536x128, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_c_0 : Ref sig .tc := ⟨.hbm, 20, rfl⟩
abbrev main_c_1 : Ref sig .tc := ⟨.hbm, 21, rfl⟩
abbrev main_c_2 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c_3 : Ref sig .tc := ⟨.hbm, 27, rfl⟩
abbrev main_v4 : Ref sig .tc := ⟨.hbm, 28, rfl⟩
abbrev main_v5 : Ref sig .tc := ⟨.hbm, 29, rfl⟩
abbrev main_c_4 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_cst_6 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_7 : Ref sig .tc := ⟨.hbm, 52, rfl⟩
abbrev main_v20 : Ref sig .tc := ⟨.hbm, 53, rfl⟩
abbrev main_c_8 : Ref sig .tc := ⟨.hbm, 54, rfl⟩
abbrev main_v21 : Ref sig .tc := ⟨.hbm, 55, rfl⟩
abbrev main_v22 : Ref sig .tc := ⟨.hbm, 56, rfl⟩
abbrev main_c_9 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call1_v0 : Ref sig .tc := ⟨.hbm, 63, rfl⟩
abbrev main_call1_cst : Ref sig .tc := ⟨.hbm, 64, rfl⟩
abbrev main_call1_v1 : Ref sig .tc := ⟨.hbm, 65, rfl⟩
abbrev main_call1_v2 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_cst_11 : Ref sig .tc := ⟨.hbm, 71, rfl⟩
abbrev main_v31 : Ref sig .tc := ⟨.hbm, 72, rfl⟩
abbrev main_v32 : Ref sig .tc := ⟨.hbm, 73, rfl⟩
abbrev main_cst_12 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_c_14 : Ref sig .tc := ⟨.hbm, 81, rfl⟩
abbrev main_v38 : Ref sig .tc := ⟨.hbm, 82, rfl⟩
abbrev main_v39 : Ref sig .tc := ⟨.hbm, 83, rfl⟩
abbrev main_c_15 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_call2_v0 : Ref sig .tc := ⟨.hbm, 90, rfl⟩
abbrev main_call2_cst : Ref sig .tc := ⟨.hbm, 91, rfl⟩
abbrev main_call2_v1 : Ref sig .tc := ⟨.hbm, 92, rfl⟩
abbrev main_call2_v2 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_19 : Ref sig .tc := ⟨.hbm, 106, rfl⟩
abbrev main_v54 : Ref sig .tc := ⟨.hbm, 107, rfl⟩
abbrev main_c_20 : Ref sig .tc := ⟨.hbm, 108, rfl⟩
abbrev main_v55 : Ref sig .tc := ⟨.hbm, 109, rfl⟩
abbrev main_v56 : Ref sig .tc := ⟨.hbm, 110, rfl⟩
abbrev main_c_21 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call3_v0 : Ref sig .tc := ⟨.hbm, 117, rfl⟩
abbrev main_call3_cst : Ref sig .tc := ⟨.hbm, 118, rfl⟩
abbrev main_call3_v1 : Ref sig .tc := ⟨.hbm, 119, rfl⟩
abbrev main_call3_v2 : Ref sig .tc := ⟨.hbm, 120, rfl⟩
abbrev main_v62 : Ref sig .tc := ⟨.hbm, 121, rfl⟩
abbrev main_cst_22 : Ref sig .tc := ⟨.hbm, 122, rfl⟩
abbrev main_v63 : Ref sig .tc := ⟨.hbm, 123, rfl⟩
abbrev main_v64 : Ref sig .tc := ⟨.hbm, 124, rfl⟩
abbrev main_cst_23 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_cst_25 : Ref sig .tc := ⟨.hbm, 133, rfl⟩
abbrev main_v71 : Ref sig .tc := ⟨.hbm, 134, rfl⟩
abbrev main_c_26 : Ref sig .tc := ⟨.hbm, 135, rfl⟩
abbrev main_v72 : Ref sig .tc := ⟨.hbm, 136, rfl⟩
abbrev main_v73 : Ref sig .tc := ⟨.hbm, 137, rfl⟩
abbrev main_c_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_call4_v0 : Ref sig .tc := ⟨.hbm, 144, rfl⟩
abbrev main_call4_cst : Ref sig .tc := ⟨.hbm, 145, rfl⟩
abbrev main_call4_v1 : Ref sig .tc := ⟨.hbm, 146, rfl⟩
abbrev main_call4_v2 : Ref sig .tc := ⟨.hbm, 147, rfl⟩
abbrev main_v79 : Ref sig .tc := ⟨.hbm, 148, rfl⟩
abbrev main_cst_28 : Ref sig .tc := ⟨.hbm, 149, rfl⟩
abbrev main_v80 : Ref sig .tc := ⟨.hbm, 150, rfl⟩
abbrev main_v81 : Ref sig .tc := ⟨.hbm, 151, rfl⟩
abbrev main_cst_29 : Ref sig .tc := ⟨.hbm, 152, rfl⟩
abbrev main_v82 : Ref sig .tc := ⟨.hbm, 153, rfl⟩
abbrev main_v83 : Ref sig .tc := ⟨.hbm, 154, rfl⟩
abbrev main_cst_30 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_cst_31 : Ref sig .tc := ⟨.hbm, 160, rfl⟩
abbrev main_v88 : Ref sig .tc := ⟨.hbm, 161, rfl⟩
abbrev main_c_32 : Ref sig .tc := ⟨.hbm, 162, rfl⟩
abbrev main_v89 : Ref sig .tc := ⟨.hbm, 163, rfl⟩
abbrev main_v90 : Ref sig .tc := ⟨.hbm, 164, rfl⟩
abbrev main_c_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_call5_v0 : Ref sig .tc := ⟨.hbm, 171, rfl⟩
abbrev main_call5_cst : Ref sig .tc := ⟨.hbm, 172, rfl⟩
abbrev main_call5_v1 : Ref sig .tc := ⟨.hbm, 173, rfl⟩
abbrev main_call5_v2 : Ref sig .tc := ⟨.hbm, 174, rfl⟩
abbrev main_v96 : Ref sig .tc := ⟨.hbm, 175, rfl⟩
abbrev main_cst_34 : Ref sig .tc := ⟨.hbm, 176, rfl⟩
abbrev main_v97 : Ref sig .tc := ⟨.hbm, 177, rfl⟩
abbrev main_v98 : Ref sig .tc := ⟨.hbm, 178, rfl⟩
abbrev main_cst_35 : Ref sig .tc := ⟨.hbm, 179, rfl⟩
abbrev main_v99 : Ref sig .tc := ⟨.hbm, 180, rfl⟩
abbrev main_v100 : Ref sig .tc := ⟨.hbm, 181, rfl⟩
abbrev main_cst_36 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_37 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_c_38 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_c_39 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_40 : Ref sig .tc := ⟨.hbm, 215, rfl⟩
abbrev main_v130 : Ref sig .tc := ⟨.hbm, 216, rfl⟩
abbrev main_v131 : Ref sig .tc := ⟨.hbm, 217, rfl⟩
abbrev main_cst_41 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  bcast_S_S65536x1 : S_.BroadcastsInDim S65536x1 (![] : Fin 0 → Fin S65536x1.rank)
  bcast_S65536x1_S65536x1x1_0_1 : S65536x1.BroadcastsInDim S65536x1x1 (![0, 1] : Fin 2 → Fin S65536x1x1.rank)
  reducesTo_S65536x1x10_S65536x1_d2 : S65536x1x10.ReducesTo [2] S65536x1
  h_S_ : 0 < S_.numel
  bcast_S_S65536x1x1 : S_.BroadcastsInDim S65536x1x1 (![] : Fin 0 → Fin S65536x1x1.rank)
  bcast_S65536x1x1_S65536x1x10_0_1_2 : S65536x1x1.BroadcastsInDim S65536x1x10 (![0, 1, 2] : Fin 3 → Fin S65536x1x10.rank)
  reducesTo_S65536x1x10_S65536x10_d1 : S65536x1x10.ReducesTo [1] S65536x10
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  reducesTo_S65536x2x10_S65536x2_d2 : S65536x2x10.ReducesTo [2] S65536x2
  bcast_S_S65536x2x1 : S_.BroadcastsInDim S65536x2x1 (![] : Fin 0 → Fin S65536x2x1.rank)
  bcast_S65536x2x1_S65536x2x10_0_1_2 : S65536x2x1.BroadcastsInDim S65536x2x10 (![0, 1, 2] : Fin 3 → Fin S65536x2x10.rank)
  reducesTo_S65536x2x10_S65536x10_d1 : S65536x2x10.ReducesTo [1] S65536x10
  bcast_S_S65536x3 : S_.BroadcastsInDim S65536x3 (![] : Fin 0 → Fin S65536x3.rank)
  bcast_S65536x3_S65536x3x1_0_1 : S65536x3.BroadcastsInDim S65536x3x1 (![0, 1] : Fin 2 → Fin S65536x3x1.rank)
  reducesTo_S65536x3x20_S65536x3_d2 : S65536x3x20.ReducesTo [2] S65536x3
  bcast_S_S65536x3x1 : S_.BroadcastsInDim S65536x3x1 (![] : Fin 0 → Fin S65536x3x1.rank)
  bcast_S65536x3x1_S65536x3x20_0_1_2 : S65536x3x1.BroadcastsInDim S65536x3x20 (![0, 1, 2] : Fin 3 → Fin S65536x3x20.rank)
  reducesTo_S65536x3x20_S65536x20_d1 : S65536x3x20.ReducesTo [1] S65536x20
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  reducesTo_S65536x5x20_S65536x5_d2 : S65536x5x20.ReducesTo [2] S65536x5
  bcast_S_S65536x5x1 : S_.BroadcastsInDim S65536x5x1 (![] : Fin 0 → Fin S65536x5x1.rank)
  bcast_S65536x5x1_S65536x5x20_0_1_2 : S65536x5x1.BroadcastsInDim S65536x5x20 (![0, 1, 2] : Fin 3 → Fin S65536x5x20.rank)
  reducesTo_S65536x5x20_S65536x20_d1 : S65536x5x20.ReducesTo [1] S65536x20
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  reducesTo_S65536x10x20_S65536x10_d2 : S65536x10x20.ReducesTo [2] S65536x10
  bcast_S_S65536x10x1 : S_.BroadcastsInDim S65536x10x1 (![] : Fin 0 → Fin S65536x10x1.rank)
  bcast_S65536x10x1_S65536x10x20_0_1_2 : S65536x10x1.BroadcastsInDim S65536x10x20 (![0, 1, 2] : Fin 3 → Fin S65536x10x20.rank)
  reducesTo_S65536x10x20_S65536x20_d1 : S65536x10x20.ReducesTo [1] S65536x20
  concatenates_S65536x10_S65536x10_S65536x20_d1 : Shape.Concatenates [S65536x10, S65536x10] S65536x20 1
  bcast_S65536x20_S65536x1x20_0_2 : S65536x20.BroadcastsInDim S65536x1x20 (![0, 2] : Fin 2 → Fin S65536x1x20.rank)
  concatenates_S65536x1x20_S65536x1x20_S65536x1x20_S65536x1x20_S65536x1x20_S65536x1x20_S65536x6x20_d1 : Shape.Concatenates [S65536x1x20, S65536x1x20, S65536x1x20, S65536x1x20, S65536x1x20, S65536x1x20] S65536x6x20 1
  bcast_S_S15 : S_.BroadcastsInDim S15 (![] : Fin 0 → Fin S15.rank)
  bcast_S15_S15x1_0 : S15.BroadcastsInDim S15x1 (![0] : Fin 1 → Fin S15x1.rank)
  concatenates_S15x1_S15x1_S15x2_d1 : Shape.Concatenates [S15x1, S15x1] S15x2 1
  concatenates_S65536x20_S65536x10_S65536x10_S65536x20_S65536x20_S65536x20_S65536x20_S65536x15_S65536x135_d1 : Shape.Concatenates [S65536x20, S65536x10, S65536x10, S65536x20, S65536x20, S65536x20, S65536x20, S65536x15] S65536x135 1
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x64_S64x20_S65536x20_1_0_0_1_n_n_wf : DotDims.WF S65536x64 S64x20 S65536x20 [1] [0] [0] [1] [] []
  gather_S50000x10_S65536x1x1_S65536x1x10_2_0_n_n_0_2_110_wf : GatherDims.WF S50000x10 S65536x1x1 S65536x1x10 [2] [0] [] [0] [] 2 ![1, 10]
  gather_S50000x10_S65536x2x1_S65536x2x10_2_0_n_n_0_2_110_wf : GatherDims.WF S50000x10 S65536x2x1 S65536x2x10 [2] [0] [] [0] [] 2 ![1, 10]
  gather_S50000x20_S65536x3x1_S65536x3x20_2_0_n_n_0_2_120_wf : GatherDims.WF S50000x20 S65536x3x1 S65536x3x20 [2] [0] [] [0] [] 2 ![1, 20]
  gather_S50000x20_S65536x5x1_S65536x5x20_2_0_n_n_0_2_120_wf : GatherDims.WF S50000x20 S65536x5x1 S65536x5x20 [2] [0] [] [0] [] 2 ![1, 20]
  gather_S50000x20_S65536x10x1_S65536x10x20_2_0_n_n_0_2_120_wf : GatherDims.WF S50000x20 S65536x10x1 S65536x10x20 [2] [0] [] [0] [] 2 ![1, 20]
  dot_S65536x6x20_S65536x6x20_S65536x6x6_2_2_1_1_0_0_wf : DotDims.WF S65536x6x20 S65536x6x20 S65536x6x6 [2] [2] [1] [1] [0] [0]
  gather_S65536x6x6_S15x2_S65536x15_0_12_n_n_12_1_6553611_wf : GatherDims.WF S65536x6x6 S15x2 S65536x15 [0] [1, 2] [] [1, 2] [] 1 ![65536, 1, 1]
  dot_S65536x135_S135x64_S65536x64_1_0_0_1_n_n_wf : DotDims.WF S65536x135 S135x64 S65536x64 [1] [0] [0] [1] [] []
  dot_S65536x64_S64x128_S65536x128_1_0_0_1_n_n_wf : DotDims.WF S65536x64 S64x128 S65536x128 [1] [0] [0] [1] [] []

variable [Facts₀]

def dot_S65536x64_S64x20_S65536x20_1_0_0_1_n_n : DotDims S65536x64 S64x20 S65536x20 where
  lhsContracting := [1]
  rhsContracting := [0]
  lhsNonContracting := [0]
  rhsNonContracting := [1]
  lhsBatch := []
  rhsBatch := []
  wf := dot_S65536x64_S64x20_S65536x20_1_0_0_1_n_n_wf
def gather_S50000x10_S65536x1x1_S65536x1x10_2_0_n_n_0_2_110 : GatherDims S50000x10 S65536x1x1 S65536x1x10 where
  offsetDims := [2]
  collapsedSliceDims := [0]
  operandBatchingDims := []
  startIndicesBatchingDims := []
  startIndexMap := [0]
  indexVectorDim := 2
  sliceSizes := ![1, 10]
  wf := gather_S50000x10_S65536x1x1_S65536x1x10_2_0_n_n_0_2_110_wf
def gather_S50000x10_S65536x2x1_S65536x2x10_2_0_n_n_0_2_110 : GatherDims S50000x10 S65536x2x1 S65536x2x10 where
  offsetDims := [2]
  collapsedSliceDims := [0]
  operandBatchingDims := []
  startIndicesBatchingDims := []
  startIndexMap := [0]
  indexVectorDim := 2
  sliceSizes := ![1, 10]
  wf := gather_S50000x10_S65536x2x1_S65536x2x10_2_0_n_n_0_2_110_wf
def gather_S50000x20_S65536x3x1_S65536x3x20_2_0_n_n_0_2_120 : GatherDims S50000x20 S65536x3x1 S65536x3x20 where
  offsetDims := [2]
  collapsedSliceDims := [0]
  operandBatchingDims := []
  startIndicesBatchingDims := []
  startIndexMap := [0]
  indexVectorDim := 2
  sliceSizes := ![1, 20]
  wf := gather_S50000x20_S65536x3x1_S65536x3x20_2_0_n_n_0_2_120_wf
def gather_S50000x20_S65536x5x1_S65536x5x20_2_0_n_n_0_2_120 : GatherDims S50000x20 S65536x5x1 S65536x5x20 where
  offsetDims := [2]
  collapsedSliceDims := [0]
  operandBatchingDims := []
  startIndicesBatchingDims := []
  startIndexMap := [0]
  indexVectorDim := 2
  sliceSizes := ![1, 20]
  wf := gather_S50000x20_S65536x5x1_S65536x5x20_2_0_n_n_0_2_120_wf
def gather_S50000x20_S65536x10x1_S65536x10x20_2_0_n_n_0_2_120 : GatherDims S50000x20 S65536x10x1 S65536x10x20 where
  offsetDims := [2]
  collapsedSliceDims := [0]
  operandBatchingDims := []
  startIndicesBatchingDims := []
  startIndexMap := [0]
  indexVectorDim := 2
  sliceSizes := ![1, 20]
  wf := gather_S50000x20_S65536x10x1_S65536x10x20_2_0_n_n_0_2_120_wf
def dot_S65536x6x20_S65536x6x20_S65536x6x6_2_2_1_1_0_0 : DotDims S65536x6x20 S65536x6x20 S65536x6x6 where
  lhsContracting := [2]
  rhsContracting := [2]
  lhsNonContracting := [1]
  rhsNonContracting := [1]
  lhsBatch := [0]
  rhsBatch := [0]
  wf := dot_S65536x6x20_S65536x6x20_S65536x6x6_2_2_1_1_0_0_wf
def gather_S65536x6x6_S15x2_S65536x15_0_12_n_n_12_1_6553611 : GatherDims S65536x6x6 S15x2 S65536x15 where
  offsetDims := [0]
  collapsedSliceDims := [1, 2]
  operandBatchingDims := []
  startIndicesBatchingDims := []
  startIndexMap := [1, 2]
  indexVectorDim := 1
  sliceSizes := ![65536, 1, 1]
  wf := gather_S65536x6x6_S15x2_S65536x15_0_12_n_n_12_1_6553611_wf
def dot_S65536x135_S135x64_S65536x64_1_0_0_1_n_n : DotDims S65536x135 S135x64 S65536x64 where
  lhsContracting := [1]
  rhsContracting := [0]
  lhsNonContracting := [0]
  rhsNonContracting := [1]
  lhsBatch := []
  rhsBatch := []
  wf := dot_S65536x135_S135x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.KFoldB.lean ====
/-
  The contents of a core's buffers when the region is entered: the launch memory after the host operations that
  precede the region, in order — the thirteen stretches of the program up to the packed feature array and the three
  reshaped biases.
-/
import proofs.«401512_j75213467287608_3_alg».proof.Proof.Gen.Kernel.Launch
import Idealize.ShloMosaic.Lib.StableHlo.Run

noncomputable section

namespace Cert.Kernel.Frm

open Idealize.ShloMosaic Idealize.ShloMosaic.TcCoe Idealize.SL.Sem Cert.Kernel Cert.Kernel.Gen

variable {F : FTy → Type} [FloatOps F]

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12]

variable (m : (ℓ : Loc nD τ sig) → Buf (Elt F) ℓ)

/-- Core `c`'s buffer `b` when the region is entered. -/
abbrev V (c : Dev nD) (b : Ref sig .tc) : Buf (Elt F) ((c : Thread nD τ).loc b) :=
  StableHlo.after (List.flatten (prefixOps (F := F))) (fun b => m (c, b)) b

end Cert.Kernel.Frm

end
-- ==== Proof.KArgsB.lean ====
/-
  No host operation before the region writes an argument array: the region finds each as launched.

  The host prefix is in static single assignment form — every operation writes one buffer of its own, none of them an
  argument — so a buffer that is no operation's result holds, after the whole prefix, what the launch memory held.
-/
import proofs.«401512_j75213467287608_3_alg».proof.Proof.KFoldB

noncomputable section

namespace Cert.Kernel.Frm

open Idealize.ShloMosaic Idealize.ShloMosaic.TcCoe Idealize.SL.Sem Cert.Kernel Cert.Kernel.Gen

variable {F : FTy → Type} [FloatOps F]
variable (m : (ℓ : Loc nD τ sig) → Buf (Elt F) ℓ)

/-- Reduces "every operation of the prefix writes another buffer" to one inequality of references per operation,
    each decided. -/
local macro "prefix_writes_elsewhere" : tactic => `(tactic| (
  simp only [prefixOps, hostOps0, hostOps0_1, hostOps0_2, hostOps0_3, hostOps0_4, hostOps0_5, hostOps0_6, hostOps0_7,
    hostOps0_8, hostOps0_9, hostOps0_10, hostOps0_11, hostOps0_12, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

set_option maxHeartbeats 4000000 in
/-- Argument 0 is no operation's result. -/
theorem V_main_arg0 (c : Dev nD) : V m c main_arg0 = m ((c : Thread nD τ).loc main_arg0) :=
  StableHlo.after_of_forall_not_mem (b := Proc.devRef .tc main_arg0) _ _ (List.forall_iff_forall_mem.mp (by
    prefix_writes_elsewhere))

set_option maxHeartbeats 4000000 in
/-- Argument 1 is no operation's result. -/
theorem V_main_arg1 (c : Dev nD) : V m c main_arg1 = m ((c : Thread nD τ).loc main_arg1) :=
  StableHlo.after_of_forall_not_mem (b := Proc.devRef .tc main_arg1) _ _ (List.forall_iff_forall_mem.mp (by
    prefix_writes_elsewhere))

set_option maxHeartbeats 4000000 in
/-- Argument 2 is no operation's result. -/
theorem V_main_arg2 (c : Dev nD) : V m c main_arg2 = m ((c : Thread nD τ).loc main_arg2) :=
  StableHlo.after_of_forall_not_mem (b := Proc.devRef .tc main_arg2) _ _ (List.forall_iff_forall_mem.mp (by
    prefix_writes_elsewhere))

set_option maxHeartbeats 4000000 in
/-- Argument 3 is no operation's result. -/
theorem V_main_arg3 (c : Dev nD) : V m c main_arg3 = m ((c : Thread nD τ).loc main_arg3) :=
  StableHlo.after_of_forall_not_mem (b := Proc.devRef .tc main_arg3) _ _ (List.forall_iff_forall_mem.mp (by
    prefix_writes_elsewhere))

set_option maxHeartbeats 4000000 in
/-- Argument 4 is no operation's result. -/
theorem V_main_arg4 (c : Dev nD) : V m c main_arg4 = m ((c : Thread nD τ).loc main_arg4) :=
  StableHlo.after_of_forall_not_mem (b := Proc.devRef .tc main_arg4) _ _ (List.forall_iff_forall_mem.mp (by
    prefix_writes_elsewhere))

set_option maxHeartbeats 4000000 in
/-- Argument 5 is no operation's result. -/
theorem V_main_arg5 (c : Dev nD) : V m c main_arg5 = m ((c : Thread nD τ).loc main_arg5) :=
  StableHlo.after_of_forall_not_mem (b := Proc.devRef .tc main_arg5) _ _ (List.forall_iff_forall_mem.mp (by
    prefix_writes_elsewhere))

set_option maxHeartbeats 4000000 in
/-- Argument 6 is no operation's result. -/
theorem V_main_arg6 (c : Dev nD) : V m c main_arg6 = m ((c : Thread nD τ).loc main_arg6) :=
  StableHlo.after_of_forall_not_mem (b := Proc.devRef .tc main_arg6) _ _ (List.forall_iff_forall_mem.mp (by
    prefix_writes_elsewhere))

set_option maxHeartbeats 4000000 in
/-- Argument 7 is no operation's result. -/
theorem V_main_arg7 (c : Dev nD) : V m c main_arg7 = m ((c : Thread nD τ).loc main_arg7) :=
  StableHlo.after_of_forall_not_mem (b := Proc.devRef .tc main_arg7) _ _ (List.forall_iff_forall_mem.mp (by
    prefix_writes_elsewhere))

set_option maxHeartbeats 4000000 in
/-- Argument 8 is no operation's result. -/
theorem V_main_arg8 (c : Dev nD) : V m c main_arg8 = m ((c : Thread nD τ).loc main_arg8) :=
  StableHlo.after_of_forall_not_mem (b := Proc.devRef .tc main_arg8) _ _ (List.forall_iff_forall_mem.mp (by
    prefix_writes_elsewhere))

set_option maxHeartbeats 4000000 in
/-- Argument 9 is no operation's result. -/
theorem V_main_arg9 (c : Dev nD) : V m c main_arg9 = m ((c : Thread nD τ).loc main_arg9) :=
  StableHlo.after_of_forall_not_mem (b := Proc.devRef .tc main_arg9) _ _ (List.forall_iff_forall_mem.mp (by
    prefix_writes_elsewhere))

set_option maxHeartbeats 4000000 in
/-- Argument 10 is no operation's result. -/
theorem V_main_arg10 (c : Dev nD) : V m c main_arg10 = m ((c : Thread nD τ).loc main_arg10) :=
  StableHlo.after_of_forall_not_mem (b := Proc.devRef .tc main_arg10) _ _ (List.forall_iff_forall_mem.mp (by
    prefix_writes_elsewhere))

set_option maxHeartbeats 4000000 in
/-- Argument 11 is no operation's result. -/
theorem V_main_arg11 (c : Dev nD) : V m c main_arg11 = m ((c : Thread nD τ).loc main_arg11) :=
  StableHlo.after_of_forall_not_mem (b := Proc.devRef .tc main_arg11) _ _ (List.forall_iff_forall_mem.mp (by
    prefix_writes_elsewhere))

set_option maxHeartbeats 4000000 in
/-- Argument 12 is no operation's result. -/
theorem V_main_arg12 (c : Dev nD) : V m c main_arg12 = m ((c : Thread nD τ).loc main_arg12) :=
  StableHlo.after_of_forall_not_mem (b := Proc.devRef .tc main_arg12) _ _ (List.forall_iff_forall_mem.mp (by
    prefix_writes_elsewhere))

set_option maxHeartbeats 4000000 in
/-- Argument 13 is no operation's result. -/
theorem V_main_arg13 (c : Dev nD) : V m c main_arg13 = m ((c : Thread nD τ).loc main_arg13) :=
  StableHlo.after_of_forall_not_mem (b := Proc.devRef .tc main_arg13) _ _ (List.forall_iff_forall_mem.mp (by
    prefix_writes_elsewhere))

set_option maxHeartbeats 4000000 in
/-- Argument 14 is no operation's result. -/
theorem V_main_arg14 (c : Dev nD) : V m c main_arg14 = m ((c : Thread nD τ).loc main_arg14) :=
  StableHlo.after_of_forall_not_mem (b := Proc.devRef .tc main_arg14) _ _ (List.forall_iff_forall_mem.mp (by
    prefix_writes_elsewhere))

set_option maxHeartbeats 4000000 in
/-- Argument 15 is no operation's result. -/
theorem V_main_arg15 (c : Dev nD) : V m c main_arg15 = m ((c : Thread nD τ).loc main_arg15) :=
  StableHlo.after_of_forall_not_mem (b := Proc.devRef .tc main_arg15) _ _ (List.forall_iff_forall_mem.mp (by
    prefix_writes_elsewhere))

set_option maxHeartbeats 4000000 in
/-- Argument 16 is no operation's result. -/
theorem V_main_arg16 (c : Dev nD) : V m c main_arg16 = m ((c : Thread nD τ).loc main_arg16) :=
  StableHlo.after_of_forall_not_mem (b := Proc.devRef .tc main_arg16) _ _ (List.forall_iff_forall_mem.mp (by
    prefix_writes_elsewhere))

set_option maxHeartbeats 4000000 in
/-- Argument 17 is no operation's result. -/
theorem V_main_arg17 (c : Dev nD) : V m c main_arg17 = m ((c : Thread nD τ).loc main_arg17) :=
  StableHlo.after_of_forall_not_mem (b := Proc.devRef .tc main_arg17) _ _ (List.forall_iff_forall_mem.mp (by
    prefix_writes_elsewhere))

set_option maxHeartbeats 4000000 in
/-- Argument 18 is no operation's result. -/
theorem V_main_arg18 (c : Dev nD) : V m c main_arg18 = m ((c : Thread nD τ).loc main_arg18) :=
  StableHlo.after_of_forall_not_mem (b := Proc.devRef .tc main_arg18) _ _ (List.forall_iff_forall_mem.mp (by
    prefix_writes_elsewhere))

end Cert.Kernel.Frm

end
-- ==== Proof.KStoredB.lean ====
/-
  What the kernel body stores at one grid point, as one pure function of the seven blocks it loads.

  The body loads the packed feature block (2048 rows of 164 entries), the dense weight and bias, the two layers' weights
  and biases, and stores one 2048 × 128 block: the sum of the output layer's product and the broadcast output bias.
  Everything in between — the column slices of the packed block, the dense projection, the fifteen row-wise products,
  the two concatenations, the hidden layer with its rectifier — is the composition of the named payload terms below.
-/
import proofs.«401512_j75213467287608_3_alg».proof.Proof.Gen.Kernel.Skeleton

noncomputable section

namespace Cert.Kernel.Stored

open Idealize.ShloMosaic Cert.Kernel Cert.Kernel.Gen

variable {F : FTy → Type} [FloatOps F]

/-- The block stored at a grid point, from the blocks loaded there: `x0` the packed features, `x1`, `x2` the dense
    weight and bias, `x3`, `x4` the hidden layer's, `x5`, `x6` the output layer's. -/
def stored (x0 : Vec F S2048x164 .f32) (x1 : Vec F S64x20 .f32) (x2 : Vec F S1x20 .f32) (x3 : Vec F S135x64 .f32)
    (x4 : Vec F S1x64 .f32) (x5 : Vec F S64x128 .f32) (x6 : Vec F S1x128 .f32) : FVec F S2048x128 .f32 :=
  k0_pay1
    (k0_pay20 (k0_pay3 x0) (k0_pay4 x0) (k0_pay5 x0) (k0_pay6 x0) (k0_pay7 x0) (k0_pay8 x0) (k0_pay9 x0 x1 x2)
      (k0_pay11 x0 x1 x2) (k0_pay12 x0 x1 x2) (k0_pay13 x0 x1 x2) (k0_pay14 x0 x1 x2) (k0_pay15 x0 x1 x2)
      (k0_pay16 x0) (k0_pay17 x0) (k0_pay18 x0) (k0_pay19 x0) x3 x4 x5)
    (k0_pay21 x6)

end Cert.Kernel.Stored

end
-- ==== Proof.KFrameB.lean ====
/-
  The frame of the program with one region: every weakly fair execution terminates, nothing faults, and the argument
  arrays end as launched.

  @main is thirteen stretches of host operations and then one region on a grid of 32 points. At a point the region's
  body finds the packed feature block of that point (2048 rows) and the six weight and bias blocks, whole, in their
  staging buffers; it loads them, computes, and stores one whole 2048 × 128 block into the output's staging buffer, which
  the pipeline writes back to rows 2048·t … 2048·t + 2047 of the result. The proof data says exactly that: each input
  buffer holds its block before and after the body, the output buffer holds the stored block after it. The body's
  triple is obtained by symbolic execution of the printed body; the launch theorem for one region after a host prefix
  turns the per-point triple into the run of @main; and the run's post, read at the argument arrays, is the frame.
-/
import proofs.«401512_j75213467287608_3_alg».proof.Proof.Gen.Kernel.Launch
import proofs.«401512_j75213467287608_3_alg».proof.Proof.Gen.Kernel.Skeleton
import proofs.«401512_j75213467287608_3_alg».proof.Proof.Gen.Kernel.Points
import proofs.«401512_j75213467287608_3_alg».proof.Proof.KFoldB
import proofs.«401512_j75213467287608_3_alg».proof.Proof.KArgsB
import proofs.«401512_j75213467287608_3_alg».proof.Proof.KStoredB
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Stored

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from the frame run -/

/-- The run's post read at the nineteen argument arrays: three of them are arrays the region stages (inputs keep their
    contents), the others are buffers the region does not touch; each was left as launched by the host prefix. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 1).trans (((dats 0 c).arrAt_in 1 rfl _).trans ((hA c 1).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 3).trans (((dats 0 c).arrAt_in 3 rfl _).trans ((hA c 3).trans (V_main_arg15 m c))),
      ((h c).2 main_arg16 (Pipeline.mem_restRefs_of main_arg16 (by decide) (by decide))).trans (V_main_arg16 m c),
      ((h c).1 5).trans (((dats 0 c).arrAt_in 5 rfl _).trans ((hA c 5).trans (V_main_arg17 m c))),
      ((h c).2 main_arg18 (Pipeline.mem_restRefs_of main_arg18 (by decide) (by decide))).trans (V_main_arg18 m c)⟩) h

/-! ## What the body loads and stores -/

abbrev r0 : Rect S2048x164 := Rect.unit (s := S2048x164) ![0, 0] S2048x164.size inb_S2048x164_S2048x164_0_0
abbrev r1 : Rect S64x20 := Rect.unit (s := S64x20) ![0, 0] S64x20.size inb_S64x20_S64x20_0_0
abbrev r2 : Rect S1x20 := Rect.unit (s := S1x20) ![0, 0] S1x20.size inb_S1x20_S1x20_0_0
abbrev r3 : Rect S135x64 := Rect.unit (s := S135x64) ![0, 0] S135x64.size inb_S135x64_S135x64_0_0
abbrev r4 : Rect S1x64 := Rect.unit (s := S1x64) ![0, 0] S1x64.size inb_S1x64_S1x64_0_0
abbrev r5 : Rect S64x128 := Rect.unit (s := S64x128) ![0, 0] S64x128.size inb_S64x128_S64x128_0_0
abbrev r6 : Rect S1x128 := Rect.unit (s := S1x128) ![0, 0] S1x128.size inb_S1x128_S1x128_0_0
abbrev r7 : Rect S2048x128 := Rect.unit (s := S2048x128) ![0, 0] S2048x128.size inb_S2048x128_S2048x128_0_0

/-- The output's staging buffer after the body, from the input blocks: its one store, of the whole block. -/
def out7 (x0 : Vec F S2048x164 .f32) (x1 : Vec F S64x20 .f32) (x2 : Vec F S1x20 .f32) (x3 : Vec F S135x64 .f32)
    (x4 : Vec F S1x64 .f32) (x5 : Vec F S64x128 .f32) (x6 : Vec F S1x128 .f32) : Vec F S2048x128 .f32 :=
  View.canon [⟨r7, stored (View.ld x0 r0) (View.ld x1 r1) (View.ld x2 r2) (View.ld x3 r3) (View.ld x4 r4) (View.ld x5 r5) (View.ld x6 r6)⟩]

/-- The one store covers the buffer. -/
theorem cover7 (p0 : Vec F S2048x128 .f32) (y : S2048x128.Idx) :
    ∃ pc ∈ ([⟨r7, p0⟩] : List (View.Piece (Elt F) S2048x128 .f32)), y ∈ pc.1.set :=
  View.cover_of_tiled [⟨r7, p0⟩] S2048x128.size (by rfl) y

/-! ## The body's triple -/

set_option maxHeartbeats 4000000 in
/-- The body on whole staging memrefs, the inputs' at contents `x0 … x6` and the output's at anything, runs to the
    continuation holding the inputs' as they were and the output's at `out7` of them. -/
theorem sound_kernel (c : Dev nD) (E : Set ℕ) (i : grid0.Coords)
    (arg1 : Memref sig .tc .vmem S2048x164 .f32) (harg1 : arg1.IsWhole) (arg2 : Memref sig .tc .vmem S64x20 .f32) (harg2 : arg2.IsWhole) (arg3 : Memref sig .tc .vmem S1x20 .f32) (harg3 : arg3.IsWhole) (arg4 : Memref sig .tc .vmem S135x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole)
    (arg8 : Memref sig .tc .vmem S2048x128 .f32) (harg8 : arg8.IsWhole)
    (x0 : Vec F S2048x164 .f32) (x1 : Vec F S64x20 .f32) (x2 : Vec F S1x20 .f32) (x3 : Vec F S135x64 .f32) (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- On core `c`: the arrays as the region finds them; after the body at point `t` each input's buffer at its block and
    the output's at the stored block of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frm

end
-- ==== Proof.KFoldI.lean ====
/-
  The contents of a core's buffers when the region is entered: the launch memory after the host operations that
  precede the region, in order — the thirteen stretches of the program up to the packed feature array and the three
  reshaped biases.
-/
import proofs.«401512_j75213467287608_3_alg».proof.Proof.Gen.KernelIdeal.Launch
import Idealize.ShloMosaic.Lib.StableHlo.Run

noncomputable section

namespace Cert.KernelIdeal.Frm

open Idealize.ShloMosaic Idealize.ShloMosaic.TcCoe Idealize.SL.Sem Cert.KernelIdeal Cert.KernelIdeal.Gen

variable {F : FTy → Type} [FloatOps F]

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12]

variable (m : (ℓ : Loc nD τ sig) → Buf (Elt F) ℓ)

/-- Core `c`'s buffer `b` when the region is entered. -/
abbrev V (c : Dev nD) (b : Ref sig .tc) : Buf (Elt F) ((c : Thread nD τ).loc b) :=
  StableHlo.after (List.flatten (prefixOps (F := F))) (fun b => m (c, b)) b

end Cert.KernelIdeal.Frm

end
-- ==== Proof.KArgsI.lean ====
/-
  No host operation before the region writes an argument array: the region finds each as launched.

  The host prefix is in static single assignment form — every operation writes one buffer of its own, none of them an
  argument — so a buffer that is no operation's result holds, after the whole prefix, what the launch memory held.
-/
import proofs.«401512_j75213467287608_3_alg».proof.Proof.KFoldI

noncomputable section

namespace Cert.KernelIdeal.Frm

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- Reduces "every operation of the prefix writes another buffer" to one inequality of references per operation,
    each decided. -/
local macro "prefix_writes_elsewhere" : tactic => `(tactic| (
  simp only [prefixOps, hostOps0, hostOps0_1, hostOps0_2, hostOps0_3, hostOps0_4, hostOps0_5, hostOps0_6, hostOps0_7,
    hostOps0_8, hostOps0_9, hostOps0_10, hostOps0_11, hostOps0_12, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

set_option maxHeartbeats 4000000 in
/-- Argument 0 is no operation's result. -/
theorem V_main_arg0 (c : Dev nD) : V m c main_arg0 = m ((c : Thread nD τ).loc main_arg0) :=
  StableHlo.after_of_forall_not_mem (b := Proc.devRef .tc main_arg0) _ _ (List.forall_iff_forall_mem.mp (by
    prefix_writes_elsewhere))

set_option maxHeartbeats 4000000 in
/-- Argument 1 is no operation's result. -/
theorem V_main_arg1 (c : Dev nD) : V m c main_arg1 = m ((c : Thread nD τ).loc main_arg1) :=
  StableHlo.after_of_forall_not_mem (b := Proc.devRef .tc main_arg1) _ _ (List.forall_iff_forall_mem.mp (by
    prefix_writes_elsewhere))

set_option maxHeartbeats 4000000 in
/-- Argument 2 is no operation's result. -/
theorem V_main_arg2 (c : Dev nD) : V m c main_arg2 = m ((c : Thread nD τ).loc main_arg2) :=
  StableHlo.after_of_forall_not_mem (b := Proc.devRef .tc main_arg2) _ _ (List.forall_iff_forall_mem.mp (by
    prefix_writes_elsewhere))

set_option maxHeartbeats 4000000 in
/-- Argument 3 is no operation's result. -/
theorem V_main_arg3 (c : Dev nD) : V m c main_arg3 = m ((c : Thread nD τ).loc main_arg3) :=
  StableHlo.after_of_forall_not_mem (b := Proc.devRef .tc main_arg3) _ _ (List.forall_iff_forall_mem.mp (by
    prefix_writes_elsewhere))

set_option maxHeartbeats 4000000 in
/-- Argument 4 is no operation's result. -/
theorem V_main_arg4 (c : Dev nD) : V m c main_arg4 = m ((c : Thread nD τ).loc main_arg4) :=
  StableHlo.after_of_forall_not_mem (b := Proc.devRef .tc main_arg4) _ _ (List.forall_iff_forall_mem.mp (by
    prefix_writes_elsewhere))

set_option maxHeartbeats 4000000 in
/-- Argument 5 is no operation's result. -/
theorem V_main_arg5 (c : Dev nD) : V m c main_arg5 = m ((c : Thread nD τ).loc main_arg5) :=
  StableHlo.after_of_forall_not_mem (b := Proc.devRef .tc main_arg5) _ _ (List.forall_iff_forall_mem.mp (by
    prefix_writes_elsewhere))

set_option maxHeartbeats 4000000 in
/-- Argument 6 is no operation's result. -/
theorem V_main_arg6 (c : Dev nD) : V m c main_arg6 = m ((c : Thread nD τ).loc main_arg6) :=
  StableHlo.after_of_forall_not_mem (b := Proc.devRef .tc main_arg6) _ _ (List.forall_iff_forall_mem.mp (by
    prefix_writes_elsewhere))

set_option maxHeartbeats 4000000 in
/-- Argument 7 is no operation's result. -/
theorem V_main_arg7 (c : Dev nD) : V m c main_arg7 = m ((c : Thread nD τ).loc main_arg7) :=
  StableHlo.after_of_forall_not_mem (b := Proc.devRef .tc main_arg7) _ _ (List.forall_iff_forall_mem.mp (by
    prefix_writes_elsewhere))

set_option maxHeartbeats 4000000 in
/-- Argument 8 is no operation's result. -/
theorem V_main_arg8 (c : Dev nD) : V m c main_arg8 = m ((c : Thread nD τ).loc main_arg8) :=
  StableHlo.after_of_forall_not_mem (b := Proc.devRef .tc main_arg8) _ _ (List.forall_iff_forall_mem.mp (by
    prefix_writes_elsewhere))

set_option maxHeartbeats 4000000 in
/-- Argument 9 is no operation's result. -/
theorem V_main_arg9 (c : Dev nD) : V m c main_arg9 = m ((c : Thread nD τ).loc main_arg9) :=
  StableHlo.after_of_forall_not_mem (b := Proc.devRef .tc main_arg9) _ _ (List.forall_iff_forall_mem.mp (by
    prefix_writes_elsewhere))

set_option maxHeartbeats 4000000 in
/-- Argument 10 is no operation's result. -/
theorem V_main_arg10 (c : Dev nD) : V m c main_arg10 = m ((c : Thread nD τ).loc main_arg10) :=
  StableHlo.after_of_forall_not_mem (b := Proc.devRef .tc main_arg10) _ _ (List.forall_iff_forall_mem.mp (by
    prefix_writes_elsewhere))

set_option maxHeartbeats 4000000 in
/-- Argument 11 is no operation's result. -/
theorem V_main_arg11 (c : Dev nD) : V m c main_arg11 = m ((c : Thread nD τ).loc main_arg11) :=
  StableHlo.after_of_forall_not_mem (b := Proc.devRef .tc main_arg11) _ _ (List.forall_iff_forall_mem.mp (by
    prefix_writes_elsewhere))

set_option maxHeartbeats 4000000 in
/-- Argument 12 is no operation's result. -/
theorem V_main_arg12 (c : Dev nD) : V m c main_arg12 = m ((c : Thread nD τ).loc main_arg12) :=
  StableHlo.after_of_forall_not_mem (b := Proc.devRef .tc main_arg12) _ _ (List.forall_iff_forall_mem.mp (by
    prefix_writes_elsewhere))

set_option maxHeartbeats 4000000 in
/-- Argument 13 is no operation's result. -/
theorem V_main_arg13 (c : Dev nD) : V m c main_arg13 = m ((c : Thread nD τ).loc main_arg13) :=
  StableHlo.after_of_forall_not_mem (b := Proc.devRef .tc main_arg13) _ _ (List.forall_iff_forall_mem.mp (by
    prefix_writes_elsewhere))

set_option maxHeartbeats 4000000 in
/-- Argument 14 is no operation's result. -/
theorem V_main_arg14 (c : Dev nD) : V m c main_arg14 = m ((c : Thread nD τ).loc main_arg14) :=
  StableHlo.after_of_forall_not_mem (b := Proc.devRef .tc main_arg14) _ _ (List.forall_iff_forall_mem.mp (by
    prefix_writes_elsewhere))

set_option maxHeartbeats 4000000 in
/-- Argument 15 is no operation's result. -/
theorem V_main_arg15 (c : Dev nD) : V m c main_arg15 = m ((c : Thread nD τ).loc main_arg15) :=
  StableHlo.after_of_forall_not_mem (b := Proc.devRef .tc main_arg15) _ _ (List.forall_iff_forall_mem.mp (by
    prefix_writes_elsewhere))

set_option maxHeartbeats 4000000 in
/-- Argument 16 is no operation's result. -/
theorem V_main_arg16 (c : Dev nD) : V m c main_arg16 = m ((c : Thread nD τ).loc main_arg16) :=
  StableHlo.after_of_forall_not_mem (b := Proc.devRef .tc main_arg16) _ _ (List.forall_iff_forall_mem.mp (by
    prefix_writes_elsewhere))

set_option maxHeartbeats 4000000 in
/-- Argument 17 is no operation's result. -/
theorem V_main_arg17 (c : Dev nD) : V m c main_arg17 = m ((c : Thread nD τ).loc main_arg17) :=
  StableHlo.after_of_forall_not_mem (b := Proc.devRef .tc main_arg17) _ _ (List.forall_iff_forall_mem.mp (by
    prefix_writes_elsewhere))

set_option maxHeartbeats 4000000 in
/-- Argument 18 is no operation's result. -/
theorem V_main_arg18 (c : Dev nD) : V m c main_arg18 = m ((c : Thread nD τ).loc main_arg18) :=
  StableHlo.after_of_forall_not_mem (b := Proc.devRef .tc main_arg18) _ _ (List.forall_iff_forall_mem.mp (by
    prefix_writes_elsewhere))

end Cert.KernelIdeal.Frm

end
-- ==== Proof.KStoredI.lean ====
/-
  What the kernel body stores at one grid point, as one pure function of the seven blocks it loads.

  The body loads the packed feature block (2048 rows of 164 entries), the dense weight and bias, the two layers' weights
  and biases, and stores one 2048 × 128 block: the sum of the output layer's product and the broadcast output bias.
  Everything in between — the column slices of the packed block, the dense projection, the fifteen row-wise products,
  the two concatenations, the hidden layer with its rectifier — is the composition of the named payload terms below.
-/
import proofs.«401512_j75213467287608_3_alg».proof.Proof.Gen.KernelIdeal.Skeleton

noncomputable section

namespace Cert.KernelIdeal.Stored

open Idealize.ShloMosaic Cert.KernelIdeal Cert.KernelIdeal.Gen

variable {F : FTy → Type} [FloatOps F]

/-- The block stored at a grid point, from the blocks loaded there: `x0` the packed features, `x1`, `x2` the dense
    weight and bias, `x3`, `x4` the hidden layer's, `x5`, `x6` the output layer's. -/
def stored (x0 : Vec F S2048x164 .f32) (x1 : Vec F S64x20 .f32) (x2 : Vec F S1x20 .f32) (x3 : Vec F S135x64 .f32)
    (x4 : Vec F S1x64 .f32) (x5 : Vec F S64x128 .f32) (x6 : Vec F S1x128 .f32) : FVec F S2048x128 .f32 :=
  k0_pay1
    (k0_pay20 (k0_pay3 x0) (k0_pay4 x0) (k0_pay5 x0) (k0_pay6 x0) (k0_pay7 x0) (k0_pay8 x0) (k0_pay9 x0 x1 x2)
      (k0_pay11 x0 x1 x2) (k0_pay12 x0 x1 x2) (k0_pay13 x0 x1 x2) (k0_pay14 x0 x1 x2) (k0_pay15 x0 x1 x2)
      (k0_pay16 x0) (k0_pay17 x0) (k0_pay18 x0) (k0_pay19 x0) x3 x4 x5)
    (k0_pay21 x6)

end Cert.KernelIdeal.Stored

end
-- ==== Proof.KFrameI.lean ====
/-
  The frame of the program with one region: every weakly fair execution terminates, nothing faults, and the argument
  arrays end as launched.

  @main is thirteen stretches of host operations and then one region on a grid of 32 points. At a point the region's
  body finds the packed feature block of that point (2048 rows) and the six weight and bias blocks, whole, in their
  staging buffers; it loads them, computes, and stores one whole 2048 × 128 block into the output's staging buffer, which
  the pipeline writes back to rows 2048·t … 2048·t + 2047 of the result. The proof data says exactly that: each input
  buffer holds its block before and after the body, the output buffer holds the stored block after it. The body's
  triple is obtained by symbolic execution of the printed body; the launch theorem for one region after a host prefix
  turns the per-point triple into the run of @main; and the run's post, read at the argument arrays, is the frame.
-/
import proofs.«401512_j75213467287608_3_alg».proof.Proof.Gen.KernelIdeal.Launch
import proofs.«401512_j75213467287608_3_alg».proof.Proof.Gen.KernelIdeal.Skeleton
import proofs.«401512_j75213467287608_3_alg».proof.Proof.Gen.KernelIdeal.Points
import proofs.«401512_j75213467287608_3_alg».proof.Proof.KFoldI
import proofs.«401512_j75213467287608_3_alg».proof.Proof.KArgsI
import proofs.«401512_j75213467287608_3_alg».proof.Proof.KStoredI
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Stored

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the host prefix followed by the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from the frame run -/

/-- The run's post read at the nineteen argument arrays: three of them are arrays the region stages (inputs keep their
    contents), the others are buffers the region does not touch; each was left as launched by the host prefix. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 1).trans (((dats 0 c).arrAt_in 1 rfl _).trans ((hA c 1).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 3).trans (((dats 0 c).arrAt_in 3 rfl _).trans ((hA c 3).trans (V_main_arg15 m c))),
      ((h c).2 main_arg16 (Pipeline.mem_restRefs_of main_arg16 (by decide) (by decide))).trans (V_main_arg16 m c),
      ((h c).1 5).trans (((dats 0 c).arrAt_in 5 rfl _).trans ((hA c 5).trans (V_main_arg17 m c))),
      ((h c).2 main_arg18 (Pipeline.mem_restRefs_of main_arg18 (by decide) (by decide))).trans (V_main_arg18 m c)⟩) h

/-! ## What the body loads and stores -/

abbrev r0 : Rect S2048x164 := Rect.unit (s := S2048x164) ![0, 0] S2048x164.size inb_S2048x164_S2048x164_0_0
abbrev r1 : Rect S64x20 := Rect.unit (s := S64x20) ![0, 0] S64x20.size inb_S64x20_S64x20_0_0
abbrev r2 : Rect S1x20 := Rect.unit (s := S1x20) ![0, 0] S1x20.size inb_S1x20_S1x20_0_0
abbrev r3 : Rect S135x64 := Rect.unit (s := S135x64) ![0, 0] S135x64.size inb_S135x64_S135x64_0_0
abbrev r4 : Rect S1x64 := Rect.unit (s := S1x64) ![0, 0] S1x64.size inb_S1x64_S1x64_0_0
abbrev r5 : Rect S64x128 := Rect.unit (s := S64x128) ![0, 0] S64x128.size inb_S64x128_S64x128_0_0
abbrev r6 : Rect S1x128 := Rect.unit (s := S1x128) ![0, 0] S1x128.size inb_S1x128_S1x128_0_0
abbrev r7 : Rect S2048x128 := Rect.unit (s := S2048x128) ![0, 0] S2048x128.size inb_S2048x128_S2048x128_0_0

/-- The output's staging buffer after the body, from the input blocks: its one store, of the whole block. -/
def out7 (x0 : Vec F S2048x164 .f32) (x1 : Vec F S64x20 .f32) (x2 : Vec F S1x20 .f32) (x3 : Vec F S135x64 .f32)
    (x4 : Vec F S1x64 .f32) (x5 : Vec F S64x128 .f32) (x6 : Vec F S1x128 .f32) : Vec F S2048x128 .f32 :=
  View.canon [⟨r7, stored (View.ld x0 r0) (View.ld x1 r1) (View.ld x2 r2) (View.ld x3 r3) (View.ld x4 r4) (View.ld x5 r5) (View.ld x6 r6)⟩]

/-- The one store covers the buffer. -/
theorem cover7 (p0 : Vec F S2048x128 .f32) (y : S2048x128.Idx) :
    ∃ pc ∈ ([⟨r7, p0⟩] : List (View.Piece (Elt F) S2048x128 .f32)), y ∈ pc.1.set :=
  View.cover_of_tiled [⟨r7, p0⟩] S2048x128.size (by rfl) y

/-! ## The body's triple -/

set_option maxHeartbeats 4000000 in
/-- The body on whole staging memrefs, the inputs' at contents `x0 … x6` and the output's at anything, runs to the
    continuation holding the inputs' as they were and the output's at `out7` of them. -/
theorem sound_kernel (c : Dev nD) (E : Set ℕ) (i : grid0.Coords)
    (arg1 : Memref sig .tc .vmem S2048x164 .f32) (harg1 : arg1.IsWhole) (arg2 : Memref sig .tc .vmem S64x20 .f32) (harg2 : arg2.IsWhole) (arg3 : Memref sig .tc .vmem S1x20 .f32) (harg3 : arg3.IsWhole) (arg4 : Memref sig .tc .vmem S135x64 .f32) (harg4 : arg4.IsWhole) (arg5 : Memref sig .tc .vmem S1x64 .f32) (harg5 : arg5.IsWhole) (arg6 : Memref sig .tc .vmem S64x128 .f32) (harg6 : arg6.IsWhole) (arg7 : Memref sig .tc .vmem S1x128 .f32) (harg7 : arg7.IsWhole)
    (arg8 : Memref sig .tc .vmem S2048x128 .f32) (harg8 : arg8.IsWhole)
    (x0 : Vec F S2048x164 .f32) (x1 : Vec F S64x20 .f32) (x2 : Vec F S1x20 .f32) (x3 : Vec F S135x64 .f32) (x4 : Vec F S1x64 .f32) (x5 : Vec F S64x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The proof data -/

/-- On core `c`: the arrays as the region finds them; after the body at point `t` each input's buffer at its block and
    the output's at the stored block of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frm

end
-- ==== Proof.KBlocks.lean ====
/-
  The blocks the region stages, read off their arrays, and the result's blocks.

  The grid has 32 points. At point `t` the packed feature window holds rows `2048·t … 2048·t + 2047` of the packed
  array (all 164 columns); each of the six weight and bias windows holds its whole array at every point; the output
  window is rows `2048·t … 2048·t + 2047` of the result (all 128 columns), so the 32 output blocks cover the result. A
  column of the packed array is a column of the piece it falls in: the dense input (columns 0–63), then the six pooled
  embeddings (widths 10, 10, 20, 20, 20, 20).
-/
import proofs.«401512_j75213467287608_3_alg».proof.Proof.KFrameI
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm

variable {F : FTy → Type} [FloatOps F]
variable (m : (ℓ : Loc nD τ sig) → Buf (Elt F) ℓ)

theorem hz : (![0, 0] : Fin 2 → Nat) = fun _ => 0 := funext fun a => by fin_cases a <;> rfl

theorem lt32 (t : Fin cfg0.N) : t.val < 32 := N_0 ▸ t.isLt

/-- The printed index maps over the grid: the packed window and the output window move down one block per point, the
    six weight windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The staged blocks, each at its literal type -/

abbrev xb0 (c : Dev nD) (t : Fin cfg0.N) : Vec F S2048x164 .f32 := iblk m c 0 t
abbrev xb1 (c : Dev nD) (t : Fin cfg0.N) : Vec F S64x20 .f32 := iblk m c 1 t
abbrev xb2 (c : Dev nD) (t : Fin cfg0.N) : Vec F S1x20 .f32 := iblk m c 2 t
abbrev xb3 (c : Dev nD) (t : Fin cfg0.N) : Vec F S135x64 .f32 := iblk m c 3 t
abbrev xb4 (c : Dev nD) (t : Fin cfg0.N) : Vec F S1x64 .f32 := iblk m c 4 t
abbrev xb5 (c : Dev nD) (t : Fin cfg0.N) : Vec F S64x128 .f32 := iblk m c 5 t
abbrev xb6 (c : Dev nD) (t : Fin cfg0.N) : Vec F S1x128 .f32 := iblk m c 6 t

/-- The arrays the windows stage, as the region finds them, each at its literal type. -/
abbrev packed (c : Dev nD) : Vec F S65536x164 .f32 := V m c main_v126
abbrev wDense (c : Dev nD) : Vec F S64x20 .f32 := V m c main_arg7
abbrev bDense (c : Dev nD) : Vec F S1x20 .f32 := V m c main_v127
abbrev wHidden (c : Dev nD) : Vec F S135x64 .f32 := V m c main_arg15
abbrev bHidden (c : Dev nD) : Vec F S1x64 .f32 := V m c main_v128
abbrev wOut (c : Dev nD) : Vec F S64x128 .f32 := V m c main_arg17
abbrev bOut (c : Dev nD) : Vec F S1x128 .f32 := V m c main_v129

/-- Row `r` of the packed block at point `t` is row `2048·t + r` of the packed array. -/
theorem xb0_apply (c : Dev nD) (t : Fin cfg0.N) (r : Fin 2048) (q : Fin 164) :
    xb0 m c t (ix2 r q) = packed m c (ix2 (⟨2048 * t.val + r.val, by have := lt32 t; have := r.isLt; omega⟩ : Fin 65536) q) := by
  show V m c main_v126 (((cfg0.win 0).blk t).view.emb (ix2 r q)) = V m c main_v126 _
  refine congrArg (V m c main_v126) ?_
  obtain ⟨e0, e1, -⟩ := idx_facts t
  funext a; apply Fin.ext
  match a with
  | ⟨0, _⟩ => show win0_0.index t (0 : Fin 2) * 2048 + 1 * r.val = 2048 * t.val + r.val; omega
  | ⟨1, _⟩ => show win0_0.index t (1 : Fin 2) * 164 + 1 * q.val = q.val; omega

/-- Window 1's block is its whole array at every point. -/
theorem xb1_eq (c : Dev nD) (t : Fin cfg0.N) : xb1 m c t = wDense m c := by
  funext y
  show V m c main_arg7 (((cfg0.win 1).blk t).view.emb y) = V m c main_arg7 y
  refine congrArg (V m c main_arg7) ?_
  have hf := idx_facts t
  have e0 : win0_1.index t (0 : Fin 2) = 0 := hf.2.2.1
  have e1 : win0_1.index t (1 : Fin 2) = 0 := hf.2.2.2.1
  funext a; apply Fin.ext
  match a with
  | ⟨0, _⟩ => show win0_1.index t (0 : Fin 2) * 64 + 1 * (y 0).val = (y 0).val; omega
  | ⟨1, _⟩ => show win0_1.index t (1 : Fin 2) * 20 + 1 * (y 1).val = (y 1).val; omega

/-- Window 2's block is its whole array at every point. -/
theorem xb2_eq (c : Dev nD) (t : Fin cfg0.N) : xb2 m c t = bDense m c := by
  funext y
  show V m c main_v127 (((cfg0.win 2).blk t).view.emb y) = V m c main_v127 y
  refine congrArg (V m c main_v127) ?_
  have hf := idx_facts t
  have e0 : win0_2.index t (0 : Fin 2) = 0 := hf.2.2.2.2.1
  have e1 : win0_2.index t (1 : Fin 2) = 0 := hf.2.2.2.2.2.1
  funext a; apply Fin.ext
  match a with
  | ⟨0, _⟩ => show win0_2.index t (0 : Fin 2) * 1 + 1 * (y 0).val = (y 0).val; omega
  | ⟨1, _⟩ => show win0_2.index t (1 : Fin 2) * 20 + 1 * (y 1).val = (y 1).val; omega

/-- Window 3's block is its whole array at every point. -/
theorem xb3_eq (c : Dev nD) (t : Fin cfg0.N) : xb3 m c t = wHidden m c := by
  funext y
  show V m c main_arg15 (((cfg0.win 3).blk t).view.emb y) = V m c main_arg15 y
  refine congrArg (V m c main_arg15) ?_
  have hf := idx_facts t
  have e0 : win0_3.index t (0 : Fin 2) = 0 := hf.2.2.2.2.2.2.1
  have e1 : win0_3.index t (1 : Fin 2) = 0 := hf.2.2.2.2.2.2.2.1
  funext a; apply Fin.ext
  match a with
  | ⟨0, _⟩ => show win0_3.index t (0 : Fin 2) * 135 + 1 * (y 0).val = (y 0).val; omega
  | ⟨1, _⟩ => show win0_3.index t (1 : Fin 2) * 64 + 1 * (y 1).val = (y 1).val; omega

/-- Window 4's block is its whole array at every point. -/
theorem xb4_eq (c : Dev nD) (t : Fin cfg0.N) : xb4 m c t = bHidden m c := by
  funext y
  show V m c main_v128 (((cfg0.win 4).blk t).view.emb y) = V m c main_v128 y
  refine congrArg (V m c main_v128) ?_
  have hf := idx_facts t
  have e0 : win0_4.index t (0 : Fin 2) = 0 := hf.2.2.2.2.2.2.2.2.1
  have e1 : win0_4.index t (1 : Fin 2) = 0 := hf.2.2.2.2.2.2.2.2.2.1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array at every point. -/
theorem xb5_eq (c : Dev nD) (t : Fin cfg0.N) : xb5 m c t = wOut m c := by
  funext y
  show V m c main_arg17 (((cfg0.win 5).blk t).view.emb y) = V m c main_arg17 y
  refine congrArg (V m c main_arg17) ?_
  have hf := idx_facts t
  have e0 : win0_5.index t (0 : Fin 2) = 0 := hf.2.2.2.2.2.2.2.2.2.2.1
  have e1 : win0_5.index t (1 : Fin 2) = 0 := hf.2.2.2.2.2.2.2.2.2.2.2.1
  funext a; apply Fin.ext
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- Window 6's block is its whole array at every point. -/
theorem xb6_eq (c : Dev nD) (t : Fin cfg0.N) : xb6 m c t = bOut m c := by
  funext y
  show V m c main_v129 (((cfg0.win 6).blk t).view.emb y) = V m c main_v129 y
  refine congrArg (V m c main_v129) ?_
  have hf := idx_facts t
  have e0 : win0_6.index t (0 : Fin 2) = 0 := hf.2.2.2.2.2.2.2.2.2.2.2.2.1
  have e1 : win0_6.index t (1 : Fin 2) = 0 := hf.2.2.2.2.2.2.2.2.2.2.2.2.2.1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## The result's blocks -/

/-- Entry `(r, n)` of the output block at point `t` is entry `(2048·t + r, n)` of the result. -/
theorem out_emb (t : Fin cfg0.N) (r : Fin 2048) (n : Fin 128) :
    ((cfg0.win 7).blk t).view.emb (ix2 r n)
      = ix2 (⟨2048 * t.val + r.val, by have := lt32 t; have := r.isLt; omega⟩ : Fin 65536) n := by
  obtain ⟨-, -, -, -, -, -, -, -, -, -, -, -, -, -, e0, e1⟩ := idx_facts t
  funext a; apply Fin.ext
  match a with
  | ⟨0, _⟩ => show win0_7.index t (0 : Fin 2) * 2048 + 1 * r.val = 2048 * t.val + r.val; omega
  | ⟨1, _⟩ => show win0_7.index t (1 : Fin 2) * 128 + 1 * n.val = n.val; omega

/-- An index of the result is in point `t`'s block iff each coordinate is in the block's range on its axis. -/
theorem mem_blk7 (t : Fin cfg0.N) (i : S65536x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v130).slice (win0_7.rect t)).set ↔ _
  rw [View.set_slice_whole, Rect.mem_set_unit]
  exact Iff.rfl

/-- Every row of the result is in the block of the point `row / 2048`. -/
theorem covered7 (i : S65536x128.Idx) :
    ∃ t : Fin cfg0.N, (cfg0.win 7).flush t = true ∧ i ∈ ((cfg0.win 7).blk t).view.set := by
  have hi0 : (i 0).val < 65536 := (i 0).isLt
  have hi1 : (i 1).val < 128 := (i 1).isLt
  let t : Fin cfg0.N := ⟨(i 0).val / 2048, by rw [show cfg0.N = 32 from N_0]; omega⟩
  have htv : t.val = (i 0).val / 2048 := rfl
  obtain ⟨-, -, -, -, -, -, -, -, -, -, -, -, -, -, e0, e1⟩ := idx_facts t
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

end Cert.KernelIdeal.Blocks

end
-- ==== Proof.Spec.lean ====
/-
  The result both programs compute, written row by row and index by index over the extended reals.

  A batch row carries a dense vector `x` of 64 entries and six pooled tag embeddings `e1`, `e2` (10 entries each) and
  `e3` … `e6` (20 entries each). The model is: the dense projection `de k = (∑ d, x d · Wd d k) + bd k` (20 entries);
  six 20-vectors, namely `de`, the two short embeddings laid end to end, and the four long embeddings; the fifteen inner
  products of the pairs `i < j` of those six, in row-major order of the pair; the 135-entry feature row made of `de`, the
  six embeddings and the fifteen products; one hidden layer `h j = (∑ i, feat i · W1 i j) + b1 j` followed by the leaky
  rectifier (slope: the binary32 word `0x3C23D70A`); and the output layer `z n = (∑ j, leaky (h j) · W2 j n) + b2 n`.
  The whole result array `Z` applies this to every row of the batch.

  Every sum is a finite sum in the commutative monoid of the extended reals, so no order of summation is fixed here, and
  nothing is assumed finite: the two programs are matched against this one function by re-indexing alone.
-/
import Idealize.ShloMosaic.PureOps.Ideal.Laws
import Idealize.ShloMosaic.Lib.ValueIdx

noncomputable section

namespace Cert.Spec

open Idealize.ShloMosaic Idealize.ShloMosaic.ValueIdx

/-- The first vector of each of the fifteen pairs `i < j` among six, pairs in row-major order. -/
def pairFst : Fin 15 → Fin 6 := ![0, 0, 0, 0, 0, 1, 1, 1, 1, 2, 2, 2, 3, 3, 4]
/-- The second vector of each pair. -/
def pairSnd : Fin 15 → Fin 6 := ![1, 2, 3, 4, 5, 2, 3, 4, 5, 3, 4, 5, 4, 5, 5]

/-- The leaky rectifier on the extended reals: `x` where `x > 0` (an ordered comparison against the zero word), else
    the slope word times `x`. -/
def leaky (x : EReal) : EReal :=
  Scalar.select (FloatOps.cmpf (F := Ideal) (φ := .f32) .ogt x (Ideal.ofBits .f32 0x00000000#32)) x
    (Ideal.ofBits .f32 0x3C23D70A#32 * x)

section Row
variable (x : Fin 64 → EReal) (e1 e2 : Fin 10 → EReal) (e3 e4 e5 e6 : Fin 20 → EReal)
  (Wd : (⟨2, ![64, 20]⟩ : Shape).Idx → EReal) (bd : (⟨1, ![20]⟩ : Shape).Idx → EReal)
  (W1 : (⟨2, ![135, 64]⟩ : Shape).Idx → EReal) (b1 : (⟨1, ![64]⟩ : Shape).Idx → EReal)
  (W2 : (⟨2, ![64, 128]⟩ : Shape).Idx → EReal) (b2 : (⟨1, ![128]⟩ : Shape).Idx → EReal)

/-- The dense projection of the row, entry `k`. -/
def denseRow (k : Fin 20) : EReal :=
  (∑ d : Fin 64, x d * Wd (ix2 d k)) + bd (ix1 k)

/-- The two short embeddings laid end to end: entries 0–9 from the first, 10–19 from the second. -/
def basicRow (k : Fin 20) : EReal :=
  if h : k.val < 10 then e1 ⟨k.val, h⟩ else e2 ⟨k.val - 10, by omega⟩

/-- The six 20-vectors of the row. -/
def vecRow (i : Fin 6) (k : Fin 20) : EReal :=
  match i with
  | 0 => denseRow x Wd bd k
  | 1 => basicRow e1 e2 k
  | 2 => e3 k
  | 3 => e4 k
  | 4 => e5 k
  | 5 => e6 k

/-- The inner product of pair `p`. -/
def pairDotRow (p : Fin 15) : EReal :=
  ∑ d : Fin 20, vecRow x e1 e2 e3 e4 e5 e6 Wd bd (pairFst p) d * vecRow x e1 e2 e3 e4 e5 e6 Wd bd (pairSnd p) d

/-- The 135-entry feature row: the dense projection (0–19), the six embeddings (20–29, 30–39, 40–59, 60–79, 80–99,
    100–119), the fifteen pair products (120–134). -/
def featRow (i : Fin 135) : EReal :=
  if h0 : i.val < 20 then denseRow x Wd bd ⟨i.val, h0⟩
  else if h1 : i.val < 30 then e1 ⟨i.val - 20, by omega⟩
  else if h2 : i.val < 40 then e2 ⟨i.val - 30, by omega⟩
  else if h3 : i.val < 60 then e3 ⟨i.val - 40, by omega⟩
  else if h4 : i.val < 80 then e4 ⟨i.val - 60, by omega⟩
  else if h5 : i.val < 100 then e5 ⟨i.val - 80, by omega⟩
  else if h6 : i.val < 120 then e6 ⟨i.val - 100, by omega⟩
  else pairDotRow x e1 e2 e3 e4 e5 e6 Wd bd ⟨i.val - 120, by have := i.isLt; omega⟩

/-- The hidden layer before the rectifier. -/
def hiddenRow (j : Fin 64) : EReal :=
  (∑ i : Fin 135, featRow x e1 e2 e3 e4 e5 e6 Wd bd i * W1 (ix2 i j)) + b1 (ix1 j)

/-- The output layer. -/
def outRow (n : Fin 128) : EReal :=
  (∑ j : Fin 64, leaky (hiddenRow x e1 e2 e3 e4 e5 e6 Wd bd W1 b1 j) * W2 (ix2 j n)) + b2 (ix1 n)

end Row

section Batch
variable (X : (⟨2, ![65536, 64]⟩ : Shape).Idx → EReal)
  (E1 E2 : (⟨2, ![65536, 10]⟩ : Shape).Idx → EReal)
  (E3 E4 E5 E6 : (⟨2, ![65536, 20]⟩ : Shape).Idx → EReal)
  (Wd : (⟨2, ![64, 20]⟩ : Shape).Idx → EReal) (bd : (⟨1, ![20]⟩ : Shape).Idx → EReal)
  (W1 : (⟨2, ![135, 64]⟩ : Shape).Idx → EReal) (b1 : (⟨1, ![64]⟩ : Shape).Idx → EReal)
  (W2 : (⟨2, ![64, 128]⟩ : Shape).Idx → EReal) (b2 : (⟨1, ![128]⟩ : Shape).Idx → EReal)

/-- The whole result array: row `b` of the batch through `outRow`. -/
def Z : (⟨2, ![65536, 128]⟩ : Shape).Idx → EReal :=
  fun i => outRow (fun d => X (ix2 (i 0) d)) (fun k => E1 (ix2 (i 0) k)) (fun k => E2 (ix2 (i 0) k))
    (fun k => E3 (ix2 (i 0) k)) (fun k => E4 (ix2 (i 0) k)) (fun k => E5 (ix2 (i 0) k)) (fun k => E6 (ix2 (i 0) k))
    Wd bd W1 b1 W2 b2 (i 1)

theorem Z_apply (b : Fin 65536) (n : Fin 128) :
    Z X E1 E2 E3 E4 E5 E6 Wd bd W1 b1 W2 b2 (ix2 b n)
      = outRow (fun d => X (ix2 b d)) (fun k => E1 (ix2 b k)) (fun k => E2 (ix2 b k))
          (fun k => E3 (ix2 b k)) (fun k => E4 (ix2 b k)) (fun k => E5 (ix2 b k)) (fun k => E6 (ix2 b k))
          Wd bd W1 b1 W2 b2 n := rfl

end Batch

end Cert.Spec

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBodyValue.lean ====
/-
  The stored block read at one entry is the model's output row.

  Entry `(r, n)` of the block stored at a grid point depends on row `r` of the packed feature block alone. That row is
  cut by column slices into the dense vector (columns 0–63), two short embeddings (64–73, 74–83) and four long ones
  (84–103, 104–123, 124–143, 144–163). The dense projection is a matrix product into a zero accumulator plus a bias row
  broadcast down the rows; the two short embeddings are laid end to end; each of the fifteen pair products is a sum along
  the columns of an entrywise product, kept as a unit-width column; the feature row is the concatenation of eight pieces
  (widths 20, 10, 10, 20, 20, 20, 20, 15); the hidden layer and the output layer are again a product into a zero
  accumulator plus a broadcast bias row, with the leaky rectifier entry by entry in between. Each step is read at an
  index written by coordinates, and the model's row functions are met term by term: every sum is over the same `Fin K`
  on both sides with the factors in the same order, so no law of the extended reals beyond congruence is used.
-/
import proofs.«401512_j75213467287608_3_alg».proof.Proof.KStoredI
import proofs.«401512_j75213467287608_3_alg».proof.Proof.Spec
import proofs.«401512_j75213467287608_3_alg».proof.Proof.LibPlainMatmul
import proofs.«401512_j75213467287608_3_alg».proof.Proof.LibColumnLayout
import Idealize.ShloMosaic.Lib.Pipeline.Value
import Idealize.ShloMosaic.Lib.ValueLayout

noncomputable section

namespace Cert.KernelIdeal.BodyValue

open Idealize.ShloMosaic Idealize.ShloMosaic.ValueIdx Cert.KernelIdeal Cert.KernelIdeal.Gen

/-- A column index and a row index with the same row agree off the concatenation axis: axis 0 by computation, and axis 1
    is the concatenation axis itself. -/
local macro "off_axis" : tactic =>
  `(tactic| (intro b hb; match b with | ⟨0, _⟩ => rfl | ⟨1, _⟩ => exact absurd rfl hb))

/-! ## Row `r` of the packed block, cut into its seven vectors -/

section Rows
variable (x0 : Vec Ideal S2048x164 .f32) (r : Fin 2048)

/-- The dense entries of row `r`: columns 0–63. -/
abbrev rowX : Fin 64 → EReal := fun d => x0 (ix2 r (⟨d.val, by omega⟩ : Fin 164))
/-- The first short embedding of row `r`: columns 64–73. -/
abbrev rowE1 : Fin 10 → EReal := fun k => x0 (ix2 r (⟨64 + k.val, by omega⟩ : Fin 164))
/-- The second short embedding: columns 74–83. -/
abbrev rowE2 : Fin 10 → EReal := fun k => x0 (ix2 r (⟨74 + k.val, by omega⟩ : Fin 164))
/-- The first long embedding: columns 84–103. -/
abbrev rowE3 : Fin 20 → EReal := fun k => x0 (ix2 r (⟨84 + k.val, by omega⟩ : Fin 164))
/-- The second long embedding: columns 104–123. -/
abbrev rowE4 : Fin 20 → EReal := fun k => x0 (ix2 r (⟨104 + k.val, by omega⟩ : Fin 164))
/-- The third long embedding: columns 124–143. -/
abbrev rowE5 : Fin 20 → EReal := fun k => x0 (ix2 r (⟨124 + k.val, by omega⟩ : Fin 164))
/-- The fourth long embedding: columns 144–163. -/
abbrev rowE6 : Fin 20 → EReal := fun k => x0 (ix2 r (⟨144 + k.val, by omega⟩ : Fin 164))

/-- A cast to the same shape changes nothing. -/
theorem pay2_eq : k0_pay2 x0 = x0 := shapeCast_self _ _

/-- The slice from column 64, at `(r, k)`, is the block at `(r, 64 + k)`. -/
theorem pay3_apply (k : Fin 10) : k0_pay3 x0 (ix2 r k) = rowE1 x0 r k := by
  unfold k0_pay3
  rw [pay2_eq]
  exact slice2_axis1_apply 64 x0 _ r k _ rfl

/-- The slice from column 74. -/
theorem pay4_apply (k : Fin 10) : k0_pay4 x0 (ix2 r k) = rowE2 x0 r k := by
  unfold k0_pay4
  rw [pay2_eq]
  exact slice2_axis1_apply 74 x0 _ r k _ rfl

/-- The slice from column 84. -/
theorem pay5_apply (k : Fin 20) : k0_pay5 x0 (ix2 r k) = rowE3 x0 r k := by
  unfold k0_pay5
  rw [pay2_eq]
  exact slice2_axis1_apply 84 x0 _ r k _ rfl

/-- The slice from column 104. -/
theorem pay6_apply (k : Fin 20) : k0_pay6 x0 (ix2 r k) = rowE4 x0 r k := by
  unfold k0_pay6
  rw [pay2_eq]
  exact slice2_axis1_apply 104 x0 _ r k _ rfl

/-- The slice from column 124. -/
theorem pay7_apply (k : Fin 20) : k0_pay7 x0 (ix2 r k) = rowE5 x0 r k := by
  unfold k0_pay7
  rw [pay2_eq]
  exact slice2_axis1_apply 124 x0 _ r k _ rfl

/-- The slice from column 144. -/
theorem pay8_apply (k : Fin 20) : k0_pay8 x0 (ix2 r k) = rowE6 x0 r k := by
  unfold k0_pay8
  rw [pay2_eq]
  exact slice2_axis1_apply 144 x0 _ r k _ rfl

variable (x1 : Vec Ideal S64x20 .f32) (x2 : Vec Ideal S1x20 .f32)

/-- The dense projection at `(r, k)`: the product into the zero accumulator is the sum over the contracted coordinate
    (the narrowing of both operands is the identity on extended reals), the slice from column 0 reads the block's
    dense entries, and the bias row broadcast down the rows reads its entry `(0, k)`. -/
theorem pay9_apply (k : Fin 20) :
    k0_pay9 x0 x1 x2 (ix2 r k) = Cert.Spec.denseRow (rowX x0 r) x1 (fun i => x2 (ix2 (0 : Fin 1) (i 0))) k := by
  unfold k0_pay9
  rw [pay2_eq]
  refine (addf_apply _ _ _).trans ?_
  unfold Cert.Spec.denseRow
  refine congrArg₂ (· + ·) ?_ ?_
  · refine (PlainMatmul.matmul_zero_apply 2048 64 20 none _ _ r k).trans ?_
    refine Finset.sum_congr rfl fun d _ => ?_
    refine congrArg₂ (· * ·) ?_ rfl
    exact slice2_axis1_apply 0 x0 slices_S2048x164_o0_0_S2048x64 r d _ (Nat.zero_add _).symm
  · refine (broadcastTo_1b_ab_apply _ _ r k).trans ?_
    rw [shapeCast_self]

/-- The two short embeddings laid end to end, at `(r, k)`: the first piece holds columns 0–9, the second 10–19. -/
theorem pay10_apply (k : Fin 20) : k0_pay10 x0 (ix2 r k) = Cert.Spec.basicRow (rowE1 x0 r) (rowE2 x0 r) k := by
  unfold k0_pay10 Cert.Spec.basicRow
  by_cases h : k.val < 10
  · rw [dif_pos h]
    refine (concatenate_pair_apply_left 1 (k0_pay3 x0) (k0_pay4 x0) _ (ix2 r k) rfl (ix2 r (⟨k.val, h⟩ : Fin 10)) fun b => ?_).trans
      (pay3_apply x0 r _)
    match b with
    | ⟨0, _⟩ => rfl
    | ⟨1, _⟩ => rfl
  · rw [dif_neg h]
    refine (concatenate_pair_apply_right 1 (k0_pay3 x0) (k0_pay4 x0) _ (ix2 r k) rfl rfl (ix2 r (⟨k.val - 10, by omega⟩ : Fin 10))
      (fun b hb => ?_) ?_).trans (pay4_apply x0 r _)
    · match b with
      | ⟨0, _⟩ => rfl
      | ⟨1, _⟩ => exact absurd rfl hb
    · show k.val - 10 + 10 = k.val
      omega

end Rows

/-! ## A row-wise product -/

/-- The sum along the columns of an entrywise product, kept as a column: at `(r, z)` it is the inner product of the two
    operands' rows `r`. -/
theorem rowdot_apply (u v : FVec Ideal S2048x20 .f32) (r : Fin 2048) (z : Fin 1) :
    shapeCast S2048x1 (multiReduction .add [1] S2048 (mulf u v) 0x00000000#32 reduces_S2048x20_S2048 (.inl rfl) rfl)
        shapeCasts_S2048_S2048x1 (ix2 r z)
      = ∑ d : Fin 20, u (ix2 r d) * v (ix2 r d) := by
  refine (shapeCast_a_a1_apply _ _ r z).trans ?_
  refine (Ideal.multiReduction_add_single (mulf u v) _ reduces_S2048x20_S2048 _ _ (ix1 r)).trans ?_
  refine Finset.sum_congr rfl fun d _ => ?_
  have e : reduces_S2048x20_S2048.lift (ix1 r) d = ix2 r d := by
    funext a
    match a with
    | ⟨0, _⟩ => rfl
    | ⟨1, _⟩ => rfl
  rw [e]
  rfl

/-! ## The six 20-vectors and their fifteen pair products -/

section Blocks
variable (x0 : Vec Ideal S2048x164 .f32) (r : Fin 2048) (x1 : Vec Ideal S64x20 .f32) (x2 : Vec Ideal S1x20 .f32)

/-- The kernel's six 20-wide blocks, in the model's order: the dense projection, the two short embeddings laid end to
    end, the four long embeddings. -/
def kvec : Fin 6 → FVec Ideal S2048x20 .f32 :=
  ![k0_pay9 x0 x1 x2, k0_pay10 x0, k0_pay5 x0, k0_pay6 x0, k0_pay7 x0, k0_pay8 x0]

/-- Row `r` of the `i`-th block is the model's `i`-th vector of that row. -/
theorem kvec_apply (i : Fin 6) (d : Fin 20) :
    kvec x0 x1 x2 i (ix2 r d)
      = Cert.Spec.vecRow (rowX x0 r) (rowE1 x0 r) (rowE2 x0 r) (rowE3 x0 r) (rowE4 x0 r) (rowE5 x0 r) (rowE6 x0 r) x1
          (fun i => x2 (ix2 (0 : Fin 1) (i 0))) i d := by
  match i with
  | 0 => exact pay9_apply x0 r x1 x2 d
  | 1 => exact pay10_apply x0 r d
  | 2 => exact pay5_apply x0 r d
  | 3 => exact pay6_apply x0 r d
  | 4 => exact pay7_apply x0 r d
  | 5 => exact pay8_apply x0 r d

/-- The product column of pair `p`: the row-wise inner product of the pair's two blocks, kept as a column. -/
def pairCol (p : Fin 15) : FVec Ideal S2048x1 .f32 :=
  shapeCast S2048x1
    (multiReduction .add [1] S2048 (mulf (kvec x0 x1 x2 (Cert.Spec.pairFst p)) (kvec x0 x1 x2 (Cert.Spec.pairSnd p)))
      0x00000000#32 reduces_S2048x20_S2048 (.inl rfl) rfl)
    shapeCasts_S2048_S2048x1

/-- At `(r, z)` it is the model's inner product of pair `p` on row `r`. -/
theorem pairCol_apply (p : Fin 15) (z : Fin 1) :
    pairCol x0 x1 x2 p (ix2 r z)
      = Cert.Spec.pairDotRow (rowX x0 r) (rowE1 x0 r) (rowE2 x0 r) (rowE3 x0 r) (rowE4 x0 r) (rowE5 x0 r) (rowE6 x0 r) x1
          (fun i => x2 (ix2 (0 : Fin 1) (i 0))) p :=
  (rowdot_apply _ _ r z).trans
    (Finset.sum_congr rfl fun d _ => congrArg₂ (· * ·) (kvec_apply x0 r x1 x2 _ d) (kvec_apply x0 r x1 x2 _ d))

/-- The fifteen product columns side by side. -/
def pairsBlock : FVec Ideal S2048x15 .f32 :=
  concatenate S2048x15 1
    [⟨S2048x1, pairCol x0 x1 x2 0⟩, ⟨S2048x1, pairCol x0 x1 x2 1⟩, ⟨S2048x1, pairCol x0 x1 x2 2⟩,
      ⟨S2048x1, pairCol x0 x1 x2 3⟩, ⟨S2048x1, pairCol x0 x1 x2 4⟩, ⟨S2048x1, pairCol x0 x1 x2 5⟩,
      ⟨S2048x1, pairCol x0 x1 x2 6⟩, ⟨S2048x1, pairCol x0 x1 x2 7⟩, ⟨S2048x1, pairCol x0 x1 x2 8⟩,
      ⟨S2048x1, pairCol x0 x1 x2 9⟩, ⟨S2048x1, pairCol x0 x1 x2 10⟩, ⟨S2048x1, pairCol x0 x1 x2 11⟩,
      ⟨S2048x1, pairCol x0 x1 x2 12⟩, ⟨S2048x1, pairCol x0 x1 x2 13⟩, ⟨S2048x1, pairCol x0 x1 x2 14⟩]
    concatenates_S2048x1_S2048x1_S2048x1_S2048x1_S2048x1_S2048x1_S2048x1_S2048x1_S2048x1_S2048x1_S2048x1_S2048x1_S2048x1_S2048x1_S2048x1_S2048x15_d1

/-- Column `p` of the fifteen is pair `p`'s product: every piece has width one, so the column names the piece. -/
theorem pairsBlock_apply (p : Fin 15) :
    pairsBlock x0 x1 x2 (ix2 r p)
      = Cert.Spec.pairDotRow (rowX x0 r) (rowE1 x0 r) (rowE2 x0 r) (rowE3 x0 r) (rowE4 x0 r) (rowE5 x0 r) (rowE6 x0 r) x1
          (fun i => x2 (ix2 (0 : Fin 1) (i 0))) p := by
  refine Eq.trans ?_ (pairCol_apply x0 r x1 x2 p 0)
  exact concatenate_ofFn_unit_apply (t := S2048x15) (s₁ := S2048x1) 1 (fun p : Fin 15 => pairCol x0 x1 x2 p)
    concatenates_S2048x1_S2048x1_S2048x1_S2048x1_S2048x1_S2048x1_S2048x1_S2048x1_S2048x1_S2048x1_S2048x1_S2048x1_S2048x1_S2048x1_S2048x1_S2048x15_d1
    rfl rfl (ix2 r p) p rfl (ix2 r (0 : Fin 1)) (by off_axis)

end Blocks

/-! ## The feature block, the hidden layer, the rectifier, the output layer -/

section Layers
variable (x0 : Vec Ideal S2048x164 .f32) (r : Fin 2048) (x1 : Vec Ideal S64x20 .f32) (x2 : Vec Ideal S1x20 .f32)

/-- The 135-wide feature block: the dense projection, the six embeddings, the fifteen products, side by side. -/
def featBlock : FVec Ideal S2048x135 .f32 :=
  concatenate S2048x135 1
    [⟨S2048x20, k0_pay9 x0 x1 x2⟩, ⟨S2048x10, k0_pay3 x0⟩, ⟨S2048x10, k0_pay4 x0⟩, ⟨S2048x20, k0_pay5 x0⟩,
      ⟨S2048x20, k0_pay6 x0⟩, ⟨S2048x20, k0_pay7 x0⟩, ⟨S2048x20, k0_pay8 x0⟩, ⟨S2048x15, pairsBlock x0 x1 x2⟩]
    concatenates_S2048x20_S2048x10_S2048x10_S2048x20_S2048x20_S2048x20_S2048x20_S2048x15_S2048x135_d1

/-- Row `r` of the feature block is the model's feature row: the column falls in one of eight pieces, whose spans
    start at columns 0, 20, 30, 40, 60, 80, 100, 120. -/
theorem featBlock_apply (i : Fin 135) :
    featBlock x0 x1 x2 (ix2 r i) = Cert.Spec.featRow (rowX x0 r) (rowE1 x0 r) (rowE2 x0 r) (rowE3 x0 r) (rowE4 x0 r) (rowE5 x0 r) (rowE6 x0 r) x1
          (fun i => x2 (ix2 (0 : Fin 1) (i 0))) i := by
  unfold featBlock Cert.Spec.featRow
  by_cases h0 : i.val < 20
  · rw [dif_pos h0]
    refine (concatenate_apply_piece 1 _ _ (ix2 r i) 0 (by simp) S2048x20 (k0_pay9 x0 x1 x2) rfl rfl 0 rfl
      (ix2 r (⟨i.val, h0⟩ : Fin 20)) (by off_axis) ?_).trans (pay9_apply x0 r x1 x2 _)
    show 0 + i.val = i.val
    omega
  rw [dif_neg h0]
  by_cases h1 : i.val < 30
  · rw [dif_pos h1]
    refine (concatenate_apply_piece 1 _ _ (ix2 r i) 1 (by simp) S2048x10 (k0_pay3 x0) rfl rfl 20 rfl
      (ix2 r (⟨i.val - 20, by omega⟩ : Fin 10)) (by off_axis) ?_).trans (pay3_apply x0 r _)
    show 20 + (i.val - 20) = i.val
    omega
  rw [dif_neg h1]
  by_cases h2 : i.val < 40
  · rw [dif_pos h2]
    refine (concatenate_apply_piece 1 _ _ (ix2 r i) 2 (by simp) S2048x10 (k0_pay4 x0) rfl rfl 30 rfl
      (ix2 r (⟨i.val - 30, by omega⟩ : Fin 10)) (by off_axis) ?_).trans (pay4_apply x0 r _)
    show 30 + (i.val - 30) = i.val
    omega
  rw [dif_neg h2]
  by_cases h3 : i.val < 60
  · rw [dif_pos h3]
    refine (concatenate_apply_piece 1 _ _ (ix2 r i) 3 (by simp) S2048x20 (k0_pay5 x0) rfl rfl 40 rfl
      (ix2 r (⟨i.val - 40, by omega⟩ : Fin 20)) (by off_axis) ?_).trans (pay5_apply x0 r _)
    show 40 + (i.val - 40) = i.val
    omega
  rw [dif_neg h3]
  by_cases h4 : i.val < 80
  · rw [dif_pos h4]
    refine (concatenate_apply_piece 1 _ _ (ix2 r i) 4 (by simp) S2048x20 (k0_pay6 x0) rfl rfl 60 rfl
      (ix2 r (⟨i.val - 60, by omega⟩ : Fin 20)) (by off_axis) ?_).trans (pay6_apply x0 r _)
    show 60 + (i.val - 60) = i.val
    omega
  rw [dif_neg h4]
  by_cases h5 : i.val < 100
  · rw [dif_pos h5]
    refine (concatenate_apply_piece 1 _ _ (ix2 r i) 5 (by simp) S2048x20 (k0_pay7 x0) rfl rfl 80 rfl
      (ix2 r (⟨i.val - 80, by omega⟩ : Fin 20)) (by off_axis) ?_).trans (pay7_apply x0 r _)
    show 80 + (i.val - 80) = i.val
    omega
  rw [dif_neg h5]
  by_cases h6 : i.val < 120
  · rw [dif_pos h6]
    refine (concatenate_apply_piece 1 _ _ (ix2 r i) 6 (by simp) S2048x20 (k0_pay8 x0) rfl rfl 100 rfl
      (ix2 r (⟨i.val - 100, by omega⟩ : Fin 20)) (by off_axis) ?_).trans (pay8_apply x0 r _)
    show 100 + (i.val - 100) = i.val
    omega
  rw [dif_neg h6]
  have hi := i.isLt
  refine (concatenate_apply_piece 1 _ _ (ix2 r i) 7 (by simp) S2048x15 (pairsBlock x0 x1 x2) rfl rfl 120 rfl
    (ix2 r (⟨i.val - 120, by omega⟩ : Fin 15)) (by off_axis) ?_).trans (pairsBlock_apply x0 r x1 x2 _)
  show 120 + (i.val - 120) = i.val
  omega

variable (x3 : Vec Ideal S135x64 .f32) (x4 : Vec Ideal S1x64 .f32)

/-- The hidden layer before the rectifier: the feature block times the first weight, plus the bias row broadcast down
    the rows. -/
def hiddenBlock : FVec Ideal S2048x64 .f32 :=
  addf
    (matmul dot_S2048x135_S135x64_S2048x64_1_0_0_1_n_n none (truncf .bf16 (featBlock x0 x1 x2) bitsLt_bf16_f32)
      (truncf .bf16 x3 bitsLt_bf16_f32) (constant S2048x64 .f32 0x00000000#32))
    (broadcastTo S2048x64 (shapeCast S1x64 x4 shapeCasts_S1x64_S1x64) broadcasts_S1x64_S2048x64)

/-- Row `r` of the hidden layer is the model's hidden row. -/
theorem hiddenBlock_apply (j : Fin 64) :
    hiddenBlock x0 x1 x2 x3 x4 (ix2 r j)
      = Cert.Spec.hiddenRow (rowX x0 r) (rowE1 x0 r) (rowE2 x0 r) (rowE3 x0 r) (rowE4 x0 r) (rowE5 x0 r) (rowE6 x0 r) x1
          (fun i => x2 (ix2 (0 : Fin 1) (i 0))) x3 (fun i => x4 (ix2 (0 : Fin 1) (i 0))) j := by
  unfold hiddenBlock Cert.Spec.hiddenRow
  refine (addf_apply _ _ _).trans ?_
  refine congrArg₂ (· + ·) ?_ ?_
  · refine (PlainMatmul.matmul_zero_apply 2048 135 64 none _ _ r j).trans ?_
    refine Finset.sum_congr rfl fun i _ => ?_
    exact congrArg₂ (· * ·) (featBlock_apply x0 r x1 x2 i) rfl
  · refine (broadcastTo_1b_ab_apply _ _ r j).trans ?_
    rw [shapeCast_self]

/-- The leaky rectifier on a block: where an entry exceeds the zero word it is kept, elsewhere it is multiplied by the
    slope word. -/
def actBlock (h : FVec Ideal S2048x64 .f32) : FVec Ideal S2048x64 .f32 :=
  select (cmpf .ogt h (broadcast S2048x64 (Scalar.ofBits (F := Ideal) .f32 0x00000000#32))) h
    (mulf (broadcast S2048x64 (Scalar.ofBits (F := Ideal) .f32 0x3C23D70A#32)) h)

/-- Entry by entry it is the model's rectifier. -/
theorem actBlock_apply (h : FVec Ideal S2048x64 .f32) (i : S2048x64.Idx) : actBlock h i = Cert.Spec.leaky (h i) := rfl

variable (x5 : Vec Ideal S64x128 .f32) (x6 : Vec Ideal S1x128 .f32)

/-- The stored block, over the named pieces: the rectified hidden layer times the second weight, plus the bias row
    broadcast down the rows. -/
theorem stored_eq :
    Cert.KernelIdeal.Stored.stored (F := Ideal) x0 x1 x2 x3 x4 x5 x6
      = addf
          (matmul dot_S2048x64_S64x128_S2048x128_1_0_0_1_n_n none
            (truncf .bf16 (actBlock (hiddenBlock x0 x1 x2 x3 x4)) bitsLt_bf16_f32) (truncf .bf16 x5 bitsLt_bf16_f32)
            (constant S2048x128 .f32 0x00000000#32))
          (broadcastTo S2048x128 (shapeCast S1x128 x6 shapeCasts_S1x128_S1x128) broadcasts_S1x128_S2048x128) := rfl

end Layers

/-- THE STORED BLOCK AT AN ENTRY: entry `(r, n)` is the model's output row of row `r`'s seven vectors, at `n`. -/
theorem stored_apply (x0 : Vec Ideal S2048x164 .f32) (x1 : Vec Ideal S64x20 .f32) (x2 : Vec Ideal S1x20 .f32)
    (x3 : Vec Ideal S135x64 .f32) (x4 : Vec Ideal S1x64 .f32) (x5 : Vec Ideal S64x128 .f32) (x6 : Vec Ideal S1x128 .f32)
    (r : Fin 2048) (n : Fin 128) :
    Cert.KernelIdeal.Stored.stored (F := Ideal) x0 x1 x2 x3 x4 x5 x6 (ix2 r n)
      = Cert.Spec.outRow (fun d : Fin 64 => x0 (ix2 r (⟨d.val, by omega⟩ : Fin 164)))
          (fun k : Fin 10 => x0 (ix2 r (⟨64 + k.val, by omega⟩ : Fin 164)))
          (fun k : Fin 10 => x0 (ix2 r (⟨74 + k.val, by omega⟩ : Fin 164)))
          (fun k : Fin 20 => x0 (ix2 r (⟨84 + k.val, by omega⟩ : Fin 164)))
          (fun k : Fin 20 => x0 (ix2 r (⟨104 + k.val, by omega⟩ : Fin 164)))
          (fun k : Fin 20 => x0 (ix2 r (⟨124 + k.val, by omega⟩ : Fin 164)))
          (fun k : Fin 20 => x0 (ix2 r (⟨144 + k.val, by omega⟩ : Fin 164)))
          x1 (fun i => x2 (ix2 (0 : Fin 1) (i 0))) x3 (fun i => x4 (ix2 (0 : Fin 1) (i 0))) x5
          (fun i => x6 (ix2 (0 : Fin 1) (i 0))) n := by
  rw [stored_eq]
  unfold Cert.Spec.outRow
  refine (addf_apply _ _ _).trans ?_
  refine congrArg₂ (· + ·) ?_ ?_
  · refine (PlainMatmul.matmul_zero_apply 2048 64 128 none _ _ r n).trans ?_
    refine Finset.sum_congr rfl fun j _ => ?_
    refine congrArg₂ (· * ·) ?_ rfl
    exact (actBlock_apply _ _).trans (congrArg Cert.Spec.leaky (hiddenBlock_apply x0 r x1 x2 x3 x4 j))
  · refine (broadcastTo_1b_ab_apply _ _ r n).trans ?_
    rw [shapeCast_self]

end Cert.KernelIdeal.BodyValue

end
-- ==== Proof.Pool.lean ====
/-
  The pooling of one tag's embedding bag, as one function of the table and the id array.

  For a table `tab` of 50000 rows and an id array `ids` with `L` slots per batch row: a negative id is first moved up by
  the table's height (`ids + 50000` where `ids < 0`); the addressed rows are gathered, `rows b l ·`; each gathered row is
  scaled by `min 1 (1 / (‖row‖ + ε))`, its Euclidean norm the square root of the sum of its squares and `ε` the binary32
  word `0x33D6BF95`; and the `L` scaled rows of a batch row are summed. The five bag shapes of this model
  (`L = 1, 2` with rows of 10 entries; `L = 3, 5, 10` with rows of 20) each get the function spelt over their own shapes.

  `clampL` is the clamp of an id array into `[0, 49999]` (the larger of `0` and the id, then the smaller of `49999`
  and that), the only step one program applies to the ids that the other does not.
-/
import proofs.«401512_j75213467287608_3_alg».proof.ReferenceIdeal

noncomputable section

namespace Cert.ReferenceIdeal.Pool

open Idealize.ShloMosaic Cert.ReferenceIdeal

variable {F : FTy → Type} [FloatOps F] [Facts]
open Facts₀ Facts

/-- One slot per row, rows of 10 entries. -/
def pool1x10 (tab : FVec F S50000x10 .f32) (ids : IVec S65536x1 32) : FVec F S65536x10 .f32 :=
  let neg : IVec S65536x1 1 := cmpi .slt ids (broadcastInDim S65536x1 ![] bcast_S_S65536x1 (constantI S_ 32 0#32))
  let up : IVec S65536x1 32 := select neg (addi ids (broadcastInDim S65536x1 ![] bcast_S_S65536x1 (constantI S_ 32 50000#32))) ids
  let rows : FVec F S65536x1x10 .f32 := Host.gather gather_S50000x10_S65536x1x1_S65536x1x10_2_0_n_n_0_2_110 tab (broadcastInDim S65536x1x1 ![0, 1] bcast_S65536x1_S65536x1x1_0_1 up)
  let nrm : FVec F S65536x1x1 .f32 := Host.sqrt (broadcastInDim S65536x1x1 ![0, 1] bcast_S65536x1_S65536x1x1_0_1 (Host.reduceAdd (mulf rows rows) (constant S_ .f32 0x00000000#32) reducesTo_S65536x1x10_S65536x1_d2 h_S_))
  let scale : FVec F S65536x1x1 .f32 := minimumf (broadcastInDim S65536x1x1 ![] bcast_S_S65536x1x1 (constant S_ .f32 0x3F800000#32)) (Host.divf (broadcastInDim S65536x1x1 ![] bcast_S_S65536x1x1 (constant S_ .f32 0x3F800000#32)) (addf nrm (broadcastInDim S65536x1x1 ![] bcast_S_S65536x1x1 (constant S_ .f32 0x33D6BF95#32))))
  Host.reduceAdd (mulf rows (broadcastInDim S65536x1x10 ![0, 1, 2] bcast_S65536x1x1_S65536x1x10_0_1_2 scale)) (constant S_ .f32 0x00000000#32) reducesTo_S65536x1x10_S65536x10_d1 h_S_

/-- Two slots per row, rows of 10 entries. -/
def pool2x10 (tab : FVec F S50000x10 .f32) (ids : IVec S65536x2 32) : FVec F S65536x10 .f32 :=
  let neg : IVec S65536x2 1 := cmpi .slt ids (broadcastInDim S65536x2 ![] bcast_S_S65536x2 (constantI S_ 32 0#32))
  let up : IVec S65536x2 32 := select neg (addi ids (broadcastInDim S65536x2 ![] bcast_S_S65536x2 (constantI S_ 32 50000#32))) ids
  let rows : FVec F S65536x2x10 .f32 := Host.gather gather_S50000x10_S65536x2x1_S65536x2x10_2_0_n_n_0_2_110 tab (broadcastInDim S65536x2x1 ![0, 1] bcast_S65536x2_S65536x2x1_0_1 up)
  let nrm : FVec F S65536x2x1 .f32 := Host.sqrt (broadcastInDim S65536x2x1 ![0, 1] bcast_S65536x2_S65536x2x1_0_1 (Host.reduceAdd (mulf rows rows) (constant S_ .f32 0x00000000#32) reducesTo_S65536x2x10_S65536x2_d2 h_S_))
  let scale : FVec F S65536x2x1 .f32 := minimumf (broadcastInDim S65536x2x1 ![] bcast_S_S65536x2x1 (constant S_ .f32 0x3F800000#32)) (Host.divf (broadcastInDim S65536x2x1 ![] bcast_S_S65536x2x1 (constant S_ .f32 0x3F800000#32)) (addf nrm (broadcastInDim S65536x2x1 ![] bcast_S_S65536x2x1 (constant S_ .f32 0x33D6BF95#32))))
  Host.reduceAdd (mulf rows (broadcastInDim S65536x2x10 ![0, 1, 2] bcast_S65536x2x1_S65536x2x10_0_1_2 scale)) (constant S_ .f32 0x00000000#32) reducesTo_S65536x2x10_S65536x10_d1 h_S_

/-- Three slots per row, rows of 20 entries. -/
def pool3x20 (tab : FVec F S50000x20 .f32) (ids : IVec S65536x3 32) : FVec F S65536x20 .f32 :=
  let neg : IVec S65536x3 1 := cmpi .slt ids (broadcastInDim S65536x3 ![] bcast_S_S65536x3 (constantI S_ 32 0#32))
  let up : IVec S65536x3 32 := select neg (addi ids (broadcastInDim S65536x3 ![] bcast_S_S65536x3 (constantI S_ 32 50000#32))) ids
  let rows : FVec F S65536x3x20 .f32 := Host.gather gather_S50000x20_S65536x3x1_S65536x3x20_2_0_n_n_0_2_120 tab (broadcastInDim S65536x3x1 ![0, 1] bcast_S65536x3_S65536x3x1_0_1 up)
  let nrm : FVec F S65536x3x1 .f32 := Host.sqrt (broadcastInDim S65536x3x1 ![0, 1] bcast_S65536x3_S65536x3x1_0_1 (Host.reduceAdd (mulf rows rows) (constant S_ .f32 0x00000000#32) reducesTo_S65536x3x20_S65536x3_d2 h_S_))
  let scale : FVec F S65536x3x1 .f32 := minimumf (broadcastInDim S65536x3x1 ![] bcast_S_S65536x3x1 (constant S_ .f32 0x3F800000#32)) (Host.divf (broadcastInDim S65536x3x1 ![] bcast_S_S65536x3x1 (constant S_ .f32 0x3F800000#32)) (addf nrm (broadcastInDim S65536x3x1 ![] bcast_S_S65536x3x1 (constant S_ .f32 0x33D6BF95#32))))
  Host.reduceAdd (mulf rows (broadcastInDim S65536x3x20 ![0, 1, 2] bcast_S65536x3x1_S65536x3x20_0_1_2 scale)) (constant S_ .f32 0x00000000#32) reducesTo_S65536x3x20_S65536x20_d1 h_S_

/-- Five slots per row, rows of 20 entries. -/
def pool5x20 (tab : FVec F S50000x20 .f32) (ids : IVec S65536x5 32) : FVec F S65536x20 .f32 :=
  let neg : IVec S65536x5 1 := cmpi .slt ids (broadcastInDim S65536x5 ![] bcast_S_S65536x5 (constantI S_ 32 0#32))
  let up : IVec S65536x5 32 := select neg (addi ids (broadcastInDim S65536x5 ![] bcast_S_S65536x5 (constantI S_ 32 50000#32))) ids
  let rows : FVec F S65536x5x20 .f32 := Host.gather gather_S50000x20_S65536x5x1_S65536x5x20_2_0_n_n_0_2_120 tab (broadcastInDim S65536x5x1 ![0, 1] bcast_S65536x5_S65536x5x1_0_1 up)
  let nrm : FVec F S65536x5x1 .f32 := Host.sqrt (broadcastInDim S65536x5x1 ![0, 1] bcast_S65536x5_S65536x5x1_0_1 (Host.reduceAdd (mulf rows rows) (constant S_ .f32 0x00000000#32) reducesTo_S65536x5x20_S65536x5_d2 h_S_))
  let scale : FVec F S65536x5x1 .f32 := minimumf (broadcastInDim S65536x5x1 ![] bcast_S_S65536x5x1 (constant S_ .f32 0x3F800000#32)) (Host.divf (broadcastInDim S65536x5x1 ![] bcast_S_S65536x5x1 (constant S_ .f32 0x3F800000#32)) (addf nrm (broadcastInDim S65536x5x1 ![] bcast_S_S65536x5x1 (constant S_ .f32 0x33D6BF95#32))))
  Host.reduceAdd (mulf rows (broadcastInDim S65536x5x20 ![0, 1, 2] bcast_S65536x5x1_S65536x5x20_0_1_2 scale)) (constant S_ .f32 0x00000000#32) reducesTo_S65536x5x20_S65536x20_d1 h_S_

/-- Ten slots per row, rows of 20 entries. -/
def pool10x20 (tab : FVec F S50000x20 .f32) (ids : IVec S65536x10 32) : FVec F S65536x20 .f32 :=
  let neg : IVec S65536x10 1 := cmpi .slt ids (broadcastInDim S65536x10 ![] bcast_S_S65536x10 (constantI S_ 32 0#32))
  let up : IVec S65536x10 32 := select neg (addi ids (broadcastInDim S65536x10 ![] bcast_S_S65536x10 (constantI S_ 32 50000#32))) ids
  let rows : FVec F S65536x10x20 .f32 := Host.gather gather_S50000x20_S65536x10x1_S65536x10x20_2_0_n_n_0_2_120 tab (broadcastInDim S65536x10x1 ![0, 1] bcast_S65536x10_S65536x10x1_0_1 up)
  let nrm : FVec F S65536x10x1 .f32 := Host.sqrt (broadcastInDim S65536x10x1 ![0, 1] bcast_S65536x10_S65536x10x1_0_1 (Host.reduceAdd (mulf rows rows) (constant S_ .f32 0x00000000#32) reducesTo_S65536x10x20_S65536x10_d2 h_S_))
  let scale : FVec F S65536x10x1 .f32 := minimumf (broadcastInDim S65536x10x1 ![] bcast_S_S65536x10x1 (constant S_ .f32 0x3F800000#32)) (Host.divf (broadcastInDim S65536x10x1 ![] bcast_S_S65536x10x1 (constant S_ .f32 0x3F800000#32)) (addf nrm (broadcastInDim S65536x10x1 ![] bcast_S_S65536x10x1 (constant S_ .f32 0x33D6BF95#32))))
  Host.reduceAdd (mulf rows (broadcastInDim S65536x10x20 ![0, 1, 2] bcast_S65536x10x1_S65536x10x20_0_1_2 scale)) (constant S_ .f32 0x00000000#32) reducesTo_S65536x10x20_S65536x20_d1 h_S_

/-- The clamp of an id array into `[0, 49999]`, one slot per row. -/
def clamp1 (ids : IVec S65536x1 32) : IVec S65536x1 32 :=
  minsi (broadcastInDim S65536x1 ![] bcast_S_S65536x1 (constantI S_ 32 49999#32)) (maxsi (broadcastInDim S65536x1 ![] bcast_S_S65536x1 (constantI S_ 32 0#32)) ids)
/-- Two slots per row. -/
def clamp2 (ids : IVec S65536x2 32) : IVec S65536x2 32 :=
  minsi (broadcastInDim S65536x2 ![] bcast_S_S65536x2 (constantI S_ 32 49999#32)) (maxsi (broadcastInDim S65536x2 ![] bcast_S_S65536x2 (constantI S_ 32 0#32)) ids)
/-- Three slots per row. -/
def clamp3 (ids : IVec S65536x3 32) : IVec S65536x3 32 :=
  minsi (broadcastInDim S65536x3 ![] bcast_S_S65536x3 (constantI S_ 32 49999#32)) (maxsi (broadcastInDim S65536x3 ![] bcast_S_S65536x3 (constantI S_ 32 0#32)) ids)
/-- Five slots per row. -/
def clamp5 (ids : IVec S65536x5 32) : IVec S65536x5 32 :=
  minsi (broadcastInDim S65536x5 ![] bcast_S_S65536x5 (constantI S_ 32 49999#32)) (maxsi (broadcastInDim S65536x5 ![] bcast_S_S65536x5 (constantI S_ 32 0#32)) ids)
/-- Ten slots per row. -/
def clamp10 (ids : IVec S65536x10 32) : IVec S65536x10 32 :=
  minsi (broadcastInDim S65536x10 ![] bcast_S_S65536x10 (constantI S_ 32 49999#32)) (maxsi (broadcastInDim S65536x10 ![] bcast_S_S65536x10 (constantI S_ 32 0#32)) ids)

end Cert.ReferenceIdeal.Pool

end
-- ==== Proof.KHost.lean ====
/-
  What the region finds in the four buffers its windows stage that the host prefix computes.
-/
import proofs.«401512_j75213467287608_3_alg».proof.Proof.KFoldI
import proofs.«401512_j75213467287608_3_alg».proof.Proof.Pool
import proofs.«401512_j75213467287608_3_alg».proof.Proof.Gen.ReferenceIdeal

noncomputable section

namespace Cert.KernelIdeal.HostVal

open Idealize.ShloMosaic Idealize.ShloMosaic.TcCoe Idealize.SL.Sem Cert.KernelIdeal Cert.KernelIdeal.Gen Cert.KernelIdeal.Frm
open Cert.ReferenceIdeal.Pool

/-! ## Splitting the fold, and buffers a stretch leaves alone -/

variable {F : FTy → Type} [FloatOps F]

/-- The fold over two lines run one after the other is the fold over the second from the fold over the first. -/
theorem after_app (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- Every operation of the line writes one TensorCore reference, whose index among the references is at least `lo`. -/
def WritesFrom (lo : Nat) (ops : List (HloOp τ sig (Elt F))) : Prop :=
  ∀ op ∈ ops, ∀ d ∈ op.writes, ∃ y : Ref sig .tc, lo ≤ y.idx.val ∧ d = Proc.devRef .tc y

/-- The empty line writes nothing. -/
theorem WritesFrom.nil (lo : Nat) : WritesFrom lo ([] : List (HloOp τ sig (Elt F))) := fun _ h => nomatch h

/-- One more operation at the head, writing the one reference `y` of index at least `lo`. -/
theorem WritesFrom.cons {lo : Nat} {op : HloOp τ sig (Elt F)} {ops : List (HloOp τ sig (Elt F))} {y : Ref sig .tc}
    (hw : op.writes = {Proc.devRef .tc y}) (hy : lo ≤ y.idx.val) (h : WritesFrom lo ops) : WritesFrom lo (op :: ops) := by
  intro o ho d hd
  rcases List.mem_cons.mp ho with rfl | ho
  · rw [hw, Finset.mem_singleton] at hd
    exact ⟨y, hy, hd⟩
  · exact h o ho d hd

/-- A reference whose index is below the bound keeps its contents through the line. -/
theorem after_of_writesFrom {lo : Nat} {ops : List (HloOp τ sig (Elt F))} (h : WritesFrom lo ops) (W : Valuation τ sig (Elt F))
    {r : Ref sig .tc} (hr : r.idx.val < lo) : StableHlo.after ops W (Proc.devRef .tc r) = W (Proc.devRef .tc r) :=
  StableHlo.after_of_forall_not_mem ops W fun op hop hb => by
    obtain ⟨y, hy, he⟩ := h op hop _ hb
    have : r = y := Proc.devRef_injective _ he
    subst this
    exact absurd hr (Nat.not_lt.mpr hy)

/-- `WritesFrom lo` of a literal line: operation by operation, the written reference read off the operation and its
    index compared with the bound. -/
macro "writes_from" : tactic =>
  `(tactic| repeat (first | exact WritesFrom.nil _ | refine WritesFrom.cons rfl (by decide) ?_))

/-! The references are numbered in program order, so each stretch writes a run of consecutive indices: the bounds below
    are the index of each stretch's first result. -/
theorem wf0 : WritesFrom 19 (hostOps0 : List (HloOp τ sig (Elt F))) := by writes_from
theorem wf1 : WritesFrom 21 (hostOps0_1 : List (HloOp τ sig (Elt F))) := by writes_from
theorem wf2 : WritesFrom 27 (hostOps0_2 : List (HloOp τ sig (Elt F))) := by writes_from
theorem wf3 : WritesFrom 56 (hostOps0_3 : List (HloOp τ sig (Elt F))) := by writes_from
theorem wf4 : WritesFrom 62 (hostOps0_4 : List (HloOp τ sig (Elt F))) := by writes_from
theorem wf5 : WritesFrom 91 (hostOps0_5 : List (HloOp τ sig (Elt F))) := by writes_from
theorem wf6 : WritesFrom 97 (hostOps0_6 : List (HloOp τ sig (Elt F))) := by writes_from
theorem wf7 : WritesFrom 126 (hostOps0_7 : List (HloOp τ sig (Elt F))) := by writes_from
theorem wf8 : WritesFrom 132 (hostOps0_8 : List (HloOp τ sig (Elt F))) := by writes_from
theorem wf9 : WritesFrom 161 (hostOps0_9 : List (HloOp τ sig (Elt F))) := by writes_from
theorem wf10 : WritesFrom 167 (hostOps0_10 : List (HloOp τ sig (Elt F))) := by writes_from
theorem wf11 : WritesFrom 196 (hostOps0_11 : List (HloOp τ sig (Elt F))) := by writes_from

variable (W : Valuation τ sig (Elt F))

/-! Each stretch leaves every reference numbered before its first result at the contents it found. -/
theorem frame0 {r : Ref sig .tc} (hr : r.idx.val < 19) :
    StableHlo.after (no_index hostOps0) W (no_index (Proc.devRef .tc r)) = W (Proc.devRef .tc r) := after_of_writesFrom wf0 W hr
theorem frame1 {r : Ref sig .tc} (hr : r.idx.val < 21) :
    StableHlo.after (no_index hostOps0_1) W (no_index (Proc.devRef .tc r)) = W (Proc.devRef .tc r) := after_of_writesFrom wf1 W hr
theorem frame2 {r : Ref sig .tc} (hr : r.idx.val < 27) :
    StableHlo.after (no_index hostOps0_2) W (no_index (Proc.devRef .tc r)) = W (Proc.devRef .tc r) := after_of_writesFrom wf2 W hr
theorem frame3 {r : Ref sig .tc} (hr : r.idx.val < 56) :
    StableHlo.after (no_index hostOps0_3) W (no_index (Proc.devRef .tc r)) = W (Proc.devRef .tc r) := after_of_writesFrom wf3 W hr
theorem frame4 {r : Ref sig .tc} (hr : r.idx.val < 62) :
    StableHlo.after (no_index hostOps0_4) W (no_index (Proc.devRef .tc r)) = W (Proc.devRef .tc r) := after_of_writesFrom wf4 W hr
theorem frame5 {r : Ref sig .tc} (hr : r.idx.val < 91) :
    StableHlo.after (no_index hostOps0_5) W (no_index (Proc.devRef .tc r)) = W (Proc.devRef .tc r) := after_of_writesFrom wf5 W hr
theorem frame6 {r : Ref sig .tc} (hr : r.idx.val < 97) :
    StableHlo.after (no_index hostOps0_6) W (no_index (Proc.devRef .tc r)) = W (Proc.devRef .tc r) := after_of_writesFrom wf6 W hr
theorem frame7 {r : Ref sig .tc} (hr : r.idx.val < 126) :
    StableHlo.after (no_index hostOps0_7) W (no_index (Proc.devRef .tc r)) = W (Proc.devRef .tc r) := after_of_writesFrom wf7 W hr
theorem frame8 {r : Ref sig .tc} (hr : r.idx.val < 132) :
    StableHlo.after (no_index hostOps0_8) W (no_index (Proc.devRef .tc r)) = W (Proc.devRef .tc r) := after_of_writesFrom wf8 W hr
theorem frame9 {r : Ref sig .tc} (hr : r.idx.val < 161) :
    StableHlo.after (no_index hostOps0_9) W (no_index (Proc.devRef .tc r)) = W (Proc.devRef .tc r) := after_of_writesFrom wf9 W hr
theorem frame10 {r : Ref sig .tc} (hr : r.idx.val < 167) :
    StableHlo.after (no_index hostOps0_10) W (no_index (Proc.devRef .tc r)) = W (Proc.devRef .tc r) := after_of_writesFrom wf10 W hr
theorem frame11 {r : Ref sig .tc} (hr : r.idx.val < 196) :
    StableHlo.after (no_index hostOps0_11) W (no_index (Proc.devRef .tc r)) = W (Proc.devRef .tc r) := after_of_writesFrom wf11 W hr

/-! ## One tag's chain: the clamp, the wrap of negative ids, the gather, the norm, the scale and the sum over the bag -/

set_option maxHeartbeats 1000000 in
theorem chain0 :
    (StableHlo.after hostOps0_2 (StableHlo.after hostOps0_1 (StableHlo.after hostOps0 (W))) (Proc.devRef .tc main_v20) : Vec F S65536x10 .f32)
      = pool1x10 (W (Proc.devRef .tc main_arg9)) (clamp1 (W (Proc.devRef .tc main_arg1))) := by
  simp only [hostOps0, hostOps0_1, hostOps0_2]
  after_results_simp
  simp only [StableHlo.TRef.ofBuf, StableHlo.TRef.toBuf, cast_eq]
  rfl

set_option maxHeartbeats 1000000 in
theorem chain1 :
    (StableHlo.after hostOps0_4 (StableHlo.after hostOps0_3 (StableHlo.after hostOps0_2 (W))) (Proc.devRef .tc main_v41) : Vec F S65536x10 .f32)
      = pool2x10 (W (Proc.devRef .tc main_arg10)) (clamp2 (W (Proc.devRef .tc main_arg2))) := by
  simp only [hostOps0_2, hostOps0_3, hostOps0_4]
  after_results_simp
  simp only [StableHlo.TRef.ofBuf, StableHlo.TRef.toBuf, cast_eq]
  rfl

set_option maxHeartbeats 1000000 in
theorem chain2 :
    (StableHlo.after hostOps0_6 (StableHlo.after hostOps0_5 (StableHlo.after hostOps0_4 (W))) (Proc.devRef .tc main_v62) : Vec F S65536x20 .f32)
      = pool3x20 (W (Proc.devRef .tc main_arg11)) (clamp3 (W (Proc.devRef .tc main_arg3))) := by
  simp only [hostOps0_4, hostOps0_5, hostOps0_6]
  after_results_simp
  simp only [StableHlo.TRef.ofBuf, StableHlo.TRef.toBuf, cast_eq]
  rfl

set_option maxHeartbeats 1000000 in
theorem chain3 :
    (StableHlo.after hostOps0_8 (StableHlo.after hostOps0_7 (StableHlo.after hostOps0_6 (W))) (Proc.devRef .tc main_v83) : Vec F S65536x20 .f32)
      = pool3x20 (W (Proc.devRef .tc main_arg12)) (clamp3 (W (Proc.devRef .tc main_arg4))) := by
  simp only [hostOps0_6, hostOps0_7, hostOps0_8]
  after_results_simp
  simp only [StableHlo.TRef.ofBuf, StableHlo.TRef.toBuf, cast_eq]
  rfl

set_option maxHeartbeats 1000000 in
theorem chain4 :
    (StableHlo.after hostOps0_10 (StableHlo.after hostOps0_9 (StableHlo.after hostOps0_8 (W))) (Proc.devRef .tc main_v104) : Vec F S65536x20 .f32)
      = pool5x20 (W (Proc.devRef .tc main_arg13)) (clamp5 (W (Proc.devRef .tc main_arg5))) := by
  simp only [hostOps0_8, hostOps0_9, hostOps0_10]
  after_results_simp
  simp only [StableHlo.TRef.ofBuf, StableHlo.TRef.toBuf, cast_eq]
  rfl

set_option maxHeartbeats 1000000 in
theorem chain5 :
    (StableHlo.after hostOps0_12 (StableHlo.after hostOps0_11 (StableHlo.after hostOps0_10 (W))) (Proc.devRef .tc main_v125) : Vec F S65536x20 .f32)
      = pool10x20 (W (Proc.devRef .tc main_arg14)) (clamp10 (W (Proc.devRef .tc main_arg6))) := by
  simp only [hostOps0_10, hostOps0_11, hostOps0_12]
  after_results_simp
  simp only [StableHlo.TRef.ofBuf, StableHlo.TRef.toBuf, cast_eq]
  rfl

/-! ## The last stretch: the packed array and the three reshaped biases -/

/-- The packed array is a function of its seven pieces. -/
theorem concat7_congr {a0 b0 : Vec F S65536x64 .f32} {a1 b1 a2 b2 : Vec F S65536x10 .f32} {a3 b3 a4 b4 a5 b5 a6 b6 : Vec F S65536x20 .f32}
    (e0 : a0 = b0) (e1 : a1 = b1) (e2 : a2 = b2) (e3 : a3 = b3) (e4 : a4 = b4) (e5 : a5 = b5) (e6 : a6 = b6) :
    concatenate S65536x164 1 [⟨S65536x64, a0⟩, ⟨S65536x10, a1⟩, ⟨S65536x10, a2⟩, ⟨S65536x20, a3⟩, ⟨S65536x20, a4⟩, ⟨S65536x20, a5⟩, ⟨S65536x20, a6⟩] concatenates_S65536x64_S65536x10_S65536x10_S65536x20_S65536x20_S65536x20_S65536x20_S65536x164_d1
      = concatenate S65536x164 1 [⟨S65536x64, b0⟩, ⟨S65536x10, b1⟩, ⟨S65536x10, b2⟩, ⟨S65536x20, b3⟩, ⟨S65536x20, b4⟩, ⟨S65536x20, b5⟩, ⟨S65536x20, b6⟩] concatenates_S65536x64_S65536x10_S65536x10_S65536x20_S65536x20_S65536x20_S65536x20_S65536x164_d1 := by
  subst e0 e1 e2 e3 e4 e5 e6; rfl

/-- Reads a buffer back through the operations that do not write it. -/
macro "results_ne" : tactic =>
  `(tactic| simp (disch := decide) only [StableHlo.nullary_result_ne', StableHlo.unary_result_ne', StableHlo.binary_result_ne', StableHlo.ternary_result_ne', StableHlo.reshape_result_ne', StableHlo.nary_result_ne'])

/-- The seven-operand concatenate's result, each operand's contents read at its own reference. -/
theorem packed_result (hxs hy) (G : Valuation τ sig (Elt F)) :
    (StableHlo.nary (τ := τ) ![main_arg0, main_v20, main_v41, main_v62, main_v83, main_v104, main_v125] main_v126
        (fun u => concatenate S65536x164 1 [⟨S65536x64, u 0⟩, ⟨S65536x10, u 1⟩, ⟨S65536x10, u 2⟩, ⟨S65536x20, u 3⟩, ⟨S65536x20, u 4⟩, ⟨S65536x20, u 5⟩, ⟨S65536x20, u 6⟩] concatenates_S65536x64_S65536x10_S65536x10_S65536x20_S65536x20_S65536x20_S65536x20_S65536x164_d1)
        hxs hy).result G (Proc.devRef .tc main_v126)
      = concatenate S65536x164 1
          [⟨S65536x64, G (Proc.devRef .tc main_arg0)⟩, ⟨S65536x10, G (Proc.devRef .tc main_v20)⟩, ⟨S65536x10, G (Proc.devRef .tc main_v41)⟩, ⟨S65536x20, G (Proc.devRef .tc main_v62)⟩, ⟨S65536x20, G (Proc.devRef .tc main_v83)⟩, ⟨S65536x20, G (Proc.devRef .tc main_v104)⟩, ⟨S65536x20, G (Proc.devRef .tc main_v125)⟩] concatenates_S65536x64_S65536x10_S65536x10_S65536x20_S65536x20_S65536x20_S65536x20_S65536x164_d1 :=
  (StableHlo.nary_result _ _ _ hxs hy G).trans rfl

/-- The packed array after the last stretch: the dense input and the first five pooled embeddings as the stretch found
    them, the sixth as the stretch computes it. -/
theorem packed_h12 :
    (StableHlo.after hostOps0_12 W (Proc.devRef .tc main_v126) : Vec F S65536x164 .f32) = concatenate S65536x164 1
      [⟨S65536x64, W (Proc.devRef .tc main_arg0)⟩, ⟨S65536x10, W (Proc.devRef .tc main_v20)⟩, ⟨S65536x10, W (Proc.devRef .tc main_v41)⟩, ⟨S65536x20, W (Proc.devRef .tc main_v62)⟩, ⟨S65536x20, W (Proc.devRef .tc main_v83)⟩, ⟨S65536x20, W (Proc.devRef .tc main_v104)⟩,
       ⟨S65536x20, StableHlo.after hostOps0_12 W (Proc.devRef .tc main_v125)⟩] concatenates_S65536x64_S65536x10_S65536x10_S65536x20_S65536x20_S65536x20_S65536x20_S65536x164_d1 := by
  simp only [hostOps0_12, StableHlo.after_cons, StableHlo.after_nil]
  rw [StableHlo.reshape_result_ne (h := by decide), StableHlo.reshape_result_ne (h := by decide),
    StableHlo.reshape_result_ne (h := by decide), packed_result]
  refine concat7_congr ?_ ?_ ?_ ?_ ?_ ?_ ?_ <;> results_ne

theorem bias_dense_h12 :
    (StableHlo.after hostOps0_12 W (Proc.devRef .tc main_v127) : Vec F S1x20 .f32) = shapeCast S1x20 (W (Proc.devRef .tc main_arg8)) shapeCasts_S20_S1x20 := by
  simp only [hostOps0_12]
  after_results_simp
  rfl
theorem bias_hidden_h12 :
    (StableHlo.after hostOps0_12 W (Proc.devRef .tc main_v128) : Vec F S1x64 .f32) = shapeCast S1x64 (W (Proc.devRef .tc main_arg16)) shapeCasts_S64_S1x64 := by
  simp only [hostOps0_12]
  after_results_simp
  rfl
theorem bias_out_h12 :
    (StableHlo.after hostOps0_12 W (Proc.devRef .tc main_v129) : Vec F S1x128 .f32) = shapeCast S1x128 (W (Proc.devRef .tc main_arg18)) shapeCasts_S128_S1x128 := by
  simp only [hostOps0_12]
  after_results_simp
  rfl

/-! ## The prefix, stretch by stretch -/

/-- The contents after the first twelve stretches. -/
abbrev pre11 : Valuation τ sig (Elt F) :=
  StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W))))))))))))

variable (m : (ℓ : Loc nD τ sig) → Buf (Elt F) ℓ)

theorem V_eq (c : Dev nD) (b : Ref sig .tc) :
    V m c b = StableHlo.after hostOps0_12 (pre11 (fun b => m (c, b))) (Proc.devRef .tc b) := by
  show StableHlo.after (List.flatten prefixOps) (fun b => m (c, b)) (Proc.devRef .tc b) = _
  simp only [pre11, prefixOps, List.flatten_cons, List.flatten_nil, List.append_nil, after_app]

/-- A program argument is never written. -/
theorem pre11_arg {r : Ref sig .tc} (hr : r.idx.val < 19) : pre11 W (Proc.devRef .tc r) = W (Proc.devRef .tc r) := by
  have h := fun (k : Nat) (hk : 19 ≤ k) => Nat.lt_of_lt_of_le hr hk
  simp only [pre11]
  rw [frame11 _ (h _ (by decide)), frame10 _ (h _ (by decide)), frame9 _ (h _ (by decide)), frame8 _ (h _ (by decide)),
    frame7 _ (h _ (by decide)), frame6 _ (h _ (by decide)), frame5 _ (h _ (by decide)), frame4 _ (h _ (by decide)),
    frame3 _ (h _ (by decide)), frame2 _ (h _ (by decide)), frame1 _ (h _ (by decide)), frame0 _ hr]

theorem tag0 :
    (pre11 W (Proc.devRef .tc main_v20) : Vec F S65536x10 .f32)
      = pool1x10 (W (Proc.devRef .tc main_arg9)) (clamp1 (W (Proc.devRef .tc main_arg1))) := by
  simp (disch := decide) only [pre11, frame3, frame4, frame5, frame6, frame7, frame8, frame9, frame10, frame11]
  refine (chain0 _).trans ?_
  rfl

theorem tag1 :
    (pre11 W (Proc.devRef .tc main_v41) : Vec F S65536x10 .f32)
      = pool2x10 (W (Proc.devRef .tc main_arg10)) (clamp2 (W (Proc.devRef .tc main_arg2))) := by
  simp (disch := decide) only [pre11, frame5, frame6, frame7, frame8, frame9, frame10, frame11]
  refine (chain1 _).trans ?_
  simp (disch := decide) only [frame0, frame1]

theorem tag2 :
    (pre11 W (Proc.devRef .tc main_v62) : Vec F S65536x20 .f32)
      = pool3x20 (W (Proc.devRef .tc main_arg11)) (clamp3 (W (Proc.devRef .tc main_arg3))) := by
  simp (disch := decide) only [pre11, frame7, frame8, frame9, frame10, frame11]
  refine (chain2 _).trans ?_
  simp (disch := decide) only [frame0, frame1, frame2, frame3]

theorem tag3 :
    (pre11 W (Proc.devRef .tc main_v83) : Vec F S65536x20 .f32)
      = pool3x20 (W (Proc.devRef .tc main_arg12)) (clamp3 (W (Proc.devRef .tc main_arg4))) := by
  simp (disch := decide) only [pre11, frame9, frame10, frame11]
  refine (chain3 _).trans ?_
  simp (disch := decide) only [frame0, frame1, frame2, frame3, frame4, frame5]

theorem tag4 :
    (pre11 W (Proc.devRef .tc main_v104) : Vec F S65536x20 .f32)
      = pool5x20 (W (Proc.devRef .tc main_arg13)) (clamp5 (W (Proc.devRef .tc main_arg5))) := by
  simp (disch := decide) only [pre11, frame11]
  refine (chain4 _).trans ?_
  simp (disch := decide) only [frame0, frame1, frame2, frame3, frame4, frame5, frame6, frame7]

theorem tag5 :
    (StableHlo.after hostOps0_12 (pre11 W) (Proc.devRef .tc main_v125) : Vec F S65536x20 .f32)
      = pool10x20 (W (Proc.devRef .tc main_arg14)) (clamp10 (W (Proc.devRef .tc main_arg6))) := by
  refine (chain5 _).trans ?_
  simp (disch := decide) only [frame0, frame1, frame2, frame3, frame4, frame5, frame6, frame7, frame8, frame9]

/-- The packed feature array: the dense input beside the six pooled embeddings, each pooled from its table at its
    clamped ids. -/
theorem V_packed (c : Dev nD) :
    (V m c main_v126 : Vec F S65536x164 .f32) = concatenate S65536x164 1
      [⟨S65536x64, (m ((c.tc : Thread nD τ).loc main_arg0))⟩,
       ⟨S65536x10, pool1x10 (m ((c.tc : Thread nD τ).loc main_arg9)) (clamp1 (m ((c.tc : Thread nD τ).loc main_arg1)))⟩,
       ⟨S65536x10, pool2x10 (m ((c.tc : Thread nD τ).loc main_arg10)) (clamp2 (m ((c.tc : Thread nD τ).loc main_arg2)))⟩,
       ⟨S65536x20, pool3x20 (m ((c.tc : Thread nD τ).loc main_arg11)) (clamp3 (m ((c.tc : Thread nD τ).loc main_arg3)))⟩,
       ⟨S65536x20, pool3x20 (m ((c.tc : Thread nD τ).loc main_arg12)) (clamp3 (m ((c.tc : Thread nD τ).loc main_arg4)))⟩,
       ⟨S65536x20, pool5x20 (m ((c.tc : Thread nD τ).loc main_arg13)) (clamp5 (m ((c.tc : Thread nD τ).loc main_arg5)))⟩,
       ⟨S65536x20, pool10x20 (m ((c.tc : Thread nD τ).loc main_arg14)) (clamp10 (m ((c.tc : Thread nD τ).loc main_arg6)))⟩]
      concatenates_S65536x64_S65536x10_S65536x10_S65536x20_S65536x20_S65536x20_S65536x20_S65536x164_d1 :=
  (V_eq m c main_v126).trans ((packed_h12 _).trans
    (concat7_congr (pre11_arg _ (by decide)) (tag0 _) (tag1 _) (tag2 _) (tag3 _) (tag4 _) (tag5 _)))

/-- The three biases, each reshaped to one row. -/
theorem V_bias_dense (c : Dev nD) :
    (V m c main_v127 : Vec F S1x20 .f32) = shapeCast S1x20 (m ((c.tc : Thread nD τ).loc main_arg8)) shapeCasts_S20_S1x20 :=
  (V_eq m c main_v127).trans ((bias_dense_h12 _).trans
    (congrArg (fun x : Vec F S20 .f32 => shapeCast S1x20 x shapeCasts_S20_S1x20) (pre11_arg _ (by decide))))
theorem V_bias_hidden (c : Dev nD) :
    (V m c main_v128 : Vec F S1x64 .f32) = shapeCast S1x64 (m ((c.tc : Thread nD τ).loc main_arg16)) shapeCasts_S64_S1x64 :=
  (V_eq m c main_v128).trans ((bias_hidden_h12 _).trans
    (congrArg (fun x : Vec F S64 .f32 => shapeCast S1x64 x shapeCasts_S64_S1x64) (pre11_arg _ (by decide))))
theorem V_bias_out (c : Dev nD) :
    (V m c main_v129 : Vec F S1x128 .f32) = shapeCast S1x128 (m ((c.tc : Thread nD τ).loc main_arg18)) shapeCasts_S128_S1x128 :=
  (V_eq m c main_v129).trans ((bias_out_h12 _).trans
    (congrArg (fun x : Vec F S128 .f32 => shapeCast S1x128 x shapeCasts_S128_S1x128) (pre11_arg _ (by decide))))

end Cert.KernelIdeal.HostVal

end
-- ==== Proof.KValue.lean ====
/-
  The kernel program's result array is the model's result of the argument arrays.

  At grid point `t` the body stores, at entry `(r, n)`, the model's output row of row `r` of the packed block and the
  six weight blocks. Row `r` of that block is row `b = 2048·t + r` of the packed array, whose columns are the dense
  input's row `b` followed by row `b` of each pooled embedding; the weight blocks are the argument arrays themselves,
  the three biases read through their one-row reshapes. So what point `t` writes back is block `t` of the model's
  result array, the 32 blocks cover the result, and the result ends holding the model's function of the arguments.
-/
import proofs.«401512_j75213467287608_3_alg».proof.Proof.KBlocks
import proofs.«401512_j75213467287608_3_alg».proof.Proof.KBodyValue
import proofs.«401512_j75213467287608_3_alg».proof.Proof.KHost
import proofs.«401512_j75213467287608_3_alg».proof.Proof.Spec
import proofs.«401512_j75213467287608_3_alg».proof.Proof.Pool
import proofs.«401512_j75213467287608_3_alg».proof.Proof.Gen.ReferenceIdeal
import Idealize.ShloMosaic.Lib.Pipeline.Value
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Frm Cert.KernelIdeal.Stored Cert.KernelIdeal.Blocks
open Cert.KernelIdeal.HostVal Cert.ReferenceIdeal.Pool

variable (m : (ℓ : Loc nD τ sig) → Buf (Elt Ideal) ℓ) (ρ : Dev nD → PrngReg)

/-- Coordinates off the concatenation axis agree: axis 0 by computation, axis 1 is the concatenation axis. -/
local macro "off_axis" : tactic =>
  `(tactic| (intro b hb; match b with | ⟨0, _⟩ => rfl | ⟨1, _⟩ => exact absurd rfl hb))

/-! ## The argument arrays and the pooled embeddings, at their literal types -/

abbrev aX (c : Dev nD) : Vec Ideal S65536x64 .f32 := (m ((c.tc : Thread nD τ).loc main_arg0))
abbrev p1 (c : Dev nD) : FVec Ideal S65536x10 .f32 := pool1x10 (F := Ideal) (m ((c.tc : Thread nD τ).loc main_arg9)) (clamp1 (m ((c.tc : Thread nD τ).loc main_arg1)))
abbrev p2 (c : Dev nD) : FVec Ideal S65536x10 .f32 := pool2x10 (F := Ideal) (m ((c.tc : Thread nD τ).loc main_arg10)) (clamp2 (m ((c.tc : Thread nD τ).loc main_arg2)))
abbrev p3 (c : Dev nD) : FVec Ideal S65536x20 .f32 := pool3x20 (F := Ideal) (m ((c.tc : Thread nD τ).loc main_arg11)) (clamp3 (m ((c.tc : Thread nD τ).loc main_arg3)))
abbrev p4 (c : Dev nD) : FVec Ideal S65536x20 .f32 := pool3x20 (F := Ideal) (m ((c.tc : Thread nD τ).loc main_arg12)) (clamp3 (m ((c.tc : Thread nD τ).loc main_arg4)))
abbrev p5 (c : Dev nD) : FVec Ideal S65536x20 .f32 := pool5x20 (F := Ideal) (m ((c.tc : Thread nD τ).loc main_arg13)) (clamp5 (m ((c.tc : Thread nD τ).loc main_arg5)))
abbrev p6 (c : Dev nD) : FVec Ideal S65536x20 .f32 := pool10x20 (F := Ideal) (m ((c.tc : Thread nD τ).loc main_arg14)) (clamp10 (m ((c.tc : Thread nD τ).loc main_arg6)))

/-- The model's result array of the argument arrays, the pooled embeddings taken at the clamped ids. -/
def G (c : Dev nD) : Vec Ideal S65536x128 .f32 :=
  Cert.Spec.Z (aX m c) (p1 m c) (p2 m c) (p3 m c) (p4 m c) (p5 m c) (p6 m c) (m ((c.tc : Thread nD τ).loc main_arg7)) (m ((c.tc : Thread nD τ).loc main_arg8))
    (m ((c.tc : Thread nD τ).loc main_arg15)) (m ((c.tc : Thread nD τ).loc main_arg16)) (m ((c.tc : Thread nD τ).loc main_arg17)) (m ((c.tc : Thread nD τ).loc main_arg18))

/-! ## The packed array, column by column -/

theorem packed_eq (c : Dev nD) : packed m c = concatenate S65536x164 1
      [⟨S65536x64, aX m c⟩, ⟨S65536x10, p1 m c⟩, ⟨S65536x10, p2 m c⟩, ⟨S65536x20, p3 m c⟩, ⟨S65536x20, p4 m c⟩,
       ⟨S65536x20, p5 m c⟩, ⟨S65536x20, p6 m c⟩]
      concatenates_S65536x64_S65536x10_S65536x10_S65536x20_S65536x20_S65536x20_S65536x20_S65536x164_d1 :=
  V_packed m c

theorem col_dense (c : Dev nD) (b : Fin 65536) (d : Fin 64) :
    packed m c (ix2 b (⟨d.val, by omega⟩ : Fin 164)) = aX m c (ix2 b d) := by
  rw [packed_eq]
  refine concatenate_apply_piece 1 _ _ (ix2 b (⟨d.val, by omega⟩ : Fin 164)) 0 (by simp) S65536x64 (aX m c) rfl rfl 0 rfl (ix2 b d) (by off_axis) ?_
  show 0 + d.val = d.val
  omega

theorem col_p1 (c : Dev nD) (b : Fin 65536) (k : Fin 10) :
    packed m c (ix2 b (⟨64 + k.val, by omega⟩ : Fin 164)) = p1 m c (ix2 b k) := by
  rw [packed_eq]
  refine concatenate_apply_piece 1 _ _ (ix2 b (⟨64 + k.val, by omega⟩ : Fin 164)) 1 (by simp) S65536x10 (p1 m c) rfl rfl 64 rfl (ix2 b k) (by off_axis) ?_
  show 64 + k.val = 64 + k.val
  rfl

theorem col_p2 (c : Dev nD) (b : Fin 65536) (k : Fin 10) :
    packed m c (ix2 b (⟨74 + k.val, by omega⟩ : Fin 164)) = p2 m c (ix2 b k) := by
  rw [packed_eq]
  refine concatenate_apply_piece 1 _ _ (ix2 b (⟨74 + k.val, by omega⟩ : Fin 164)) 2 (by simp) S65536x10 (p2 m c) rfl rfl 74 rfl (ix2 b k) (by off_axis) ?_
  show 74 + k.val = 74 + k.val
  rfl

theorem col_p3 (c : Dev nD) (b : Fin 65536) (k : Fin 20) :
    packed m c (ix2 b (⟨84 + k.val, by omega⟩ : Fin 164)) = p3 m c (ix2 b k) := by
  rw [packed_eq]
  refine concatenate_apply_piece 1 _ _ (ix2 b (⟨84 + k.val, by omega⟩ : Fin 164)) 3 (by simp) S65536x20 (p3 m c) rfl rfl 84 rfl (ix2 b k) (by off_axis) ?_
  show 84 + k.val = 84 + k.val
  rfl

theorem col_p4 (c : Dev nD) (b : Fin 65536) (k : Fin 20) :
    packed m c (ix2 b (⟨104 + k.val, by omega⟩ : Fin 164)) = p4 m c (ix2 b k) := by
  rw [packed_eq]
  refine concatenate_apply_piece 1 _ _ (ix2 b (⟨104 + k.val, by omega⟩ : Fin 164)) 4 (by simp) S65536x20 (p4 m c) rfl rfl 104 rfl (ix2 b k) (by off_axis) ?_
  show 104 + k.val = 104 + k.val
  rfl

theorem col_p5 (c : Dev nD) (b : Fin 65536) (k : Fin 20) :
    packed m c (ix2 b (⟨124 + k.val, by omega⟩ : Fin 164)) = p5 m c (ix2 b k) := by
  rw [packed_eq]
  refine concatenate_apply_piece 1 _ _ (ix2 b (⟨124 + k.val, by omega⟩ : Fin 164)) 5 (by simp) S65536x20 (p5 m c) rfl rfl 124 rfl (ix2 b k) (by off_axis) ?_
  show 124 + k.val = 124 + k.val
  rfl

theorem col_p6 (c : Dev nD) (b : Fin 65536) (k : Fin 20) :
    packed m c (ix2 b (⟨144 + k.val, by omega⟩ : Fin 164)) = p6 m c (ix2 b k) := by
  rw [packed_eq]
  refine concatenate_apply_piece 1 _ _ (ix2 b (⟨144 + k.val, by omega⟩ : Fin 164)) 6 (by simp) S65536x20 (p6 m c) rfl rfl 144 rfl (ix2 b k) (by off_axis) ?_
  show 144 + k.val = 144 + k.val
  rfl

/-! ## A bias through its one-row reshape -/

/-- An `[n]` vector cast to the one-row `[1, n]` array reads, at `(0, k)`, the vector at `k`: both row-major positions
    are `k`. -/
theorem row_reshape_apply {α : Type} {n : ℕ} (a : (⟨1, ![n]⟩ : Shape).Idx → α) (h : (⟨1, ![n]⟩ : Shape).ShapeCasts ⟨2, ![1, n]⟩)
    (k : Fin n) : shapeCast ⟨2, ![1, n]⟩ a h (ix2 (0 : Fin 1) k) = a (ix1 k) :=
  shapeCast_apply a h _ _ (by
    rw [Shape.rowMajor_val_two, Shape.rowMajor_val_one]
    show k.val = 0 * n + k.val
    omega)

theorem bias_dense (c : Dev nD) (i : (⟨1, ![20]⟩ : Shape).Idx) : bDense m c (ix2 (0 : Fin 1) (i 0)) = (m ((c.tc : Thread nD τ).loc main_arg8)) i := by
  rw [show bDense m c = shapeCast S1x20 (m ((c.tc : Thread nD τ).loc main_arg8)) shapeCasts_S20_S1x20 from V_bias_dense m c]
  exact (row_reshape_apply (n := 20) _ _ (i 0)).trans (congrArg _ (eq_ix1 i).symm)
theorem bias_hidden (c : Dev nD) (i : (⟨1, ![64]⟩ : Shape).Idx) : bHidden m c (ix2 (0 : Fin 1) (i 0)) = (m ((c.tc : Thread nD τ).loc main_arg16)) i := by
  rw [show bHidden m c = shapeCast S1x64 (m ((c.tc : Thread nD τ).loc main_arg16)) shapeCasts_S64_S1x64 from V_bias_hidden m c]
  exact (row_reshape_apply (n := 64) _ _ (i 0)).trans (congrArg _ (eq_ix1 i).symm)
theorem bias_out (c : Dev nD) (i : (⟨1, ![128]⟩ : Shape).Idx) : bOut m c (ix2 (0 : Fin 1) (i 0)) = (m ((c.tc : Thread nD τ).loc main_arg18)) i := by
  rw [show bOut m c = shapeCast S1x128 (m ((c.tc : Thread nD τ).loc main_arg18)) shapeCasts_S128_S1x128 from V_bias_out m c]
  exact (row_reshape_apply (n := 128) _ _ (i 0)).trans (congrArg _ (eq_ix1 i).symm)

/-! ## What a point writes back -/

/-- The model's output row depends on its thirteen arguments only. -/
theorem outRow_congr {x x' : Fin 64 → EReal} {e1 e1' e2 e2' : Fin 10 → EReal} {e3 e3' e4 e4' e5 e5' e6 e6' : Fin 20 → EReal}
    {Wd Wd' : (⟨2, ![64, 20]⟩ : Shape).Idx → EReal} {bd bd' : (⟨1, ![20]⟩ : Shape).Idx → EReal}
    {W1 W1' : (⟨2, ![135, 64]⟩ : Shape).Idx → EReal} {b1 b1' : (⟨1, ![64]⟩ : Shape).Idx → EReal}
    {W2 W2' : (⟨2, ![64, 128]⟩ : Shape).Idx → EReal} {b2 b2' : (⟨1, ![128]⟩ : Shape).Idx → EReal}
    (h0 : x = x') (h1 : e1 = e1') (h2 : e2 = e2') (h3 : e3 = e3') (h4 : e4 = e4') (h5 : e5 = e5') (h6 : e6 = e6')
    (h7 : Wd = Wd') (h8 : bd = bd') (h9 : W1 = W1') (h10 : b1 = b1') (h11 : W2 = W2') (h12 : b2 = b2') (n : Fin 128) :
    Cert.Spec.outRow x e1 e2 e3 e4 e5 e6 Wd bd W1 b1 W2 b2 n = Cert.Spec.outRow x' e1' e2' e3' e4' e5' e6' Wd' bd' W1' b1' W2' b2' n := by
  subst h0 h1 h2 h3 h4 h5 h6 h7 h8 h9 h10 h11 h12; rfl

/-- WHAT POINT `t` WRITES BACK is block `t` of the model's result array. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after7]
  unfold out7
  rw [View.canon_unit_zero hz]
  simp only [View.ld_unit_zero (S := S2048x164) hz, View.ld_unit_zero (S := S64x20) hz, View.ld_unit_zero (S := S1x20) hz,
    View.ld_unit_zero (S := S135x64) hz, View.ld_unit_zero (S := S1x64) hz, View.ld_unit_zero (S := S64x128) hz,
    View.ld_unit_zero (S := S1x128) hz]
  funext j
  obtain ⟨r, n, rfl⟩ : ∃ (r : Fin 2048) (n : Fin 128), j = ix2 r n := ⟨j 0, j 1, eq_ix2 j⟩
  show stored (F := Ideal) (xb0 m c t) (xb1 m c t) (xb2 m c t) (xb3 m c t) (xb4 m c t) (xb5 m c t) (xb6 m c t) (ix2 r n)
    = G m c (((cfg0.win 7).blk t).view.emb (ix2 r n))
  rw [out_emb]
  refine (Cert.KernelIdeal.BodyValue.stored_apply _ _ _ _ _ _ _ r n).trans ?_
  unfold G
  rw [Cert.Spec.Z_apply]
  refine outRow_congr
    (funext fun d => (xb0_apply m c t r _).trans (col_dense m c _ d))
    (funext fun k => (xb0_apply m c t r _).trans (col_p1 m c _ k))
    (funext fun k => (xb0_apply m c t r _).trans (col_p2 m c _ k))
    (funext fun k => (xb0_apply m c t r _).trans (col_p3 m c _ k))
    (funext fun k => (xb0_apply m c t r _).trans (col_p4 m c _ k))
    (funext fun k => (xb0_apply m c t r _).trans (col_p5 m c _ k))
    (funext fun k => (xb0_apply m c t r _).trans (col_p6 m c _ k))
    ((xb1_eq m c t).trans (V_main_arg7 m c))
    (funext fun i => (congrFun (xb2_eq m c t) _).trans (bias_dense m c i))
    ((xb3_eq m c t).trans (V_main_arg15 m c))
    (funext fun i => (congrFun (xb4_eq m c t) _).trans (bias_hidden m c i))
    ((xb5_eq m c t).trans (V_main_arg17 m c))
    (funext fun i => (congrFun (xb6_eq m c t) _).trans (bias_out m c i))
    n

/-- THE RESULT ARRAY after the run: the 32 blocks cover it. -/
theorem final (c : Dev nD) : (dats m 0 c).arrAt 7 cfg0.N = G m c :=
  (dats m 0 c).arrAt_eq_of_cover 7 (G m c) (fun t _ => flushed_eq m c t) covered7

/-! ## The run, read -/

/-- Every weakly fair execution of the program ends with the result buffer at the model's result of the arguments
    (pooled at the clamped ids) and the argument arrays as launched. -/
theorem run : θ_run defs (onTc (τ := τ) (main (F := Ideal))) ⟨m, fun _ => 0, ρ⟩ fun r => ∀ c : Dev nD,
      r.2.mem ((c.tc : Thread nD τ).loc main_v130) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 7).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 1).trans (((dats m 0 c).arrAt_in 1 rfl _).trans ((A_eq m c 1).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 3).trans (((dats m 0 c).arrAt_in 3 rfl _).trans ((A_eq m c 3).trans (V_main_arg15 m c))),
      ((h c).2 main_arg16 (Pipeline.mem_restRefs_of main_arg16 (by decide) (by decide))).trans (V_main_arg16 m c),
      ((h c).1 5).trans (((dats m 0 c).arrAt_in 5 rfl _).trans ((A_eq m c 5).trans (V_main_arg17 m c))),
      ((h c).2 main_arg18 (Pipeline.mem_restRefs_of main_arg18 (by decide) (by decide))).trans (V_main_arg18 m c)⟩)
    (run_main m ρ)

end Cert.KernelIdeal.KValue

end
-- ==== Proof.PreDecode.lean ====
/-
  Under the precondition every id lies in `[0, 49999]`, so clamping the id arrays changes nothing.

  The precondition is a conjunction, nested to the left, whose last six conjuncts say of the six id arrays that every
  entry `x` has `0 ≤ x` and `x < 50000`, both read as signed 32-bit words, each conjunct an `and` over all entries of
  the array. Peeling the conjunction from the outside gives the six; an `and` over all entries that is 1 is 1 at every
  entry; and a word with `0 ≤ x < 50000` is the larger of `0` and itself, and the smaller of `49999` and itself.
-/
import proofs.«401512_j75213467287608_3_alg».proof.Defs
import proofs.«401512_j75213467287608_3_alg».proof.Proof.Gen.KernelIdeal
import proofs.«401512_j75213467287608_3_alg».proof.Proof.Gen.ReferenceIdeal
import proofs.«401512_j75213467287608_3_alg».proof.Proof.Gen.Pre_finite_inputs
import proofs.«401512_j75213467287608_3_alg».proof.Proof.Pool
import Idealize.ShloMosaic.Lib.ReduceAll
import Idealize.ShloMosaic.Lib.StableHlo.Predicate

noncomputable section

namespace Cert.KernelIdeal.PreDecode

open Idealize.ShloMosaic Idealize.SL.Sem Cert.KernelIdeal
open Cert.ReferenceIdeal.Pool

/-- A word `x` with `0 ≤ x` and `x < 50000`, read signed, is fixed by the clamp into `[0, 49999]`: it is not below `0`,
    so the larger of `0` and `x` is `x`; and `49999` is not below it, so the smaller of `49999` and `x` is `x`. -/
theorem clamp_word (x : BitVec 32) (h0 : IntOp.cmpi .sge x 0#32 = 1#1) (h1 : IntOp.cmpi .slt x 50000#32 = 1#1) :
    IntOp.minsi 49999#32 (IntOp.maxsi 0#32 x) = x := by
  rw [IntOp.cmpi_sge] at h0
  rw [IntOp.cmpi_slt] at h1
  have z : (0#32 : BitVec 32).toInt = 0 := by decide
  have t : (50000#32 : BitVec 32).toInt = 50000 := by decide
  have u : (49999#32 : BitVec 32).toInt = 49999 := by decide
  rw [z] at h0
  rw [t] at h1
  have hmax : IntOp.maxsi 0#32 x = x := by
    unfold IntOp.maxsi
    rw [if_neg]
    rw [BitVec.slt_iff_toInt_lt, z]
    omega
  rw [hmax]
  unfold IntOp.minsi
  rw [if_neg]
  rw [BitVec.slt_iff_toInt_lt, u]
  omega

/-- An id array of any shape whose every entry passes both range compares is fixed by the clamp. -/
theorem clamp_vec {s : Shape} (hb hb' : (⟨0, ![]⟩ : Shape).BroadcastsInDim s (![] : Fin 0 → Fin s.rank)) (ids : IVec s 32)
    (h : ∀ i, andi (cmpi .sge ids (broadcastInDim s ![] hb (constantI ⟨0, ![]⟩ 32 0#32)))
      (cmpi .slt ids (broadcastInDim s ![] hb (constantI ⟨0, ![]⟩ 32 50000#32))) i = 1#1) :
    minsi (broadcastInDim s ![] hb' (constantI ⟨0, ![]⟩ 32 49999#32))
      (maxsi (broadcastInDim s ![] hb' (constantI ⟨0, ![]⟩ 32 0#32)) ids) = ids := by
  funext i
  obtain ⟨h0, h1⟩ := IntOp.andi_eq_one.1 (h i)
  exact clamp_word (ids i) h0 h1

/-- The scalar shape has one index. -/
instance : Subsingleton Cert.Pre_finite_inputs.S_.Idx := ⟨fun _ _ => funext fun d => d.elim0⟩

theorem clamp_id (m : (ℓ : Loc nD τ sig) → Buf (Elt Ideal) ℓ) (h : Cert.Pre_KernelIdeal m) (c : Dev nD) :
    clamp1 (m ((c.tc : Thread nD τ).loc main_arg1)) = (m ((c.tc : Thread nD τ).loc main_arg1))
    ∧ clamp2 (m ((c.tc : Thread nD τ).loc main_arg2)) = (m ((c.tc : Thread nD τ).loc main_arg2))
    ∧ clamp3 (m ((c.tc : Thread nD τ).loc main_arg3)) = (m ((c.tc : Thread nD τ).loc main_arg3))
    ∧ clamp3 (m ((c.tc : Thread nD τ).loc main_arg4)) = (m ((c.tc : Thread nD τ).loc main_arg4))
    ∧ clamp5 (m ((c.tc : Thread nD τ).loc main_arg5)) = (m ((c.tc : Thread nD τ).loc main_arg5))
    ∧ clamp10 (m ((c.tc : Thread nD τ).loc main_arg6)) = (m ((c.tc : Thread nD τ).loc main_arg6)) := by
  have e := congrFun (h c) (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨e, r2⟩ := IntOp.andi_eq_one.1 e
  obtain ⟨-, r1⟩ := IntOp.andi_eq_one.1 e
  exact ⟨clamp_vec _ _ _ (Host.reduce_andi_all _ _ _ _ _ r1),
    clamp_vec _ _ _ (Host.reduce_andi_all _ _ _ _ _ r2),
    clamp_vec _ _ _ (Host.reduce_andi_all _ _ _ _ _ r3),
    clamp_vec _ _ _ (Host.reduce_andi_all _ _ _ _ _ r4),
    clamp_vec _ _ _ (Host.reduce_andi_all _ _ _ _ _ r5),
    clamp_vec _ _ _ (Host.reduce_andi_all _ _ _ _ _ r6)⟩

end Cert.KernelIdeal.PreDecode

end
-- ==== Proof.RefTerm.lean ====
/-
  The reference's result as one function of its nineteen argument arrays.

  The dense projection `de = a0 · a7 + a8`; the six pooled embeddings (`Pool`); the two short ones laid end to end; the
  six 20-wide arrays stacked along a new middle axis and contracted against themselves over their last axis, one 6 × 6
  table of inner products per batch row; the fifteen entries of that table at the pairs `i < j`, picked by a gather
  whose two index columns are constant tables; the 135-wide feature array; the hidden layer with the leaky rectifier;
  the output layer. Each step is the operation the program applies there, in the program's order.
-/
import proofs.«401512_j75213467287608_3_alg».proof.Proof.Pool

noncomputable section

namespace Cert.ReferenceIdeal.RefTerm

open Idealize.ShloMosaic Cert.ReferenceIdeal Cert.ReferenceIdeal.Pool

variable {F : FTy → Type} [FloatOps F] [Facts]
open Facts₀ Facts

/-- The first index column of the pair gather: the constant table of first members (a wrap of negative entries by 6 that
    the all-false mask never selects). -/
def pairCol0 : IVec S15x1 32 :=
  broadcastInDim S15x1 ![0] bcast_S15_S15x1_0
    (select (constantI S15 1 0#1) (addi (fun i => lit0 (S15.rowMajor i)) (broadcastInDim S15 ![] bcast_S_S15 (constantI S_ 32 6#32))) (fun i => lit0 (S15.rowMajor i)))
/-- The second index column: the constant table of second members. -/
def pairCol1 : IVec S15x1 32 :=
  broadcastInDim S15x1 ![0] bcast_S15_S15x1_0
    (select (constantI S15 1 0#1) (addi (fun i => lit1 (S15.rowMajor i)) (broadcastInDim S15 ![] bcast_S_S15 (constantI S_ 32 6#32))) (fun i => lit1 (S15.rowMajor i)))

/-- The result array from the dense projection `de` and the six pooled embeddings onward. -/
def head (de : FVec F S65536x20 .f32) (e1 e2 : FVec F S65536x10 .f32) (e3 e4 e5 e6 : FVec F S65536x20 .f32)
    (a15 : FVec F S135x64 .f32) (a16 : FVec F S64 .f32) (a17 : FVec F S64x128 .f32) (a18 : FVec F S128 .f32) :
    FVec F S65536x128 .f32 :=
  let basic : FVec F S65536x20 .f32 := concatenate S65536x20 1 [⟨S65536x10, e1⟩, ⟨S65536x10, e2⟩] concatenates_S65536x10_S65536x10_S65536x20_d1
  let stack : FVec F S65536x6x20 .f32 := concatenate S65536x6x20 1
    [⟨S65536x1x20, broadcastInDim S65536x1x20 ![0, 2] bcast_S65536x20_S65536x1x20_0_2 de⟩,
     ⟨S65536x1x20, broadcastInDim S65536x1x20 ![0, 2] bcast_S65536x20_S65536x1x20_0_2 basic⟩,
     ⟨S65536x1x20, broadcastInDim S65536x1x20 ![0, 2] bcast_S65536x20_S65536x1x20_0_2 e3⟩,
     ⟨S65536x1x20, broadcastInDim S65536x1x20 ![0, 2] bcast_S65536x20_S65536x1x20_0_2 e4⟩,
     ⟨S65536x1x20, broadcastInDim S65536x1x20 ![0, 2] bcast_S65536x20_S65536x1x20_0_2 e5⟩,
     ⟨S65536x1x20, broadcastInDim S65536x1x20 ![0, 2] bcast_S65536x20_S65536x1x20_0_2 e6⟩]
    concatenates_S65536x1x20_S65536x1x20_S65536x1x20_S65536x1x20_S65536x1x20_S65536x1x20_S65536x6x20_d1
  let gram : FVec F S65536x6x6 .f32 := Host.dotGeneral dot_S65536x6x20_S65536x6x20_S65536x6x6_2_2_1_1_0_0 none stack stack
  let pairIdx : IVec S15x2 32 := concatenate S15x2 1 [⟨S15x1, pairCol0⟩, ⟨S15x1, pairCol1⟩] concatenates_S15x1_S15x1_S15x2_d1
  let dots : FVec F S65536x15 .f32 := Host.gather gather_S65536x6x6_S15x2_S65536x15_0_12_n_n_12_1_6553611 gram pairIdx
  let feat : FVec F S65536x135 .f32 := concatenate S65536x135 1
    [⟨S65536x20, de⟩, ⟨S65536x10, e1⟩, ⟨S65536x10, e2⟩, ⟨S65536x20, e3⟩, ⟨S65536x20, e4⟩, ⟨S65536x20, e5⟩, ⟨S65536x20, e6⟩, ⟨S65536x15, dots⟩]
    concatenates_S65536x20_S65536x10_S65536x10_S65536x20_S65536x20_S65536x20_S65536x20_S65536x15_S65536x135_d1
  let hid : FVec F S65536x64 .f32 := addf (Host.dotGeneral dot_S65536x135_S135x64_S65536x64_1_0_0_1_n_n none feat a15)
    (broadcastInDim S65536x64 ![0, 1] bcast_S1x64_S65536x64_0_1 (broadcastInDim S1x64 ![1] bcast_S64_S1x64_1 a16))
  let act : FVec F S65536x64 .f32 := select (cmpf .ogt hid (broadcastInDim S65536x64 ![] bcast_S_S65536x64 (constant S_ .f32 0x00000000#32))) hid
    (mulf (broadcastInDim S65536x64 ![] bcast_S_S65536x64 (constant S_ .f32 0x3C23D70A#32)) hid)
  addf (Host.dotGeneral dot_S65536x64_S64x128_S65536x128_1_0_0_1_n_n none act a17)
    (broadcastInDim S65536x128 ![0, 1] bcast_S1x128_S65536x128_0_1 (broadcastInDim S1x128 ![1] bcast_S128_S1x128_1 a18))

/-- The dense projection as the program spells it. -/
def denseProj (a0 : FVec F S65536x64 .f32) (a7 : FVec F S64x20 .f32) (a8 : FVec F S20 .f32) : FVec F S65536x20 .f32 :=
  addf (Host.dotGeneral dot_S65536x64_S64x20_S65536x20_1_0_0_1_n_n none a0 a7)
    (broadcastInDim S65536x20 ![0, 1] bcast_S1x20_S65536x20_0_1 (broadcastInDim S1x20 ![1] bcast_S20_S1x20_1 a8))

/-- The reference's result from its nineteen argument arrays. -/
def refTerm (a0 : FVec F S65536x64 .f32) (a1 : IVec S65536x1 32) (a2 : IVec S65536x2 32) (a3 a4 : IVec S65536x3 32)
    (a5 : IVec S65536x5 32) (a6 : IVec S65536x10 32) (a7 : FVec F S64x20 .f32) (a8 : FVec F S20 .f32)
    (a9 a10 : FVec F S50000x10 .f32) (a11 a12 a13 a14 : FVec F S50000x20 .f32)
    (a15 : FVec F S135x64 .f32) (a16 : FVec F S64 .f32) (a17 : FVec F S64x128 .f32) (a18 : FVec F S128 .f32) :
    FVec F S65536x128 .f32 :=
  head (denseProj a0 a7 a8) (pool1x10 a9 a1) (pool2x10 a10 a2) (pool3x20 a11 a3) (pool3x20 a12 a4) (pool5x20 a13 a5)
    (pool10x20 a14 a6) a15 a16 a17 a18

end Cert.ReferenceIdeal.RefTerm

end
-- ==== Proof.RRunOps.lean ====
/-
  The reference's operations, in the program's order, as lists: one list per stretch of the program, each with the
  fact that its operations touch tensor references only and with the list of the references it writes. A call of a
  module-local function stands as the function's operations over the call's own buffers.
-/
import proofs.«401512_j75213467287608_3_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- The two constant index tables with their all-false masks, and the dense projection: the contraction of argument 0 against argument 7 plus argument 8 along the rows. -/
abbrev opsProj : List (HloOp τ sig (Elt F)) :=
  [ StableHlo.nullary main_c (fun i => lit0 (S15.rowMajor i)),
    StableHlo.nullary main_c_0 (constantI S15 1 0#1),
    StableHlo.nullary main_c_1 (fun i => lit1 (S15.rowMajor i)),
    StableHlo.nullary main_c_2 (constantI S15 1 0#1),
    StableHlo.binary main_arg0 main_arg7 main_v0 ((fun l r => Host.dotGeneral dot_S65536x64_S64x20_S65536x20_1_0_0_1_n_n none l r) : (⟨S65536x64, .f32⟩ : BufTy).Contents (Elt F) → (⟨S64x20, .f32⟩ : BufTy).Contents (Elt F) → (⟨S65536x20, .f32⟩ : BufTy).Contents (Elt F)),
    StableHlo.unary main_arg8 main_v1 (broadcastInDim S1x20 ![1] bcast_S20_S1x20_1 : (⟨S20, .f32⟩ : BufTy).Contents (Elt F) → (⟨S1x20, .f32⟩ : BufTy).Contents (Elt F)),
    StableHlo.unary main_v1 main_v2 (broadcastInDim S65536x20 ![0, 1] bcast_S1x20_S65536x20_0_1 : (⟨S1x20, .f32⟩ : BufTy).Contents (Elt F) → (⟨S65536x20, .f32⟩ : BufTy).Contents (Elt F)),
    StableHlo.binary main_v0 main_v2 main_v3 (addf : (⟨S65536x20, .f32⟩ : BufTy).Contents (Elt F) → (⟨S65536x20, .f32⟩ : BufTy).Contents (Elt F) → (⟨S65536x20, .f32⟩ : BufTy).Contents (Elt F)) ]
/-- Each of them touches tensor references only. -/
theorem opsProj_sub : (opsProj : List (HloOp τ sig (Elt F))).Forall fun op => op.bufs ⊆ tcRefs τ sig :=
  ⟨nullary_bufs_sub .., nullary_bufs_sub .., nullary_bufs_sub .., nullary_bufs_sub .., binary_bufs_sub .., unary_bufs_sub .., unary_bufs_sub .., binary_bufs_sub ..⟩
/-- The references they write, in order. -/
abbrev opsProj_W : List (Ref sig .tc) :=
  [main_c, main_c_0, main_c_1, main_c_2, main_v0, main_v1, main_v2, main_v3]

/-- The first embedding bag (one slot per row, table argument 9, ids argument 1): the ids moved up by the table's height where negative, the rows gathered, their norms, the scale, the scaled rows summed. -/
abbrev opsBag1 : List (HloOp τ sig (Elt F)) :=
  [ StableHlo.nullary main_c_3 (constantI S_ 32 0#32),
    StableHlo.unary main_c_3 main_v4 (broadcastInDim S65536x1 ![] bcast_S_S65536x1 : (⟨S_, .i32⟩ : BufTy).Contents (Elt F) → (⟨S65536x1, .i32⟩ : BufTy).Contents (Elt F)),
    StableHlo.binary main_arg1 main_v4 main_v5 (cmpi .slt : (⟨S65536x1, .i32⟩ : BufTy).Contents (Elt F) → (⟨S65536x1, .i32⟩ : BufTy).Contents (Elt F) → (⟨S65536x1, .i1⟩ : BufTy).Contents (Elt F)),
    StableHlo.nullary main_c_4 (constantI S_ 32 50000#32),
    StableHlo.unary main_c_4 main_v6 (broadcastInDim S65536x1 ![] bcast_S_S65536x1 : (⟨S_, .i32⟩ : BufTy).Contents (Elt F) → (⟨S65536x1, .i32⟩ : BufTy).Contents (Elt F)),
    StableHlo.binary main_arg1 main_v6 main_v7 (addi : (⟨S65536x1, .i32⟩ : BufTy).Contents (Elt F) → (⟨S65536x1, .i32⟩ : BufTy).Contents (Elt F) → (⟨S65536x1, .i32⟩ : BufTy).Contents (Elt F)),
    StableHlo.ternary main_v5 main_v7 main_arg1 main_v8 (select : (⟨S65536x1, .i1⟩ : BufTy).Contents (Elt F) → (⟨S65536x1, .i32⟩ : BufTy).Contents (Elt F) → (⟨S65536x1, .i32⟩ : BufTy).Contents (Elt F) → (⟨S65536x1, .i32⟩ : BufTy).Contents (Elt F)),
    StableHlo.unary main_v8 main_v9 (broadcastInDim S65536x1x1 ![0, 1] bcast_S65536x1_S65536x1x1_0_1 : (⟨S65536x1, .i32⟩ : BufTy).Contents (Elt F) → (⟨S65536x1x1, .i32⟩ : BufTy).Contents (Elt F)),
    StableHlo.binary main_arg9 main_v9 main_v10 ((fun x i => Host.gather gather_S50000x10_S65536x1x1_S65536x1x10_2_0_n_n_0_2_110 x i) : (⟨S50000x10, .f32⟩ : BufTy).Contents (Elt F) → (⟨S65536x1x1, .i32⟩ : BufTy).Contents (Elt F) → (⟨S65536x1x10, .f32⟩ : BufTy).Contents (Elt F)),
    StableHlo.TRef.binary (.of main_v10 : StableHlo.TRef sig ⟨S65536x1x10, .f32⟩) (.of main_v10 : StableHlo.TRef sig ⟨S65536x1x10, .f32⟩) main_call0.v0 mulf,
    StableHlo.TRef.nullary main_call0.cst (constant S_ .f32 0x00000000#32),
    StableHlo.TRef.binary main_call0.v0 main_call0.cst main_call0.v1 (fun x v => Host.reduceAdd x v reducesTo_S65536x1x10_S65536x1_d2 h_S_),
    StableHlo.TRef.unary main_call0.v1 main_call0.v2 (broadcastInDim S65536x1x1 ![0, 1] bcast_S65536x1_S65536x1x1_0_1),
    StableHlo.TRef.unary main_call0.v2 main_call0.v3 Host.sqrt,
    StableHlo.nullary main_cst (constant S_ .f32 0x33D6BF95#32),
    StableHlo.unary main_cst main_v12 (broadcastInDim S65536x1x1 ![] bcast_S_S65536x1x1 : (⟨S_, .f32⟩ : BufTy).Contents (Elt F) → (⟨S65536x1x1, .f32⟩ : BufTy).Contents (Elt F)),
    StableHlo.binary main_v11 main_v12 main_v13 (addf : (⟨S65536x1x1, .f32⟩ : BufTy).Contents (Elt F) → (⟨S65536x1x1, .f32⟩ : BufTy).Contents (Elt F) → (⟨S65536x1x1, .f32⟩ : BufTy).Contents (Elt F)),
    StableHlo.nullary main_cst_5 (constant S_ .f32 0x3F800000#32),
    StableHlo.unary main_cst_5 main_v14 (broadcastInDim S65536x1x1 ![] bcast_S_S65536x1x1 : (⟨S_, .f32⟩ : BufTy).Contents (Elt F) → (⟨S65536x1x1, .f32⟩ : BufTy).Contents (Elt F)),
    StableHlo.binary main_v14 main_v13 main_v15 (Host.divf : (⟨S65536x1x1, .f32⟩ : BufTy).Contents (Elt F) → (⟨S65536x1x1, .f32⟩ : BufTy).Contents (Elt F) → (⟨S65536x1x1, .f32⟩ : BufTy).Contents (Elt F)),
    StableHlo.nullary main_cst_6 (constant S_ .f32 0x3F800000#32),
    StableHlo.unary main_cst_6 main_v16 (broadcastInDim S65536x1x1 ![] bcast_S_S65536x1x1 : (⟨S_, .f32⟩ : BufTy).Contents (Elt F) → (⟨S65536x1x1, .f32⟩ : BufTy).Contents (Elt F)),
    StableHlo.binary main_v16 main_v15 main_v17 (minimumf : (⟨S65536x1x1, .f32⟩ : BufTy).Contents (Elt F) → (⟨S65536x1x1, .f32⟩ : BufTy).Contents (Elt F) → (⟨S65536x1x1, .f32⟩ : BufTy).Contents (Elt F)),
    StableHlo.unary main_v17 main_v18 (broadcastInDim S65536x1x10 ![0, 1, 2] bcast_S65536x1x1_S65536x1x10_0_1_2 : (⟨S65536x1x1, .f32⟩ : BufTy).Contents (Elt F) → (⟨S65536x1x10, .f32⟩ : BufTy).Contents (Elt F)),
    StableHlo.binary main_v10 main_v18 main_v19 (mulf : (⟨S65536x1x10, .f32⟩ : BufTy).Contents (Elt F) → (⟨S65536x1x10, .f32⟩ : BufTy).Contents (Elt F) → (⟨S65536x1x10, .f32⟩ : BufTy).Contents (Elt F)),
    StableHlo.nullary main_cst_7 (constant S_ .f32 0x00000000#32),
    StableHlo.binary main_v19 main_cst_7 main_v20 ((fun x v => Host.reduceAdd x v reducesTo_S65536x1x10_S65536x10_d1 h_S_) : (⟨S65536x1x10, .f32⟩ : BufTy).Contents (Elt F) → (⟨S_, .f32⟩ : BufTy).Contents (Elt F) → (⟨S65536x10, .f32⟩ : BufTy).Contents (Elt F)) ]
/-- Each of them touches tensor references only. -/
theorem opsBag1_sub : (opsBag1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub ..⟩
/-- The references they write, in order. -/
abbrev opsBag1_W : List (Ref sig .tc) :=
  [main_c_3, main_v4, main_v5, main_c_4, main_v6, main_v7, main_v8, main_v9, main_v10, main_call0_v0, main_call0_cst, main_call0_v1, main_call0_v2, main_v11, main_cst, main_v12, main_v13, main_cst_5, main_v14, main_v15, main_cst_6, main_v16, main_v17, main_v18, main_v19, main_cst_7, main_v20]

/-- The second embedding bag (two slots per row, table argument 10, ids argument 2). -/
abbrev opsBag2 : List (HloOp τ sig (Elt F)) :=
  [ StableHlo.nullary main_c_8 (constantI S_ 32 0#32),
    StableHlo.unary main_c_8 main_v21 (broadcastInDim S65536x2 ![] bcast_S_S65536x2 : (⟨S_, .i32⟩ : BufTy).Contents (Elt F) → (⟨S65536x2, .i32⟩ : BufTy).Contents (Elt F)),
    StableHlo.binary main_arg2 main_v21 main_v22 (cmpi .slt : (⟨S65536x2, .i32⟩ : BufTy).Contents (Elt F) → (⟨S65536x2, .i32⟩ : BufTy).Contents (Elt F) → (⟨S65536x2, .i1⟩ : BufTy).Contents (Elt F)),
    StableHlo.nullary main_c_9 (constantI S_ 32 50000#32),
    StableHlo.unary main_c_9 main_v23 (broadcastInDim S65536x2 ![] bcast_S_S65536x2 : (⟨S_, .i32⟩ : BufTy).Contents (Elt F) → (⟨S65536x2, .i32⟩ : BufTy).Contents (Elt F)),
    StableHlo.binary main_arg2 main_v23 main_v24 (addi : (⟨S65536x2, .i32⟩ : BufTy).Contents (Elt F) → (⟨S65536x2, .i32⟩ : BufTy).Contents (Elt F) → (⟨S65536x2, .i32⟩ : BufTy).Contents (Elt F)),
    StableHlo.ternary main_v22 main_v24 main_arg2 main_v25 (select : (⟨S65536x2, .i1⟩ : BufTy).Contents (Elt F) → (⟨S65536x2, .i32⟩ : BufTy).Contents (Elt F) → (⟨S65536x2, .i32⟩ : BufTy).Contents (Elt F) → (⟨S65536x2, .i32⟩ : BufTy).Contents (Elt F)),
    StableHlo.unary main_v25 main_v26 (broadcastInDim S65536x2x1 ![0, 1] bcast_S65536x2_S65536x2x1_0_1 : (⟨S65536x2, .i32⟩ : BufTy).Contents (Elt F) → (⟨S65536x2x1, .i32⟩ : BufTy).Contents (Elt F)),
    StableHlo.binary main_arg10 main_v26 main_v27 ((fun x i => Host.gather gather_S50000x10_S65536x2x1_S65536x2x10_2_0_n_n_0_2_110 x i) : (⟨S50000x10, .f32⟩ : BufTy).Contents (Elt F) → (⟨S65536x2x1, .i32⟩ : BufTy).Contents (Elt F) → (⟨S65536x2x10, .f32⟩ : BufTy).Contents (Elt F)),
    StableHlo.TRef.binary (.of main_v27 : StableHlo.TRef sig ⟨S65536x2x10, .f32⟩) (.of main_v27 : StableHlo.TRef sig ⟨S65536x2x10, .f32⟩) main_call1.v0 mulf,
    StableHlo.TRef.nullary main_call1.cst (constant S_ .f32 0x00000000#32),
    StableHlo.TRef.binary main_call1.v0 main_call1.cst main_call1.v1 (fun x v => Host.reduceAdd x v reducesTo_S65536x2x10_S65536x2_d2 h_S_),
    StableHlo.TRef.unary main_call1.v1 main_call1.v2 (broadcastInDim S65536x2x1 ![0, 1] bcast_S65536x2_S65536x2x1_0_1),
    StableHlo.TRef.unary main_call1.v2 main_call1.v3 Host.sqrt,
    StableHlo.nullary main_cst_10 (constant S_ .f32 0x33D6BF95#32),
    StableHlo.unary main_cst_10 main_v29 (broadcastInDim S65536x2x1 ![] bcast_S_S65536x2x1 : (⟨S_, .f32⟩ : BufTy).Contents (Elt F) → (⟨S65536x2x1, .f32⟩ : BufTy).Contents (Elt F)),
    StableHlo.binary main_v28 main_v29 main_v30 (addf : (⟨S65536x2x1, .f32⟩ : BufTy).Contents (Elt F) → (⟨S65536x2x1, .f32⟩ : BufTy).Contents (Elt F) → (⟨S65536x2x1, .f32⟩ : BufTy).Contents (Elt F)),
    StableHlo.nullary main_cst_11 (constant S_ .f32 0x3F800000#32),
    StableHlo.unary main_cst_11 main_v31 (broadcastInDim S65536x2x1 ![] bcast_S_S65536x2x1 : (⟨S_, .f32⟩ : BufTy).Contents (Elt F) → (⟨S65536x2x1, .f32⟩ : BufTy).Contents (Elt F)),
    StableHlo.binary main_v31 main_v30 main_v32 (Host.divf : (⟨S65536x2x1, .f32⟩ : BufTy).Contents (Elt F) → (⟨S65536x2x1, .f32⟩ : BufTy).Contents (Elt F) → (⟨S65536x2x1, .f32⟩ : BufTy).Contents (Elt F)),
    StableHlo.nullary main_cst_12 (constant S_ .f32 0x3F800000#32),
    StableHlo.unary main_cst_12 main_v33 (broadcastInDim S65536x2x1 ![] bcast_S_S65536x2x1 : (⟨S_, .f32⟩ : BufTy).Contents (Elt F) → (⟨S65536x2x1, .f32⟩ : BufTy).Contents (Elt F)),
    StableHlo.binary main_v33 main_v32 main_v34 (minimumf : (⟨S65536x2x1, .f32⟩ : BufTy).Contents (Elt F) → (⟨S65536x2x1, .f32⟩ : BufTy).Contents (Elt F) → (⟨S65536x2x1, .f32⟩ : BufTy).Contents (Elt F)),
    StableHlo.unary main_v34 main_v35 (broadcastInDim S65536x2x10 ![0, 1, 2] bcast_S65536x2x1_S65536x2x10_0_1_2 : (⟨S65536x2x1, .f32⟩ : BufTy).Contents (Elt F) → (⟨S65536x2x10, .f32⟩ : BufTy).Contents (Elt F)),
    StableHlo.binary main_v27 main_v35 main_v36 (mulf : (⟨S65536x2x10, .f32⟩ : BufTy).Contents (Elt F) → (⟨S65536x2x10, .f32⟩ : BufTy).Contents (Elt F) → (⟨S65536x2x10, .f32⟩ : BufTy).Contents (Elt F)),
    StableHlo.nullary main_cst_13 (constant S_ .f32 0x00000000#32),
    StableHlo.binary main_v36 main_cst_13 main_v37 ((fun x v => Host.reduceAdd x v reducesTo_S65536x2x10_S65536x10_d1 h_S_) : (⟨S65536x2x10, .f32⟩ : BufTy).Contents (Elt F) → (⟨S_, .f32⟩ : BufTy).Contents (Elt F) → (⟨S65536x10, .f32⟩ : BufTy).Contents (Elt F)) ]
/-- Each of them touches tensor references only. -/
theorem opsBag2_sub : (opsBag2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub ..⟩
/-- The references they write, in order. -/
abbrev opsBag2_W : List (Ref sig .tc) :=
  [main_c_8, main_v21, main_v22, main_c_9, main_v23, main_v24, main_v25, main_v26, main_v27, main_call1_v0, main_call1_cst, main_call1_v1, main_call1_v2, main_v28, main_cst_10, main_v29, main_v30, main_cst_11, main_v31, main_v32, main_cst_12, main_v33, main_v34, main_v35, main_v36, main_cst_13, main_v37]

/-- The third embedding bag (three slots per row, table argument 11, ids argument 3), up to the ids moved by the table's height. -/
abbrev opsBag3a : List (HloOp τ sig (Elt F)) :=
  [ StableHlo.nullary main_c_14 (constantI S_ 32 0#32),
    StableHlo.unary main_c_14 main_v38 (broadcastInDim S65536x3 ![] bcast_S_S65536x3 : (⟨S_, .i32⟩ : BufTy).Contents (Elt F) → (⟨S65536x3, .i32⟩ : BufTy).Contents (Elt F)),
    StableHlo.binary main_arg3 main_v38 main_v39 (cmpi .slt : (⟨S65536x3, .i32⟩ : BufTy).Contents (Elt F) → (⟨S65536x3, .i32⟩ : BufTy).Contents (Elt F) → (⟨S65536x3, .i1⟩ : BufTy).Contents (Elt F)),
    StableHlo.nullary main_c_15 (constantI S_ 32 50000#32),
    StableHlo.unary main_c_15 main_v40 (broadcastInDim S65536x3 ![] bcast_S_S65536x3 : (⟨S_, .i32⟩ : BufTy).Contents (Elt F) → (⟨S65536x3, .i32⟩ : BufTy).Contents (Elt F)),
    StableHlo.binary main_arg3 main_v40 main_v41 (addi : (⟨S65536x3, .i32⟩ : BufTy).Contents (Elt F) → (⟨S65536x3, .i32⟩ : BufTy).Contents (Elt F) → (⟨S65536x3, .i32⟩ : BufTy).Contents (Elt F)) ]
/-- Each of them touches tensor references only. -/
theorem opsBag3a_sub : (opsBag3a : List (HloOp τ sig (Elt F))).Forall fun op => op.bufs ⊆ tcRefs τ sig :=
  ⟨nullary_bufs_sub .., unary_bufs_sub .., binary_bufs_sub .., nullary_bufs_sub .., unary_bufs_sub .., binary_bufs_sub ..⟩
/-- The references they write, in order. -/
abbrev opsBag3a_W : List (Ref sig .tc) :=
  [main_c_14, main_v38, main_v39, main_c_15, main_v40, main_v41]

/-- The third embedding bag from the choice of the moved ids onward. -/
abbrev opsBag3b : List (HloOp τ sig (Elt F)) :=
  [ StableHlo.ternary main_v39 main_v41 main_arg3 main_v42 (select : (⟨S65536x3, .i1⟩ : BufTy).Contents (Elt F) → (⟨S65536x3, .i32⟩ : BufTy).Contents (Elt F) → (⟨S65536x3, .i32⟩ : BufTy).Contents (Elt F) → (⟨S65536x3, .i32⟩ : BufTy).Contents (Elt F)),
    StableHlo.unary main_v42 main_v43 (broadcastInDim S65536x3x1 ![0, 1] bcast_S65536x3_S65536x3x1_0_1 : (⟨S65536x3, .i32⟩ : BufTy).Contents (Elt F) → (⟨S65536x3x1, .i32⟩ : BufTy).Contents (Elt F)),
    StableHlo.binary main_arg11 main_v43 main_v44 ((fun x i => Host.gather gather_S50000x20_S65536x3x1_S65536x3x20_2_0_n_n_0_2_120 x i) : (⟨S50000x20, .f32⟩ : BufTy).Contents (Elt F) → (⟨S65536x3x1, .i32⟩ : BufTy).Contents (Elt F) → (⟨S65536x3x20, .f32⟩ : BufTy).Contents (Elt F)),
    StableHlo.TRef.binary (.of main_v44 : StableHlo.TRef sig ⟨S65536x3x20, .f32⟩) (.of main_v44 : StableHlo.TRef sig ⟨S65536x3x20, .f32⟩) main_call2.v0 mulf,
    StableHlo.TRef.nullary main_call2.cst (constant S_ .f32 0x00000000#32),
    StableHlo.TRef.binary main_call2.v0 main_call2.cst main_call2.v1 (fun x v => Host.reduceAdd x v reducesTo_S65536x3x20_S65536x3_d2 h_S_),
    StableHlo.TRef.unary main_call2.v1 main_call2.v2 (broadcastInDim S65536x3x1 ![0, 1] bcast_S65536x3_S65536x3x1_0_1),
    StableHlo.TRef.unary main_call2.v2 main_call2.v3 Host.sqrt,
    StableHlo.nullary main_cst_16 (constant S_ .f32 0x33D6BF95#32),
    StableHlo.unary main_cst_16 main_v46 (broadcastInDim S65536x3x1 ![] bcast_S_S65536x3x1 : (⟨S_, .f32⟩ : BufTy).Contents (Elt F) → (⟨S65536x3x1, .f32⟩ : BufTy).Contents (Elt F)),
    StableHlo.binary main_v45 main_v46 main_v47 (addf : (⟨S65536x3x1, .f32⟩ : BufTy).Contents (Elt F) → (⟨S65536x3x1, .f32⟩ : BufTy).Contents (Elt F) → (⟨S65536x3x1, .f32⟩ : BufTy).Contents (Elt F)),
    StableHlo.nullary main_cst_17 (constant S_ .f32 0x3F800000#32),
    StableHlo.unary main_cst_17 main_v48 (broadcastInDim S65536x3x1 ![] bcast_S_S65536x3x1 : (⟨S_, .f32⟩ : BufTy).Contents (Elt F) → (⟨S65536x3x1, .f32⟩ : BufTy).Contents (Elt F)),
    StableHlo.binary main_v48 main_v47 main_v49 (Host.divf : (⟨S65536x3x1, .f32⟩ : BufTy).Contents (Elt F) → (⟨S65536x3x1, .f32⟩ : BufTy).Contents (Elt F) → (⟨S65536x3x1, .f32⟩ : BufTy).Contents (Elt F)),
    StableHlo.nullary main_cst_18 (constant S_ .f32 0x3F800000#32),
    StableHlo.unary main_cst_18 main_v50 (broadcastInDim S65536x3x1 ![] bcast_S_S65536x3x1 : (⟨S_, .f32⟩ : BufTy).Contents (Elt F) → (⟨S65536x3x1, .f32⟩ : BufTy).Contents (Elt F)),
    StableHlo.binary main_v50 main_v49 main_v51 (minimumf : (⟨S65536x3x1, .f32⟩ : BufTy).Contents (Elt F) → (⟨S65536x3x1, .f32⟩ : BufTy).Contents (Elt F) → (⟨S65536x3x1, .f32⟩ : BufTy).Contents (Elt F)),
    StableHlo.unary main_v51 main_v52 (broadcastInDim S65536x3x20 ![0, 1, 2] bcast_S65536x3x1_S65536x3x20_0_1_2 : (⟨S65536x3x1, .f32⟩ : BufTy).Contents (Elt F) → (⟨S65536x3x20, .f32⟩ : BufTy).Contents (Elt F)),
    StableHlo.binary main_v44 main_v52 main_v53 (mulf : (⟨S65536x3x20, .f32⟩ : BufTy).Contents (Elt F) → (⟨S65536x3x20, .f32⟩ : BufTy).Contents (Elt F) → (⟨S65536x3x20, .f32⟩ : BufTy).Contents (Elt F)),
    StableHlo.nullary main_cst_19 (constant S_ .f32 0x00000000#32),
    StableHlo.binary main_v53 main_cst_19 main_v54 ((fun x v => Host.reduceAdd x v reducesTo_S65536x3x20_S65536x20_d1 h_S_) : (⟨S65536x3x20, .f32⟩ : BufTy).Contents (Elt F) → (⟨S_, .f32⟩ : BufTy).Contents (Elt F) → (⟨S65536x20, .f32⟩ : BufTy).Contents (Elt F)) ]
/-- Each of them touches tensor references only. -/
theorem opsBag3b_sub : (opsBag3b : List (HloOp τ sig (Elt F))).Forall fun op => op.bufs ⊆ tcRefs τ sig :=
  ⟨ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub ..⟩
/-- The references they write, in order. -/
abbrev opsBag3b_W : List (Ref sig .tc) :=
  [main_v42, main_v43, main_v44, main_call2_v0, main_call2_cst, main_call2_v1, main_call2_v2, main_v45, main_cst_16, main_v46, main_v47, main_cst_17, main_v48, main_v49, main_cst_18, main_v50, main_v51, main_v52, main_v53, main_cst_19, main_v54]

/-- The fourth embedding bag (three slots per row, table argument 12, ids argument 4). -/
abbrev opsBag4 : List (HloOp τ sig (Elt F)) :=
  [ StableHlo.nullary main_c_20 (constantI S_ 32 0#32),
    StableHlo.unary main_c_20 main_v55 (broadcastInDim S65536x3 ![] bcast_S_S65536x3 : (⟨S_, .i32⟩ : BufTy).Contents (Elt F) → (⟨S65536x3, .i32⟩ : BufTy).Contents (Elt F)),
    StableHlo.binary main_arg4 main_v55 main_v56 (cmpi .slt : (⟨S65536x3, .i32⟩ : BufTy).Contents (Elt F) → (⟨S65536x3, .i32⟩ : BufTy).Contents (Elt F) → (⟨S65536x3, .i1⟩ : BufTy).Contents (Elt F)),
    StableHlo.nullary main_c_21 (constantI S_ 32 50000#32),
    StableHlo.unary main_c_21 main_v57 (broadcastInDim S65536x3 ![] bcast_S_S65536x3 : (⟨S_, .i32⟩ : BufTy).Contents (Elt F) → (⟨S65536x3, .i32⟩ : BufTy).Contents (Elt F)),
    StableHlo.binary main_arg4 main_v57 main_v58 (addi : (⟨S65536x3, .i32⟩ : BufTy).Contents (Elt F) → (⟨S65536x3, .i32⟩ : BufTy).Contents (Elt F) → (⟨S65536x3, .i32⟩ : BufTy).Contents (Elt F)),
    StableHlo.ternary main_v56 main_v58 main_arg4 main_v59 (select : (⟨S65536x3, .i1⟩ : BufTy).Contents (Elt F) → (⟨S65536x3, .i32⟩ : BufTy).Contents (Elt F) → (⟨S65536x3, .i32⟩ : BufTy).Contents (Elt F) → (⟨S65536x3, .i32⟩ : BufTy).Contents (Elt F)),
    StableHlo.unary main_v59 main_v60 (broadcastInDim S65536x3x1 ![0, 1] bcast_S65536x3_S65536x3x1_0_1 : (⟨S65536x3, .i32⟩ : BufTy).Contents (Elt F) → (⟨S65536x3x1, .i32⟩ : BufTy).Contents (Elt F)),
    StableHlo.binary main_arg12 main_v60 main_v61 ((fun x i => Host.gather gather_S50000x20_S65536x3x1_S65536x3x20_2_0_n_n_0_2_120 x i) : (⟨S50000x20, .f32⟩ : BufTy).Contents (Elt F) → (⟨S65536x3x1, .i32⟩ : BufTy).Contents (Elt F) → (⟨S65536x3x20, .f32⟩ : BufTy).Contents (Elt F)),
    StableHlo.TRef.binary (.of main_v61 : StableHlo.TRef sig ⟨S65536x3x20, .f32⟩) (.of main_v61 : StableHlo.TRef sig ⟨S65536x3x20, .f32⟩) main_call3.v0 mulf,
    StableHlo.TRef.nullary main_call3.cst (constant S_ .f32 0x00000000#32),
    StableHlo.TRef.binary main_call3.v0 main_call3.cst main_call3.v1 (fun x v => Host.reduceAdd x v reducesTo_S65536x3x20_S65536x3_d2 h_S_),
    StableHlo.TRef.unary main_call3.v1 main_call3.v2 (broadcastInDim S65536x3x1 ![0, 1] bcast_S65536x3_S65536x3x1_0_1),
    StableHlo.TRef.unary main_call3.v2 main_call3.v3 Host.sqrt,
    StableHlo.nullary main_cst_22 (constant S_ .f32 0x33D6BF95#32),
    StableHlo.unary main_cst_22 main_v63 (broadcastInDim S65536x3x1 ![] bcast_S_S65536x3x1 : (⟨S_, .f32⟩ : BufTy).Contents (Elt F) → (⟨S65536x3x1, .f32⟩ : BufTy).Contents (Elt F)),
    StableHlo.binary main_v62 main_v63 main_v64 (addf : (⟨S65536x3x1, .f32⟩ : BufTy).Contents (Elt F) → (⟨S65536x3x1, .f32⟩ : BufTy).Contents (Elt F) → (⟨S65536x3x1, .f32⟩ : BufTy).Contents (Elt F)),
    StableHlo.nullary main_cst_23 (constant S_ .f32 0x3F800000#32),
    StableHlo.unary main_cst_23 main_v65 (broadcastInDim S65536x3x1 ![] bcast_S_S65536x3x1 : (⟨S_, .f32⟩ : BufTy).Contents (Elt F) → (⟨S65536x3x1, .f32⟩ : BufTy).Contents (Elt F)),
    StableHlo.binary main_v65 main_v64 main_v66 (Host.divf : (⟨S65536x3x1, .f32⟩ : BufTy).Contents (Elt F) → (⟨S65536x3x1, .f32⟩ : BufTy).Contents (Elt F) → (⟨S65536x3x1, .f32⟩ : BufTy).Contents (Elt F)),
    StableHlo.nullary main_cst_24 (constant S_ .f32 0x3F800000#32),
    StableHlo.unary main_cst_24 main_v67 (broadcastInDim S65536x3x1 ![] bcast_S_S65536x3x1 : (⟨S_, .f32⟩ : BufTy).Contents (Elt F) → (⟨S65536x3x1, .f32⟩ : BufTy).Contents (Elt F)),
    StableHlo.binary main_v67 main_v66 main_v68 (minimumf : (⟨S65536x3x1, .f32⟩ : BufTy).Contents (Elt F) → (⟨S65536x3x1, .f32⟩ : BufTy).Contents (Elt F) → (⟨S65536x3x1, .f32⟩ : BufTy).Contents (Elt F)),
    StableHlo.unary main_v68 main_v69 (broadcastInDim S65536x3x20 ![0, 1, 2] bcast_S65536x3x1_S65536x3x20_0_1_2 : (⟨S65536x3x1, .f32⟩ : BufTy).Contents (Elt F) → (⟨S65536x3x20, .f32⟩ : BufTy).Contents (Elt F)),
    StableHlo.binary main_v61 main_v69 main_v70 (mulf : (⟨S65536x3x20, .f32⟩ : BufTy).Contents (Elt F) → (⟨S65536x3x20, .f32⟩ : BufTy).Contents (Elt F) → (⟨S65536x3x20, .f32⟩ : BufTy).Contents (Elt F)),
    StableHlo.nullary main_cst_25 (constant S_ .f32 0x00000000#32),
    StableHlo.binary main_v70 main_cst_25 main_v71 ((fun x v => Host.reduceAdd x v reducesTo_S65536x3x20_S65536x20_d1 h_S_) : (⟨S65536x3x20, .f32⟩ : BufTy).Contents (Elt F) → (⟨S_, .f32⟩ : BufTy).Contents (Elt F) → (⟨S65536x20, .f32⟩ : BufTy).Contents (Elt F)) ]
/-- Each of them touches tensor references only. -/
theorem opsBag4_sub : (opsBag4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub ..⟩
/-- The references they write, in order. -/
abbrev opsBag4_W : List (Ref sig .tc) :=
  [main_c_20, main_v55, main_v56, main_c_21, main_v57, main_v58, main_v59, main_v60, main_v61, main_call3_v0, main_call3_cst, main_call3_v1, main_call3_v2, main_v62, main_cst_22, main_v63, main_v64, main_cst_23, main_v65, main_v66, main_cst_24, main_v67, main_v68, main_v69, main_v70, main_cst_25, main_v71]

/-- The fifth embedding bag (five slots per row, table argument 13, ids argument 5), up to the scale laid along the rows' entries. -/
abbrev opsBag5a : List (HloOp τ sig (Elt F)) :=
  [ StableHlo.nullary main_c_26 (constantI S_ 32 0#32),
    StableHlo.unary main_c_26 main_v72 (broadcastInDim S65536x5 ![] bcast_S_S65536x5 : (⟨S_, .i32⟩ : BufTy).Contents (Elt F) → (⟨S65536x5, .i32⟩ : BufTy).Contents (Elt F)),
    StableHlo.binary main_arg5 main_v72 main_v73 (cmpi .slt : (⟨S65536x5, .i32⟩ : BufTy).Contents (Elt F) → (⟨S65536x5, .i32⟩ : BufTy).Contents (Elt F) → (⟨S65536x5, .i1⟩ : BufTy).Contents (Elt F)),
    StableHlo.nullary main_c_27 (constantI S_ 32 50000#32),
    StableHlo.unary main_c_27 main_v74 (broadcastInDim S65536x5 ![] bcast_S_S65536x5 : (⟨S_, .i32⟩ : BufTy).Contents (Elt F) → (⟨S65536x5, .i32⟩ : BufTy).Contents (Elt F)),
    StableHlo.binary main_arg5 main_v74 main_v75 (addi : (⟨S65536x5, .i32⟩ : BufTy).Contents (Elt F) → (⟨S65536x5, .i32⟩ : BufTy).Contents (Elt F) → (⟨S65536x5, .i32⟩ : BufTy).Contents (Elt F)),
    StableHlo.ternary main_v73 main_v75 main_arg5 main_v76 (select : (⟨S65536x5, .i1⟩ : BufTy).Contents (Elt F) → (⟨S65536x5, .i32⟩ : BufTy).Contents (Elt F) → (⟨S65536x5, .i32⟩ : BufTy).Contents (Elt F) → (⟨S65536x5, .i32⟩ : BufTy).Contents (Elt F)),
    StableHlo.unary main_v76 main_v77 (broadcastInDim S65536x5x1 ![0, 1] bcast_S65536x5_S65536x5x1_0_1 : (⟨S65536x5, .i32⟩ : BufTy).Contents (Elt F) → (⟨S65536x5x1, .i32⟩ : BufTy).Contents (Elt F)),
    StableHlo.binary main_arg13 main_v77 main_v78 ((fun x i => Host.gather gather_S50000x20_S65536x5x1_S65536x5x20_2_0_n_n_0_2_120 x i) : (⟨S50000x20, .f32⟩ : BufTy).Contents (Elt F) → (⟨S65536x5x1, .i32⟩ : BufTy).Contents (Elt F) → (⟨S65536x5x20, .f32⟩ : BufTy).Contents (Elt F)),
    StableHlo.TRef.binary (.of main_v78 : StableHlo.TRef sig ⟨S65536x5x20, .f32⟩) (.of main_v78 : StableHlo.TRef sig ⟨S65536x5x20, .f32⟩) main_call4.v0 mulf,
    StableHlo.TRef.nullary main_call4.cst (constant S_ .f32 0x00000000#32),
    StableHlo.TRef.binary main_call4.v0 main_call4.cst main_call4.v1 (fun x v => Host.reduceAdd x v reducesTo_S65536x5x20_S65536x5_d2 h_S_),
    StableHlo.TRef.unary main_call4.v1 main_call4.v2 (broadcastInDim S65536x5x1 ![0, 1] bcast_S65536x5_S65536x5x1_0_1),
    StableHlo.TRef.unary main_call4.v2 main_call4.v3 Host.sqrt,
    StableHlo.nullary main_cst_28 (constant S_ .f32 0x33D6BF95#32),
    StableHlo.unary main_cst_28 main_v80 (broadcastInDim S65536x5x1 ![] bcast_S_S65536x5x1 : (⟨S_, .f32⟩ : BufTy).Contents (Elt F) → (⟨S65536x5x1, .f32⟩ : BufTy).Contents (Elt F)),
    StableHlo.binary main_v79 main_v80 main_v81 (addf : (⟨S65536x5x1, .f32⟩ : BufTy).Contents (Elt F) → (⟨S65536x5x1, .f32⟩ : BufTy).Contents (Elt F) → (⟨S65536x5x1, .f32⟩ : BufTy).Contents (Elt F)),
    StableHlo.nullary main_cst_29 (constant S_ .f32 0x3F800000#32),
    StableHlo.unary main_cst_29 main_v82 (broadcastInDim S65536x5x1 ![] bcast_S_S65536x5x1 : (⟨S_, .f32⟩ : BufTy).Contents (Elt F) → (⟨S65536x5x1, .f32⟩ : BufTy).Contents (Elt F)),
    StableHlo.binary main_v82 main_v81 main_v83 (Host.divf : (⟨S65536x5x1, .f32⟩ : BufTy).Contents (Elt F) → (⟨S65536x5x1, .f32⟩ : BufTy).Contents (Elt F) → (⟨S65536x5x1, .f32⟩ : BufTy).Contents (Elt F)),
    StableHlo.nullary main_cst_30 (constant S_ .f32 0x3F800000#32),
    StableHlo.unary main_cst_30 main_v84 (broadcastInDim S65536x5x1 ![] bcast_S_S65536x5x1 : (⟨S_, .f32⟩ : BufTy).Contents (Elt F) → (⟨S65536x5x1, .f32⟩ : BufTy).Contents (Elt F)),
    StableHlo.binary main_v84 main_v83 main_v85 (minimumf : (⟨S65536x5x1, .f32⟩ : BufTy).Contents (Elt F) → (⟨S65536x5x1, .f32⟩ : BufTy).Contents (Elt F) → (⟨S65536x5x1, .f32⟩ : BufTy).Contents (Elt F)),
    StableHlo.unary main_v85 main_v86 (broadcastInDim S65536x5x20 ![0, 1, 2] bcast_S65536x5x1_S65536x5x20_0_1_2 : (⟨S65536x5x1, .f32⟩ : BufTy).Contents (Elt F) → (⟨S65536x5x20, .f32⟩ : BufTy).Contents (Elt F)) ]
/-- Each of them touches tensor references only. -/
theorem opsBag5a_sub : (opsBag5a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub ..⟩
/-- The references they write, in order. -/
abbrev opsBag5a_W : List (Ref sig .tc) :=
  [main_c_26, main_v72, main_v73, main_c_27, main_v74, main_v75, main_v76, main_v77, main_v78, main_call4_v0, main_call4_cst, main_call4_v1, main_call4_v2, main_v79, main_cst_28, main_v80, main_v81, main_cst_29, main_v82, main_v83, main_cst_30, main_v84, main_v85, main_v86]

/-- The fifth embedding bag's scaled rows and their sum. -/
abbrev opsBag5b : List (HloOp τ sig (Elt F)) :=
  [ StableHlo.binary main_v78 main_v86 main_v87 (mulf : (⟨S65536x5x20, .f32⟩ : BufTy).Contents (Elt F) → (⟨S65536x5x20, .f32⟩ : BufTy).Contents (Elt F) → (⟨S65536x5x20, .f32⟩ : BufTy).Contents (Elt F)),
    StableHlo.nullary main_cst_31 (constant S_ .f32 0x00000000#32),
    StableHlo.binary main_v87 main_cst_31 main_v88 ((fun x v => Host.reduceAdd x v reducesTo_S65536x5x20_S65536x20_d1 h_S_) : (⟨S65536x5x20, .f32⟩ : BufTy).Contents (Elt F) → (⟨S_, .f32⟩ : BufTy).Contents (Elt F) → (⟨S65536x20, .f32⟩ : BufTy).Contents (Elt F)) ]
/-- Each of them touches tensor references only. -/
theorem opsBag5b_sub : (opsBag5b : List (HloOp τ sig (Elt F))).Forall fun op => op.bufs ⊆ tcRefs τ sig :=
  ⟨binary_bufs_sub .., nullary_bufs_sub .., binary_bufs_sub ..⟩
/-- The references they write, in order. -/
abbrev opsBag5b_W : List (Ref sig .tc) :=
  [main_v87, main_cst_31, main_v88]

/-- The sixth embedding bag (ten slots per row, table argument 14, ids argument 6). -/
abbrev opsBag6 : List (HloOp τ sig (Elt F)) :=
  [ StableHlo.nullary main_c_32 (constantI S_ 32 0#32),
    StableHlo.unary main_c_32 main_v89 (broadcastInDim S65536x10 ![] bcast_S_S65536x10 : (⟨S_, .i32⟩ : BufTy).Contents (Elt F) → (⟨S65536x10, .i32⟩ : BufTy).Contents (Elt F)),
    StableHlo.binary main_arg6 main_v89 main_v90 (cmpi .slt : (⟨S65536x10, .i32⟩ : BufTy).Contents (Elt F) → (⟨S65536x10, .i32⟩ : BufTy).Contents (Elt F) → (⟨S65536x10, .i1⟩ : BufTy).Contents (Elt F)),
    StableHlo.nullary main_c_33 (constantI S_ 32 50000#32),
    StableHlo.unary main_c_33 main_v91 (broadcastInDim S65536x10 ![] bcast_S_S65536x10 : (⟨S_, .i32⟩ : BufTy).Contents (Elt F) → (⟨S65536x10, .i32⟩ : BufTy).Contents (Elt F)),
    StableHlo.binary main_arg6 main_v91 main_v92 (addi : (⟨S65536x10, .i32⟩ : BufTy).Contents (Elt F) → (⟨S65536x10, .i32⟩ : BufTy).Contents (Elt F) → (⟨S65536x10, .i32⟩ : BufTy).Contents (Elt F)),
    StableHlo.ternary main_v90 main_v92 main_arg6 main_v93 (select : (⟨S65536x10, .i1⟩ : BufTy).Contents (Elt F) → (⟨S65536x10, .i32⟩ : BufTy).Contents (Elt F) → (⟨S65536x10, .i32⟩ : BufTy).Contents (Elt F) → (⟨S65536x10, .i32⟩ : BufTy).Contents (Elt F)),
    StableHlo.unary main_v93 main_v94 (broadcastInDim S65536x10x1 ![0, 1] bcast_S65536x10_S65536x10x1_0_1 : (⟨S65536x10, .i32⟩ : BufTy).Contents (Elt F) → (⟨S65536x10x1, .i32⟩ : BufTy).Contents (Elt F)),
    StableHlo.binary main_arg14 main_v94 main_v95 ((fun x i => Host.gather gather_S50000x20_S65536x10x1_S65536x10x20_2_0_n_n_0_2_120 x i) : (⟨S50000x20, .f32⟩ : BufTy).Contents (Elt F) → (⟨S65536x10x1, .i32⟩ : BufTy).Contents (Elt F) → (⟨S65536x10x20, .f32⟩ : BufTy).Contents (Elt F)),
    StableHlo.TRef.binary (.of main_v95 : StableHlo.TRef sig ⟨S65536x10x20, .f32⟩) (.of main_v95 : StableHlo.TRef sig ⟨S65536x10x20, .f32⟩) main_call5.v0 mulf,
    StableHlo.TRef.nullary main_call5.cst (constant S_ .f32 0x00000000#32),
    StableHlo.TRef.binary main_call5.v0 main_call5.cst main_call5.v1 (fun x v => Host.reduceAdd x v reducesTo_S65536x10x20_S65536x10_d2 h_S_),
    StableHlo.TRef.unary main_call5.v1 main_call5.v2 (broadcastInDim S65536x10x1 ![0, 1] bcast_S65536x10_S65536x10x1_0_1),
    StableHlo.TRef.unary main_call5.v2 main_call5.v3 Host.sqrt,
    StableHlo.nullary main_cst_34 (constant S_ .f32 0x33D6BF95#32),
    StableHlo.unary main_cst_34 main_v97 (broadcastInDim S65536x10x1 ![] bcast_S_S65536x10x1 : (⟨S_, .f32⟩ : BufTy).Contents (Elt F) → (⟨S65536x10x1, .f32⟩ : BufTy).Contents (Elt F)),
    StableHlo.binary main_v96 main_v97 main_v98 (addf : (⟨S65536x10x1, .f32⟩ : BufTy).Contents (Elt F) → (⟨S65536x10x1, .f32⟩ : BufTy).Contents (Elt F) → (⟨S65536x10x1, .f32⟩ : BufTy).Contents (Elt F)),
    StableHlo.nullary main_cst_35 (constant S_ .f32 0x3F800000#32),
    StableHlo.unary main_cst_35 main_v99 (broadcastInDim S65536x10x1 ![] bcast_S_S65536x10x1 : (⟨S_, .f32⟩ : BufTy).Contents (Elt F) → (⟨S65536x10x1, .f32⟩ : BufTy).Contents (Elt F)),
    StableHlo.binary main_v99 main_v98 main_v100 (Host.divf : (⟨S65536x10x1, .f32⟩ : BufTy).Contents (Elt F) → (⟨S65536x10x1, .f32⟩ : BufTy).Contents (Elt F) → (⟨S65536x10x1, .f32⟩ : BufTy).Contents (Elt F)),
    StableHlo.nullary main_cst_36 (constant S_ .f32 0x3F800000#32),
    StableHlo.unary main_cst_36 main_v101 (broadcastInDim S65536x10x1 ![] bcast_S_S65536x10x1 : (⟨S_, .f32⟩ : BufTy).Contents (Elt F) → (⟨S65536x10x1, .f32⟩ : BufTy).Contents (Elt F)),
    StableHlo.binary main_v101 main_v100 main_v102 (minimumf : (⟨S65536x10x1, .f32⟩ : BufTy).Contents (Elt F) → (⟨S65536x10x1, .f32⟩ : BufTy).Contents (Elt F) → (⟨S65536x10x1, .f32⟩ : BufTy).Contents (Elt F)),
    StableHlo.unary main_v102 main_v103 (broadcastInDim S65536x10x20 ![0, 1, 2] bcast_S65536x10x1_S65536x10x20_0_1_2 : (⟨S65536x10x1, .f32⟩ : BufTy).Contents (Elt F) → (⟨S65536x10x20, .f32⟩ : BufTy).Contents (Elt F)),
    StableHlo.binary main_v95 main_v103 main_v104 (mulf : (⟨S65536x10x20, .f32⟩ : BufTy).Contents (Elt F) → (⟨S65536x10x20, .f32⟩ : BufTy).Contents (Elt F) → (⟨S65536x10x20, .f32⟩ : BufTy).Contents (Elt F)),
    StableHlo.nullary main_cst_37 (constant S_ .f32 0x00000000#32),
    StableHlo.binary main_v104 main_cst_37 main_v105 ((fun x v => Host.reduceAdd x v reducesTo_S65536x10x20_S65536x20_d1 h_S_) : (⟨S65536x10x20, .f32⟩ : BufTy).Contents (Elt F) → (⟨S_, .f32⟩ : BufTy).Contents (Elt F) → (⟨S65536x20, .f32⟩ : BufTy).Contents (Elt F)) ]
/-- Each of them touches tensor references only. -/
theorem opsBag6_sub : (opsBag6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub ..⟩
/-- The references they write, in order. -/
abbrev opsBag6_W : List (Ref sig .tc) :=
  [main_c_32, main_v89, main_v90, main_c_33, main_v91, main_v92, main_v93, main_v94, main_v95, main_call5_v0, main_call5_cst, main_call5_v1, main_call5_v2, main_v96, main_cst_34, main_v97, main_v98, main_cst_35, main_v99, main_v100, main_cst_36, main_v101, main_v102, main_v103, main_v104, main_cst_37, main_v105]

/-- The two short embeddings laid end to end, and each of the six 20-wide arrays given a middle axis of length one. -/
abbrev opsStack : List (HloOp τ sig (Elt F)) :=
  [ StableHlo.binary main_v20 main_v37 main_v106 ((fun a b => concatenate S65536x20 1 [⟨S65536x10, a⟩, ⟨S65536x10, b⟩] concatenates_S65536x10_S65536x10_S65536x20_d1) : (⟨S65536x10, .f32⟩ : BufTy).Contents (Elt F) → (⟨S65536x10, .f32⟩ : BufTy).Contents (Elt F) → (⟨S65536x20, .f32⟩ : BufTy).Contents (Elt F)),
    StableHlo.unary main_v3 main_v107 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v106 main_v108 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v54 main_v109 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v71 main_v110 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v88 main_v111 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v105 main_v112 (broadcastInDim S65536x1x20 ![0, 2] bcast_S65536x20_S65536x1x20_0_2 : (⟨S65536x20, .f32⟩ : BufTy).Contents (Elt F) → (⟨S65536x1x20, .f32⟩ : BufTy).Contents (Elt F)) ]
/-- Each of them touches tensor references only. -/
theorem opsStack_sub : (opsStack : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub ..⟩
/-- The references they write, in order. -/
abbrev opsStack_W : List (Ref sig .tc) :=
  [main_v106, main_v107, main_v108, main_v109, main_v110, main_v111, main_v112]

/-- The six arrays stacked along the middle axis, the table of their inner products, and the two index columns of the pair gather. -/
abbrev opsGram : List (HloOp τ sig (Elt F)) :=
  [ StableHlo.nary ![main_v107, main_v108, main_v109, main_v110, main_v111, main_v112] main_v113 (fun u => concatenate S65536x6x20 1 [⟨S65536x1x20, u 0⟩, ⟨S65536x1x20, u 1⟩, ⟨S65536x1x20, u 2⟩, ⟨S65536x1x20, u 3⟩, ⟨S65536x1x20, u 4⟩, ⟨S65536x1x20, u 5⟩] concatenates_S65536x1x20_S65536x1x20_S65536x1x20_S65536x1x20_S65536x1x20_S65536x1x20_S65536x6x20_d1),
    StableHlo.binary main_v113 main_v113 main_v114 ((fun l r => Host.dotGeneral dot_S65536x6x20_S65536x6x20_S65536x6x6_2_2_1_1_0_0 none l r) : (⟨S65536x6x20, .f32⟩ : BufTy).Contents (Elt F) → (⟨S65536x6x20, .f32⟩ : BufTy).Contents (Elt F) → (⟨S65536x6x6, .f32⟩ : BufTy).Contents (Elt F)),
    StableHlo.nullary main_c_38 (constantI S_ 32 6#32),
    StableHlo.unary main_c_38 main_v115 (broadcastInDim S15 ![] bcast_S_S15 : (⟨S_, .i32⟩ : BufTy).Contents (Elt F) → (⟨S15, .i32⟩ : BufTy).Contents (Elt F)),
    StableHlo.binary main_c main_v115 main_v116 (addi : (⟨S15, .i32⟩ : BufTy).Contents (Elt F) → (⟨S15, .i32⟩ : BufTy).Contents (Elt F) → (⟨S15, .i32⟩ : BufTy).Contents (Elt F)),
    StableHlo.ternary main_c_0 main_v116 main_c main_v117 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    StableHlo.nullary main_c_39 (constantI S_ 32 6#32),
    StableHlo.unary main_c_39 main_v118 (broadcastInDim S15 ![] bcast_S_S15 : (⟨S_, .i32⟩ : BufTy).Contents (Elt F) → (⟨S15, .i32⟩ : BufTy).Contents (Elt F)),
    StableHlo.binary main_c_1 main_v118 main_v119 (addi : (⟨S15, .i32⟩ : BufTy).Contents (Elt F) → (⟨S15, .i32⟩ : BufTy).Contents (Elt F) → (⟨S15, .i32⟩ : BufTy).Contents (Elt F)),
    StableHlo.ternary main_c_2 main_v119 main_c_1 main_v120 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    StableHlo.unary main_v117 main_v121 (broadcastInDim S15x1 ![0] bcast_S15_S15x1_0 : (⟨S15, .i32⟩ : BufTy).Contents (Elt F) → (⟨S15x1, .i32⟩ : BufTy).Contents (Elt F)),
    StableHlo.unary main_v120 main_v122 (broadcastInDim S15x1 ![0] bcast_S15_S15x1_0 : (⟨S15, .i32⟩ : BufTy).Contents (Elt F) → (⟨S15x1, .i32⟩ : BufTy).Contents (Elt F)) ]
/-- Each of them touches tensor references only. -/
theorem opsGram_sub : (opsGram : List (HloOp τ sig (Elt F))).Forall fun op => op.bufs ⊆ tcRefs τ sig :=
  ⟨nary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub ..⟩
/-- The references they write, in order. -/
abbrev opsGram_W : List (Ref sig .tc) :=
  [main_v113, main_v114, main_c_38, main_v115, main_v116, main_v117, main_c_39, main_v118, main_v119, main_v120, main_v121, main_v122]

/-- The two index columns side by side, and the fifteen inner products they pick. -/
abbrev opsPairs : List (HloOp τ sig (Elt F)) :=
  [ StableHlo.binary main_v121 main_v122 main_v123 ((fun a b => concatenate S15x2 1 [⟨S15x1, a⟩, ⟨S15x1, b⟩] concatenates_S15x1_S15x1_S15x2_d1) : (⟨S15x1, .i32⟩ : BufTy).Contents (Elt F) → (⟨S15x1, .i32⟩ : BufTy).Contents (Elt F) → (⟨S15x2, .i32⟩ : BufTy).Contents (Elt F)),
    StableHlo.binary main_v114 main_v123 main_v124 ((fun x i => Host.gather gather_S65536x6x6_S15x2_S65536x15_0_12_n_n_12_1_6553611 x i) : (⟨S65536x6x6, .f32⟩ : BufTy).Contents (Elt F) → (⟨S15x2, .i32⟩ : BufTy).Contents (Elt F) → (⟨S65536x15, .f32⟩ : BufTy).Contents (Elt F)) ]
/-- Each of them touches tensor references only. -/
theorem opsPairs_sub : (opsPairs : List (HloOp τ sig (Elt F))).Forall fun op => op.bufs ⊆ tcRefs τ sig :=
  ⟨binary_bufs_sub .., binary_bufs_sub ..⟩
/-- The references they write, in order. -/
abbrev opsPairs_W : List (Ref sig .tc) :=
  [main_v123, main_v124]

/-- The 135-wide feature array, the hidden layer with its leaky rectifier, and the output layer's contraction. -/
abbrev opsHidden : List (HloOp τ sig (Elt F)) :=
  [ StableHlo.nary ![main_v3, main_v20, main_v37, main_v54, main_v71, main_v88, main_v105, main_v124] main_v125 (fun u => concatenate S65536x135 1 [⟨S65536x20, u 0⟩, ⟨S65536x10, u 1⟩, ⟨S65536x10, u 2⟩, ⟨S65536x20, u 3⟩, ⟨S65536x20, u 4⟩, ⟨S65536x20, u 5⟩, ⟨S65536x20, u 6⟩, ⟨S65536x15, u 7⟩] concatenates_S65536x20_S65536x10_S65536x10_S65536x20_S65536x20_S65536x20_S65536x20_S65536x15_S65536x135_d1),
    StableHlo.binary main_v125 main_arg15 main_v126 ((fun l r => Host.dotGeneral dot_S65536x135_S135x64_S65536x64_1_0_0_1_n_n none l r) : (⟨S65536x135, .f32⟩ : BufTy).Contents (Elt F) → (⟨S135x64, .f32⟩ : BufTy).Contents (Elt F) → (⟨S65536x64, .f32⟩ : BufTy).Contents (Elt F)),
    StableHlo.unary main_arg16 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S65536x64 ![0, 1] bcast_S1x64_S65536x64_0_1 : (⟨S1x64, .f32⟩ : BufTy).Contents (Elt F) → (⟨S65536x64, .f32⟩ : BufTy).Contents (Elt F)),
    StableHlo.binary main_v126 main_v128 main_v129 (addf : (⟨S65536x64, .f32⟩ : BufTy).Contents (Elt F) → (⟨S65536x64, .f32⟩ : BufTy).Contents (Elt F) → (⟨S65536x64, .f32⟩ : BufTy).Contents (Elt F)),
    StableHlo.nullary main_cst_40 (constant S_ .f32 0x00000000#32),
    StableHlo.unary main_cst_40 main_v130 (broadcastInDim S65536x64 ![] bcast_S_S65536x64 : (⟨S_, .f32⟩ : BufTy).Contents (Elt F) → (⟨S65536x64, .f32⟩ : BufTy).Contents (Elt F)),
    StableHlo.binary main_v129 main_v130 main_v131 (cmpf .ogt : (⟨S65536x64, .f32⟩ : BufTy).Contents (Elt F) → (⟨S65536x64, .f32⟩ : BufTy).Contents (Elt F) → (⟨S65536x64, .i1⟩ : BufTy).Contents (Elt F)),
    StableHlo.nullary main_cst_41 (constant S_ .f32 0x3C23D70A#32),
    StableHlo.unary main_cst_41 main_v132 (broadcastInDim S65536x64 ![] bcast_S_S65536x64 : (⟨S_, .f32⟩ : BufTy).Contents (Elt F) → (⟨S65536x64, .f32⟩ : BufTy).Contents (Elt F)),
    StableHlo.binary main_v132 main_v129 main_v133 (mulf : (⟨S65536x64, .f32⟩ : BufTy).Contents (Elt F) → (⟨S65536x64, .f32⟩ : BufTy).Contents (Elt F) → (⟨S65536x64, .f32⟩ : BufTy).Contents (Elt F)),
    StableHlo.TRef.ternary (.of main_v131 : StableHlo.TRef sig ⟨S65536x64, .i1⟩) (.of main_v129 : StableHlo.TRef sig ⟨S65536x64, .f32⟩) (.of main_v133 : StableHlo.TRef sig ⟨S65536x64, .f32⟩) main_call6.v0 select,
    StableHlo.binary main_v134 main_arg17 main_v135 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)) ]
/-- Each of them touches tensor references only. -/
theorem opsHidden_sub : (opsHidden : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
/-- The references they write, in order. -/
abbrev opsHidden_W : List (Ref sig .tc) :=
  [main_v125, main_v126, main_v127, main_v128, main_v129, main_cst_40, main_v130, main_v131, main_cst_41, main_v132, main_v133, main_v134, main_v135]

/-- The output layer's bias along the rows, added. -/
abbrev opsOut : List (HloOp τ sig (Elt F)) :=
  [ StableHlo.unary main_arg18 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S65536x128 ![0, 1] bcast_S1x128_S65536x128_0_1 : (⟨S1x128, .f32⟩ : BufTy).Contents (Elt F) → (⟨S65536x128, .f32⟩ : BufTy).Contents (Elt F)),
    StableHlo.binary main_v135 main_v137 main_v138 (addf : (⟨S65536x128, .f32⟩ : BufTy).Contents (Elt F) → (⟨S65536x128, .f32⟩ : BufTy).Contents (Elt F) → (⟨S65536x128, .f32⟩ : BufTy).Contents (Elt F)) ]
/-- Each of them touches tensor references only. -/
theorem opsOut_sub : (opsOut : List (HloOp τ sig (Elt F))).Forall fun op => op.bufs ⊆ tcRefs τ sig :=
  ⟨unary_bufs_sub .., unary_bufs_sub .., binary_bufs_sub ..⟩
/-- The references they write, in order. -/
abbrev opsOut_W : List (Ref sig .tc) :=
  [main_v136, main_v137, main_v138]

end Cert.ReferenceIdeal.RefRun

end
-- ==== Proof.LibAfterFrame.lean ====
/-
  What a line of single-result operations leaves alone, and two lines run in a row.

  `after ops V` folds the operations' results over a valuation of the buffers: each step rewrites the buffers its
  operation writes and leaves the rest. Two general facts about the fold. Over two lists laid end to end it is the fold
  over the second list started from the fold over the first. And when each operation of a list writes exactly one
  reference, the references named in order by a second list, every reference outside that second list holds after the
  fold what it held before; the same bookkeeping shows every operation of the list determines what it writes.
-/
import Idealize.ShloMosaic.Lib.StableHlo.Run

namespace Idealize.ShloMosaic.StableHlo

variable {nD : Nat} {τ : Topo} {sig : RefSig} {Val : EltTy → Type}

/-- The fold over two lists laid end to end is the fold over the second, started from the fold over the first. -/
theorem after_concat : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- The operations `ops` write, one each and in order, the references `Ws`, and each determines what it writes. -/
abbrev WritesInOrder (ops : List (HloOp τ sig Val)) (Ws : List (Ref sig .tc)) : Prop :=
  List.Forall₂ (fun op y => op.writes = {Proc.devRef (τ := τ) .tc y} ∧ op.fresh = ∅) ops Ws

/-- Two such lists laid end to end write the two reference lists laid end to end. -/
theorem WritesInOrder.append {l₁ l₂ : List (HloOp τ sig Val)} {W₁ W₂ : List (Ref sig .tc)}
    (h₁ : WritesInOrder l₁ W₁) (h₂ : WritesInOrder l₂ W₂) : WritesInOrder (l₁ ++ l₂) (W₁ ++ W₂) :=
  List.rel_append h₁ h₂

/-- Every operation of such a list determines what it writes. -/
theorem WritesInOrder.fresh {ops : List (HloOp τ sig Val)} {Ws : List (Ref sig .tc)} (h : WritesInOrder ops Ws) :
    ∀ op ∈ ops, op.fresh = ∅ := by
  induction h with
  | nil => intro _ hm; exact nomatch hm
  | cons hw _ ih =>
    intro op hm
    rcases List.mem_cons.mp hm with rfl | hm
    · exact hw.2
    · exact ih op hm

/-- A reference that is none of those a list of single-result operations writes holds after the fold what it held
    before: each step leaves every buffer but its own result's alone. -/
theorem WritesInOrder.after_eq {ops : List (HloOp τ sig Val)} {Ws : List (Ref sig .tc)} (h : WritesInOrder ops Ws)
    (V : Valuation τ sig Val) {r : Ref sig .tc} (hr : r ∉ Ws) :
    after ops V (Proc.devRef .tc r) = V (Proc.devRef .tc r) := by
  induction h generalizing V with
  | nil => rfl
  | cons hw _ ih =>
    rw [after_cons, ih _ (fun hm => hr (List.mem_cons_of_mem _ hm))]
    exact HloOp.result_of_not_mem _ _ (by
      rw [hw.1, Finset.mem_singleton]
      exact devRef_ne_of_ne (fun e => hr (e ▸ List.mem_cons_self)))

end Idealize.ShloMosaic.StableHlo
-- ==== Proof.RRun.lean ====
/-
  The reference's run: every weakly fair execution ends with the result buffer at the reference's term of the argument
  arrays, and the argument arrays as launched.

  The program is a straight line of single-result operations, so its run is the fold of their results over the launch
  contents. The line is read stretch by stretch: the dense projection, the six embedding bags, then the head in the
  pieces its layouts cut it into. Within a stretch a result is the composition of the stretch's operations over the
  contents the stretch starts from; between stretches a result is carried unchanged, since a stretch rewrites only the
  references it writes. Composed, the result buffer holds the reference's term, and no operation writes an argument.
-/
import proofs.«401512_j75213467287608_3_alg».proof.Proof.Gen.ReferenceIdeal
import proofs.«401512_j75213467287608_3_alg».proof.Proof.RefTerm
import proofs.«401512_j75213467287608_3_alg».proof.Proof.RRunOps
import proofs.«401512_j75213467287608_3_alg».proof.Proof.LibAfterFrame
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.RefTerm Cert.ReferenceIdeal.Pool

variable {F : FTy → Type} [FloatOps F]

/-! ## The program is its stretches, in order -/

/-- The first window is the projection, the first two bags and the third bag's opening. -/
theorem main_part0_eq (c : Dev nD) : main_part0 (F := F) c = seq (opsProj ++ (opsBag1 ++ (opsBag2 ++ opsBag3a))) := rfl
/-- The second window is the rest of the third bag, the fourth, and the fifth up to its scale. -/
theorem main_part1_eq (c : Dev nD) : main_part1 (F := F) c = seq (opsBag3b ++ (opsBag4 ++ opsBag5a)) := rfl
/-- The third window is the rest of the fifth bag, the sixth, and the head up to the output layer's contraction. -/
theorem main_part2_eq (c : Dev nD) :
    main_part2 (F := F) c = seq (opsBag5b ++ (opsBag6 ++ (opsStack ++ (opsGram ++ (opsPairs ++ opsHidden))))) := rfl
/-- The last window is the output layer's bias. -/
theorem main_part3_eq (c : Dev nD) : main_part3 (F := F) c = seq opsOut := rfl

/-- The program's operations, in order. -/
abbrev ops : List (HloOp τ sig (Elt F)) :=
  opsProj ++ (opsBag1 ++ (opsBag2 ++ (opsBag3a ++ (opsBag3b ++ (opsBag4 ++ (opsBag5a ++ (opsBag5b ++ (opsBag6 ++ (opsStack ++ (opsGram ++ (opsPairs ++ (opsHidden ++ (opsOut)))))))))))))

/-- The references they write, in order. -/
abbrev ops_W : List (Ref sig .tc) :=
  opsProj_W ++ (opsBag1_W ++ (opsBag2_W ++ (opsBag3a_W ++ (opsBag3b_W ++ (opsBag4_W ++ (opsBag5a_W ++ (opsBag5b_W ++ (opsBag6_W ++ (opsStack_W ++ (opsGram_W ++ (opsPairs_W ++ (opsHidden_W ++ (opsOut_W)))))))))))))

/-- The program runs its four windows in order, and a line run after a line is the two laid end to end. -/
theorem main_eq (c : Dev nD) : main (F := F) c = seq ops := by
  show (main_part0 (F := F) c >>= fun _ => main_part1 (F := F) c >>= fun _ => main_part2 (F := F) c >>= fun _ =>
    main_part3 (F := F) c) = _
  rw [main_part0_eq, main_part1_eq, main_part2_eq, main_part3_eq, ← seq_append, ← seq_append, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

/-- Every operation touches tensor references only. -/
theorem ops_sub : (ops : List (HloOp τ sig (Elt F))).Forall fun op => op.bufs ⊆ tcRefs τ sig :=
  List.forall_append.mpr ⟨opsProj_sub, List.forall_append.mpr ⟨opsBag1_sub, List.forall_append.mpr ⟨opsBag2_sub, List.forall_append.mpr ⟨opsBag3a_sub, List.forall_append.mpr ⟨opsBag3b_sub, List.forall_append.mpr ⟨opsBag4_sub, List.forall_append.mpr ⟨opsBag5a_sub, List.forall_append.mpr ⟨opsBag5b_sub, List.forall_append.mpr ⟨opsBag6_sub, List.forall_append.mpr ⟨opsStack_sub, List.forall_append.mpr ⟨opsGram_sub, List.forall_append.mpr ⟨opsPairs_sub, List.forall_append.mpr ⟨opsHidden_sub, opsOut_sub⟩⟩⟩⟩⟩⟩⟩⟩⟩⟩⟩⟩⟩

/-! ## What each stretch writes, and what it therefore leaves alone -/

theorem opsProj_writes : WritesInOrder (opsProj : List (HloOp τ sig (Elt F))) opsProj_W := by repeat' constructor
theorem opsBag1_writes : WritesInOrder (opsBag1 : List (HloOp τ sig (Elt F))) opsBag1_W := by repeat' constructor
theorem opsBag2_writes : WritesInOrder (opsBag2 : List (HloOp τ sig (Elt F))) opsBag2_W := by repeat' constructor
theorem opsBag3a_writes : WritesInOrder (opsBag3a : List (HloOp τ sig (Elt F))) opsBag3a_W := by repeat' constructor
theorem opsBag3b_writes : WritesInOrder (opsBag3b : List (HloOp τ sig (Elt F))) opsBag3b_W := by repeat' constructor
theorem opsBag4_writes : WritesInOrder (opsBag4 : List (HloOp τ sig (Elt F))) opsBag4_W := by repeat' constructor
theorem opsBag5a_writes : WritesInOrder (opsBag5a : List (HloOp τ sig (Elt F))) opsBag5a_W := by repeat' constructor
theorem opsBag5b_writes : WritesInOrder (opsBag5b : List (HloOp τ sig (Elt F))) opsBag5b_W := by repeat' constructor
theorem opsBag6_writes : WritesInOrder (opsBag6 : List (HloOp τ sig (Elt F))) opsBag6_W := by repeat' constructor
theorem opsStack_writes : WritesInOrder (opsStack : List (HloOp τ sig (Elt F))) opsStack_W := by repeat' constructor
theorem opsGram_writes : WritesInOrder (opsGram : List (HloOp τ sig (Elt F))) opsGram_W := by repeat' constructor
theorem opsPairs_writes : WritesInOrder (opsPairs : List (HloOp τ sig (Elt F))) opsPairs_W := by repeat' constructor
theorem opsHidden_writes : WritesInOrder (opsHidden : List (HloOp τ sig (Elt F))) opsHidden_W := by repeat' constructor
theorem opsOut_writes : WritesInOrder (opsOut : List (HloOp τ sig (Elt F))) opsOut_W := by repeat' constructor

/-- The whole line writes the stretches' references, in order. -/
theorem ops_writes : WritesInOrder (ops : List (HloOp τ sig (Elt F))) ops_W :=
  opsProj_writes.append (opsBag1_writes.append (opsBag2_writes.append (opsBag3a_writes.append (opsBag3b_writes.append (opsBag4_writes.append (opsBag5a_writes.append (opsBag5b_writes.append (opsBag6_writes.append (opsStack_writes.append (opsGram_writes.append (opsPairs_writes.append (opsHidden_writes.append (opsOut_writes)))))))))))))

/-- A reference `opsProj` does not write holds after it what it held before. -/
theorem opsProj_frame (W : Valuation τ sig (Elt F)) {r : Ref sig .tc} (h : r ∉ opsProj_W) :
    after opsProj W (no_index (Proc.devRef .tc r)) = W (Proc.devRef .tc r) := opsProj_writes.after_eq W h
/-- A reference `opsBag1` does not write holds after it what it held before. -/
theorem opsBag1_frame (W : Valuation τ sig (Elt F)) {r : Ref sig .tc} (h : r ∉ opsBag1_W) :
    after opsBag1 W (no_index (Proc.devRef .tc r)) = W (Proc.devRef .tc r) := opsBag1_writes.after_eq W h
/-- A reference `opsBag2` does not write holds after it what it held before. -/
theorem opsBag2_frame (W : Valuation τ sig (Elt F)) {r : Ref sig .tc} (h : r ∉ opsBag2_W) :
    after opsBag2 W (no_index (Proc.devRef .tc r)) = W (Proc.devRef .tc r) := opsBag2_writes.after_eq W h
/-- A reference `opsBag3a` does not write holds after it what it held before. -/
theorem opsBag3a_frame (W : Valuation τ sig (Elt F)) {r : Ref sig .tc} (h : r ∉ opsBag3a_W) :
    after opsBag3a W (no_index (Proc.devRef .tc r)) = W (Proc.devRef .tc r) := opsBag3a_writes.after_eq W h
/-- A reference `opsBag3b` does not write holds after it what it held before. -/
theorem opsBag3b_frame (W : Valuation τ sig (Elt F)) {r : Ref sig .tc} (h : r ∉ opsBag3b_W) :
    after opsBag3b W (no_index (Proc.devRef .tc r)) = W (Proc.devRef .tc r) := opsBag3b_writes.after_eq W h
/-- A reference `opsBag4` does not write holds after it what it held before. -/
theorem opsBag4_frame (W : Valuation τ sig (Elt F)) {r : Ref sig .tc} (h : r ∉ opsBag4_W) :
    after opsBag4 W (no_index (Proc.devRef .tc r)) = W (Proc.devRef .tc r) := opsBag4_writes.after_eq W h
/-- A reference `opsBag5a` does not write holds after it what it held before. -/
theorem opsBag5a_frame (W : Valuation τ sig (Elt F)) {r : Ref sig .tc} (h : r ∉ opsBag5a_W) :
    after opsBag5a W (no_index (Proc.devRef .tc r)) = W (Proc.devRef .tc r) := opsBag5a_writes.after_eq W h
/-- A reference `opsBag5b` does not write holds after it what it held before. -/
theorem opsBag5b_frame (W : Valuation τ sig (Elt F)) {r : Ref sig .tc} (h : r ∉ opsBag5b_W) :
    after opsBag5b W (no_index (Proc.devRef .tc r)) = W (Proc.devRef .tc r) := opsBag5b_writes.after_eq W h
/-- A reference `opsBag6` does not write holds after it what it held before. -/
theorem opsBag6_frame (W : Valuation τ sig (Elt F)) {r : Ref sig .tc} (h : r ∉ opsBag6_W) :
    after opsBag6 W (no_index (Proc.devRef .tc r)) = W (Proc.devRef .tc r) := opsBag6_writes.after_eq W h
/-- A reference `opsStack` does not write holds after it what it held before. -/
theorem opsStack_frame (W : Valuation τ sig (Elt F)) {r : Ref sig .tc} (h : r ∉ opsStack_W) :
    after opsStack W (no_index (Proc.devRef .tc r)) = W (Proc.devRef .tc r) := opsStack_writes.after_eq W h
/-- A reference `opsGram` does not write holds after it what it held before. -/
theorem opsGram_frame (W : Valuation τ sig (Elt F)) {r : Ref sig .tc} (h : r ∉ opsGram_W) :
    after opsGram W (no_index (Proc.devRef .tc r)) = W (Proc.devRef .tc r) := opsGram_writes.after_eq W h
/-- A reference `opsPairs` does not write holds after it what it held before. -/
theorem opsPairs_frame (W : Valuation τ sig (Elt F)) {r : Ref sig .tc} (h : r ∉ opsPairs_W) :
    after opsPairs W (no_index (Proc.devRef .tc r)) = W (Proc.devRef .tc r) := opsPairs_writes.after_eq W h
/-- A reference `opsHidden` does not write holds after it what it held before. -/
theorem opsHidden_frame (W : Valuation τ sig (Elt F)) {r : Ref sig .tc} (h : r ∉ opsHidden_W) :
    after opsHidden W (no_index (Proc.devRef .tc r)) = W (Proc.devRef .tc r) := opsHidden_writes.after_eq W h
/-- A reference `opsOut` does not write holds after it what it held before. -/
theorem opsOut_frame (W : Valuation τ sig (Elt F)) {r : Ref sig .tc} (h : r ∉ opsOut_W) :
    after opsOut W (no_index (Proc.devRef .tc r)) = W (Proc.devRef .tc r) := opsOut_writes.after_eq W h

/-! ## The head's layouts, as functions of their parts -/

/-- Two 10-wide arrays laid end to end. -/
def cat2 (e1 e2 : FVec F S65536x10 .f32) : FVec F S65536x20 .f32 :=
  concatenate S65536x20 1 [⟨S65536x10, e1⟩, ⟨S65536x10, e2⟩] concatenates_S65536x10_S65536x10_S65536x20_d1

/-- Six arrays with a middle axis of length one, stacked along it. -/
def stack6 (x0 x1 x2 x3 x4 x5 : FVec F S65536x1x20 .f32) : FVec F S65536x6x20 .f32 :=
  concatenate S65536x6x20 1
    [⟨S65536x1x20, x0⟩, ⟨S65536x1x20, x1⟩, ⟨S65536x1x20, x2⟩, ⟨S65536x1x20, x3⟩, ⟨S65536x1x20, x4⟩, ⟨S65536x1x20, x5⟩]
    concatenates_S65536x1x20_S65536x1x20_S65536x1x20_S65536x1x20_S65536x1x20_S65536x1x20_S65536x6x20_d1

/-- Two index columns side by side. -/
def cols2 (c0 c1 : IVec S15x1 32) : IVec S15x2 32 :=
  concatenate S15x2 1 [⟨S15x1, c0⟩, ⟨S15x1, c1⟩] concatenates_S15x1_S15x1_S15x2_d1

/-- The 135-wide feature array: the dense projection, the six pooled embeddings and the fifteen inner products, end to end. -/
def feat8 (de : FVec F S65536x20 .f32) (e1 e2 : FVec F S65536x10 .f32) (e3 e4 e5 e6 : FVec F S65536x20 .f32)
    (dots : FVec F S65536x15 .f32) : FVec F S65536x135 .f32 :=
  concatenate S65536x135 1
    [⟨S65536x20, de⟩, ⟨S65536x10, e1⟩, ⟨S65536x10, e2⟩, ⟨S65536x20, e3⟩, ⟨S65536x20, e4⟩, ⟨S65536x20, e5⟩, ⟨S65536x20, e6⟩, ⟨S65536x15, dots⟩]
    concatenates_S65536x20_S65536x10_S65536x10_S65536x20_S65536x20_S65536x20_S65536x20_S65536x15_S65536x135_d1

/-! ## What each stretch computes

Each result read below is the composition of the stretch's operations over the contents the stretch starts from: the
fold's value at an operation's own result is the operation's function of its operands' contents, and at any other
reference what was there. -/

/-- The table of first members. -/
theorem tab0_read (W : Valuation τ sig (Elt F)) :
    after opsProj W (no_index (main_c : DevRef τ sig))
 = fun i => lit0 (S15.rowMajor i) := by
  after_results_simp
  rfl
/-- Its all-false mask. -/
theorem mask0_read (W : Valuation τ sig (Elt F)) :
    after opsProj W (no_index (main_c_0 : DevRef τ sig))
 = constantI S15 1 0#1 := by
  after_results_simp
/-- The table of second members. -/
theorem tab1_read (W : Valuation τ sig (Elt F)) :
    after opsProj W (no_index (main_c_1 : DevRef τ sig))
 = fun i => lit1 (S15.rowMajor i) := by
  after_results_simp
  rfl
/-- Its all-false mask. -/
theorem mask1_read (W : Valuation τ sig (Elt F)) :
    after opsProj W (no_index (main_c_2 : DevRef τ sig))
 = constantI S15 1 0#1 := by
  after_results_simp
/-- The dense projection. -/
theorem proj_read (W : Valuation τ sig (Elt F)) :
    after opsProj W (no_index (main_v3 : DevRef τ sig))
      = denseProj (W (main_arg0 : DevRef τ sig)) (W (main_arg7 : DevRef τ sig)) (W (main_arg8 : DevRef τ sig)) := by
  after_results_simp
  rfl

/-- The first bag is the pooling of table 9 by the ids of argument 1. -/
theorem bag1_read (W : Valuation τ sig (Elt F)) :
    after opsBag1 W (no_index (main_v20 : DevRef τ sig))
 = pool1x10 (W (main_arg9 : DevRef τ sig)) (W (main_arg1 : DevRef τ sig)) := by
  after_results_simp
  rfl
/-- The second bag is the pooling of table 10 by the ids of argument 2. -/
theorem bag2_read (W : Valuation τ sig (Elt F)) :
    after opsBag2 W (no_index (main_v37 : DevRef τ sig))
 = pool2x10 (W (main_arg10 : DevRef τ sig)) (W (main_arg2 : DevRef τ sig)) := by
  after_results_simp
  rfl
/-- The third bag is the pooling of table 11 by the ids of argument 3. -/
theorem bag3_read (W : Valuation τ sig (Elt F)) :
    after opsBag3b (after opsBag3a W) (no_index (main_v54 : DevRef τ sig))
 = pool3x20 (W (main_arg11 : DevRef τ sig)) (W (main_arg3 : DevRef τ sig)) := by
  after_results_simp
  rfl
/-- The fourth bag is the pooling of table 12 by the ids of argument 4. -/
theorem bag4_read (W : Valuation τ sig (Elt F)) :
    after opsBag4 W (no_index (main_v71 : DevRef τ sig))
 = pool3x20 (W (main_arg12 : DevRef τ sig)) (W (main_arg4 : DevRef τ sig)) := by
  after_results_simp
  rfl
/-- The fifth bag is the pooling of table 13 by the ids of argument 5. -/
theorem bag5_read (W : Valuation τ sig (Elt F)) :
    after opsBag5b (after opsBag5a W) (no_index (main_v88 : DevRef τ sig))
 = pool5x20 (W (main_arg13 : DevRef τ sig)) (W (main_arg5 : DevRef τ sig)) := by
  after_results_simp
  rfl
/-- The sixth bag is the pooling of table 14 by the ids of argument 6. -/
theorem bag6_read (W : Valuation τ sig (Elt F)) :
    after opsBag6 W (no_index (main_v105 : DevRef τ sig))
 = pool10x20 (W (main_arg14 : DevRef τ sig)) (W (main_arg6 : DevRef τ sig)) := by
  after_results_simp
  rfl

/-- The dense projection with a middle axis of length one. -/
theorem stack_read0 (W : Valuation τ sig (Elt F)) :
    after opsStack W (no_index (main_v107 : DevRef τ sig))
 = broadcastInDim S65536x1x20 ![0, 2] bcast_S65536x20_S65536x1x20_0_2 (W (main_v3 : DevRef τ sig)) := by
  after_results_simp
/-- The two short embeddings laid end to end, with a middle axis of length one. -/
theorem stack_read1 (W : Valuation τ sig (Elt F)) :
    after opsStack W (no_index (main_v108 : DevRef τ sig))
      = broadcastInDim S65536x1x20 ![0, 2] bcast_S65536x20_S65536x1x20_0_2 (cat2 (W (main_v20 : DevRef τ sig)) (W (main_v37 : DevRef τ sig))) := by
  after_results_simp
  rfl
/-- The third embedding with a middle axis of length one. -/
theorem stack_read2 (W : Valuation τ sig (Elt F)) :
    after opsStack W (no_index (main_v109 : DevRef τ sig))
 = broadcastInDim S65536x1x20 ![0, 2] bcast_S65536x20_S65536x1x20_0_2 (W (main_v54 : DevRef τ sig)) := by
  after_results_simp
/-- The fourth embedding with a middle axis of length one. -/
theorem stack_read3 (W : Valuation τ sig (Elt F)) :
    after opsStack W (no_index (main_v110 : DevRef τ sig))
 = broadcastInDim S65536x1x20 ![0, 2] bcast_S65536x20_S65536x1x20_0_2 (W (main_v71 : DevRef τ sig)) := by
  after_results_simp
/-- The fifth embedding with a middle axis of length one. -/
theorem stack_read4 (W : Valuation τ sig (Elt F)) :
    after opsStack W (no_index (main_v111 : DevRef τ sig))
 = broadcastInDim S65536x1x20 ![0, 2] bcast_S65536x20_S65536x1x20_0_2 (W (main_v88 : DevRef τ sig)) := by
  after_results_simp
/-- The sixth embedding with a middle axis of length one. -/
theorem stack_read5 (W : Valuation τ sig (Elt F)) :
    after opsStack W (no_index (main_v112 : DevRef τ sig))
 = broadcastInDim S65536x1x20 ![0, 2] bcast_S65536x20_S65536x1x20_0_2 (W (main_v105 : DevRef τ sig)) := by
  after_results_simp

/-- The table of inner products of the six stacked arrays with themselves. -/
theorem gram_read (W : Valuation τ sig (Elt F)) :
    after opsGram W (no_index (main_v114 : DevRef τ sig))
      = Host.dotGeneral dot_S65536x6x20_S65536x6x20_S65536x6x6_2_2_1_1_0_0 none
          (stack6 (W (main_v107 : DevRef τ sig)) (W (main_v108 : DevRef τ sig)) (W (main_v109 : DevRef τ sig)) (W (main_v110 : DevRef τ sig)) (W (main_v111 : DevRef τ sig)) (W (main_v112 : DevRef τ sig)))
          (stack6 (W (main_v107 : DevRef τ sig)) (W (main_v108 : DevRef τ sig)) (W (main_v109 : DevRef τ sig)) (W (main_v110 : DevRef τ sig)) (W (main_v111 : DevRef τ sig)) (W (main_v112 : DevRef τ sig))) := by
  after_results_simp
  rfl
/-- The first index column: the first members, moved up by 6 where the mask says so. -/
theorem col0_read (W : Valuation τ sig (Elt F)) :
    after opsGram W (no_index (main_v121 : DevRef τ sig))
      = broadcastInDim S15x1 ![0] bcast_S15_S15x1_0
          (select (W (main_c_0 : DevRef τ sig)) (addi (W (main_c : DevRef τ sig)) (broadcastInDim S15 ![] bcast_S_S15 (constantI S_ 32 6#32))) (W (main_c : DevRef τ sig))) := by
  after_results_simp
/-- The second index column: the second members, moved up by 6 where the mask says so. -/
theorem col1_read (W : Valuation τ sig (Elt F)) :
    after opsGram W (no_index (main_v122 : DevRef τ sig))
      = broadcastInDim S15x1 ![0] bcast_S15_S15x1_0
          (select (W (main_c_2 : DevRef τ sig)) (addi (W (main_c_1 : DevRef τ sig)) (broadcastInDim S15 ![] bcast_S_S15 (constantI S_ 32 6#32))) (W (main_c_1 : DevRef τ sig))) := by
  after_results_simp

/-- The fifteen inner products at the pairs the two columns name. -/
theorem pairs_read (W : Valuation τ sig (Elt F)) :
    after opsPairs W (no_index (main_v124 : DevRef τ sig))
      = Host.gather gather_S65536x6x6_S15x2_S65536x15_0_12_n_n_12_1_6553611 (W (main_v114 : DevRef τ sig))
          (cols2 (W (main_v121 : DevRef τ sig)) (W (main_v122 : DevRef τ sig))) := by
  after_results_simp
  rfl

/-- The output layer's contraction of the rectified hidden layer over the 135-wide feature array. -/
theorem hidden_read (W : Valuation τ sig (Elt F)) :
    after opsHidden W (no_index (main_v135 : DevRef τ sig))
      = Host.dotGeneral dot_S65536x64_S64x128_S65536x128_1_0_0_1_n_n none
          (select (cmpf .ogt (addf (Host.dotGeneral dot_S65536x135_S135x64_S65536x64_1_0_0_1_n_n none (feat8 (W (main_v3 : DevRef τ sig)) (W (main_v20 : DevRef τ sig)) (W (main_v37 : DevRef τ sig)) (W (main_v54 : DevRef τ sig)) (W (main_v71 : DevRef τ sig)) (W (main_v88 : DevRef τ sig)) (W (main_v105 : DevRef τ sig)) (W (main_v124 : DevRef τ sig))) (W (main_arg15 : DevRef τ sig))) (broadcastInDim S65536x64 ![0, 1] bcast_S1x64_S65536x64_0_1 (broadcastInDim S1x64 ![1] bcast_S64_S1x64_1 (W (main_arg16 : DevRef τ sig))))) (broadcastInDim S65536x64 ![] bcast_S_S65536x64 (constant S_ .f32 0x00000000#32)))
            (addf (Host.dotGeneral dot_S65536x135_S135x64_S65536x64_1_0_0_1_n_n none (feat8 (W (main_v3 : DevRef τ sig)) (W (main_v20 : DevRef τ sig)) (W (main_v37 : DevRef τ sig)) (W (main_v54 : DevRef τ sig)) (W (main_v71 : DevRef τ sig)) (W (main_v88 : DevRef τ sig)) (W (main_v105 : DevRef τ sig)) (W (main_v124 : DevRef τ sig))) (W (main_arg15 : DevRef τ sig))) (broadcastInDim S65536x64 ![0, 1] bcast_S1x64_S65536x64_0_1 (broadcastInDim S1x64 ![1] bcast_S64_S1x64_1 (W (main_arg16 : DevRef τ sig)))))
            (mulf (broadcastInDim S65536x64 ![] bcast_S_S65536x64 (constant S_ .f32 0x3C23D70A#32)) (addf (Host.dotGeneral dot_S65536x135_S135x64_S65536x64_1_0_0_1_n_n none (feat8 (W (main_v3 : DevRef τ sig)) (W (main_v20 : DevRef τ sig)) (W (main_v37 : DevRef τ sig)) (W (main_v54 : DevRef τ sig)) (W (main_v71 : DevRef τ sig)) (W (main_v88 : DevRef τ sig)) (W (main_v105 : DevRef τ sig)) (W (main_v124 : DevRef τ sig))) (W (main_arg15 : DevRef τ sig))) (broadcastInDim S65536x64 ![0, 1] bcast_S1x64_S65536x64_0_1 (broadcastInDim S1x64 ![1] bcast_S64_S1x64_1 (W (main_arg16 : DevRef τ sig)))))))
          (W (main_arg17 : DevRef τ sig)) := by
  after_results_simp
  rfl

/-- The result: the contraction plus the bias along the rows. -/
theorem out_read (W : Valuation τ sig (Elt F)) :
    after opsOut W (no_index (main_v138 : DevRef τ sig))
      = addf (W (main_v135 : DevRef τ sig))
          (broadcastInDim S65536x128 ![0, 1] bcast_S1x128_S65536x128_0_1 (broadcastInDim S1x128 ![1] bcast_S128_S1x128_1 (W (main_arg18 : DevRef τ sig)))) := by
  after_results_simp

/-! ## The whole line -/

/-- The result buffer after the whole line is the reference's term of the argument arrays: stretch by stretch, each
    result read where it is computed and carried unchanged through the stretches that do not write it. -/
theorem out_eq (V : Valuation τ sig (Elt F)) :
    after ops V (main_v138 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  simp (disch := decide) only [ops, after_concat, out_read, hidden_read, pairs_read, gram_read, col0_read, col1_read,
    stack_read0, stack_read1, stack_read2, stack_read3, stack_read4, stack_read5,
    bag6_read, bag5_read, bag4_read, bag3_read, bag2_read, bag1_read, proj_read, tab0_read, mask0_read, tab1_read, mask1_read,
    opsProj_frame, opsBag1_frame, opsBag2_frame, opsBag3a_frame, opsBag3b_frame, opsBag4_frame, opsBag5a_frame, opsBag5b_frame, opsBag6_frame, opsStack_frame, opsGram_frame, opsPairs_frame, opsHidden_frame, opsOut_frame]
  rfl

/-- No operation writes an argument. -/
theorem arg_eq (V : Valuation τ sig (Elt F)) {r : Ref sig .tc} (h : r ∉ ops_W) :
    after ops V (Proc.devRef .tc r) = V (Proc.devRef .tc r) := ops_writes.after_eq V h

/-- On every device, for any float values, from any memory with zero counters: the run ends with the result buffer at
    the reference's term of the launched argument arrays, and every argument array as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v138).trans (out_eq _),
      (h c main_arg0).trans (arg_eq _ (by decide)),
      (h c main_arg1).trans (arg_eq _ (by decide)),
      (h c main_arg2).trans (arg_eq _ (by decide)),
      (h c main_arg3).trans (arg_eq _ (by decide)),
      (h c main_arg4).trans (arg_eq _ (by decide)),
      (h c main_arg5).trans (arg_eq _ (by decide)),
      (h c main_arg6).trans (arg_eq _ (by decide)),
      (h c main_arg7).trans (arg_eq _ (by decide)),
      (h c main_arg8).trans (arg_eq _ (by decide)),
      (h c main_arg9).trans (arg_eq _ (by decide)),
      (h c main_arg10).trans (arg_eq _ (by decide)),
      (h c main_arg11).trans (arg_eq _ (by decide)),
      (h c main_arg12).trans (arg_eq _ (by decide)),
      (h c main_arg13).trans (arg_eq _ (by decide)),
      (h c main_arg14).trans (arg_eq _ (by decide)),
      (h c main_arg15).trans (arg_eq _ (by decide)),
      (h c main_arg16).trans (arg_eq _ (by decide)),
      (h c main_arg17).trans (arg_eq _ (by decide)),
      (h c main_arg18).trans (arg_eq _ (by decide))⟩)
    (run_seq scopedRefs_eq scopedSems_eq defs main (fun _ => ops) main_eq (fun _ => ops_sub) m ρ (fun _ => ops_writes.fresh))

end Cert.ReferenceIdeal.RefRun

end
-- ==== Proof.LibHostContract.lean ====
/-
  A host contraction, and two broadcasts, read at one entry over the extended reals.

  For `A : [M, K]` and `B : [K, N]` under the dimension numbers "contract the left operand's axis 1 with the right
  operand's axis 0, no batch axis", the host's product is, at entry `(i, l)`, the sum over the contracted coordinate `k`
  of `A (i, k) * B (k, l)`. For two stacks `A, B : [G, m, K]` under "batch axis 0 of both, contract the last axis of
  both", member `g` of the product is the table of inner products of the rows of the two members `g`: entry `(g, i, l)`
  is the sum over `d` of `A (g, i, d) * B (g, l, d)`. In both, the contraction index has one axis of extent `K`, so the
  sum over it is re-indexed by its one coordinate. The dimension numbers are taken with their conditions as a
  hypothesis, so the lemmas apply to a record whatever proof of its conditions it carries. Nothing is assumed of the
  entries (they may be infinite).

  A vector of `K` entries laid as one row and copied down `M` rows reads its entry `k` at `(b, k)`; a `G × n` array given
  a middle axis of extent one reads its entry `(g, d)` at `(g, 0, d)`. Both for any element type.
-/
import Idealize.ShloMosaic.PureOps.Ideal.Laws
import Idealize.ShloMosaic.Lib.ValueIdx
import Idealize.ShloMosaic.Lib.Pipeline.Value

noncomputable section

namespace Idealize.ShloMosaic.HostContract

open Idealize.ShloMosaic Idealize.ShloMosaic.ValueIdx

/-! ## A contraction of two matrices, and of two stacks of matrices row against row, read at one entry -/

section Contractions
variable {M K N : Nat}

/-- The dimension numbers "contract the left operand's axis 1 with the right operand's axis 0, no batch axis" for an
    `M × K` by `K × N` product, under conditions `w` stated elsewhere. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

variable (w : DotDims.WF ⟨2, ![M, K]⟩ ⟨2, ![K, N]⟩ ⟨2, ![M, N]⟩ [1] [0] [0] [1] [] [])

/-- The left operand is read on the row of the output entry, -/
theorem plain_lhs_row (j : (⟨2, ![M, N]⟩ : Shape).Idx) (q : (plainDims w).contr.Idx) :
    ((plainDims w).lhsIdx j q 0).val = (j 0).val := rfl
/-- at the contracted coordinate; -/
theorem plain_lhs_col (j : (⟨2, ![M, N]⟩ : Shape).Idx) (q : (plainDims w).contr.Idx) :
    ((plainDims w).lhsIdx j q 1).val = (q ⟨0, Nat.one_pos⟩).val :=
  (plainDims w).lhsIdx_val_of_single rfl j q
/-- the right operand at the contracted coordinate, -/
theorem plain_rhs_row (j : (⟨2, ![M, N]⟩ : Shape).Idx) (q : (plainDims w).contr.Idx) :
    ((plainDims w).rhsIdx j q 0).val = (q ⟨0, Nat.one_pos⟩).val :=
  (plainDims w).rhsIdx_val_of_single rfl j q
/-- on the column of the output entry. -/
theorem plain_rhs_col (j : (⟨2, ![M, N]⟩ : Shape).Idx) (q : (plainDims w).contr.Idx) :
    ((plainDims w).rhsIdx j q 1).val = (j 1).val := rfl

/-- The product at an entry: `(A · B) (i, l) = ∑ k, A (i, k) * B (k, l)`. -/
theorem plain_dot_apply {φ₁ φ₂ : FTy} (prec : Option ContractPrecision)
    (A : FVec Ideal ⟨2, ![M, K]⟩ φ₁) (B : FVec Ideal ⟨2, ![K, N]⟩ φ₂) (i : Fin M) (l : Fin N) :
    Host.dotGeneral (plainDims w) prec A B (ix2 i l) = ∑ k : Fin K, A (ix2 i k) * B (ix2 k l) := by
  show FloatOps.dotGeneral _ prec _ A B (ix2 i l) = _
  rw [Ideal.dotGeneral_apply, ← Equiv.sum_comp (contrEquiv1 (plainDims w) K rfl rfl).symm]
  refine Finset.sum_congr rfl fun k _ => ?_
  have hk := contrEquiv1_symm_val (plainDims w) K rfl rfl k
  have el : (plainDims w).lhsIdx (ix2 i l) ((contrEquiv1 (plainDims w) K rfl rfl).symm k) = ix2 i k :=
    funext fun c => Fin.ext (by
      match c with
      | ⟨0, _⟩ => exact plain_lhs_row w _ _
      | ⟨1, _⟩ => exact (plain_lhs_col w _ _).trans hk)
  have er : (plainDims w).rhsIdx (ix2 i l) ((contrEquiv1 (plainDims w) K rfl rfl).symm k) = ix2 k l :=
    funext fun c => Fin.ext (by
      match c with
      | ⟨0, _⟩ => exact (plain_rhs_row w _ _).trans hk
      | ⟨1, _⟩ => exact plain_rhs_col w _ _)
  rw [el, er]

end Contractions

section Gram
variable {G m K : Nat}

/-- The dimension numbers "batch axis 0 of both operands, contract the last axis of both" for two stacks of `m × K`
    matrices: member `g` of the result is the table of inner products of the rows of the two members `g`. -/
abbrev gramDims (w : DotDims.WF ⟨3, ![G, m, K]⟩ ⟨3, ![G, m, K]⟩ ⟨3, ![G, m, m]⟩ [2] [2] [1] [1] [0] [0]) :
    DotDims ⟨3, ![G, m, K]⟩ ⟨3, ![G, m, K]⟩ ⟨3, ![G, m, m]⟩ := ⟨[2], [2], [1], [1], [0], [0], w⟩

variable (w : DotDims.WF ⟨3, ![G, m, K]⟩ ⟨3, ![G, m, K]⟩ ⟨3, ![G, m, m]⟩ [2] [2] [1] [1] [0] [0])

/-- The left operand is read in the member of the output entry, -/
theorem gram_lhs_batch (j : (⟨3, ![G, m, m]⟩ : Shape).Idx) (q : (gramDims w).contr.Idx) :
    ((gramDims w).lhsIdx j q 0).val = (j 0).val := rfl
/-- on the row the entry's middle coordinate names, -/
theorem gram_lhs_row (j : (⟨3, ![G, m, m]⟩ : Shape).Idx) (q : (gramDims w).contr.Idx) :
    ((gramDims w).lhsIdx j q 1).val = (j 1).val := rfl
/-- at the contracted coordinate; -/
theorem gram_lhs_col (j : (⟨3, ![G, m, m]⟩ : Shape).Idx) (q : (gramDims w).contr.Idx) :
    ((gramDims w).lhsIdx j q 2).val = (q ⟨0, Nat.one_pos⟩).val :=
  (gramDims w).lhsIdx_val_of_single rfl j q
/-- the right operand in the same member, -/
theorem gram_rhs_batch (j : (⟨3, ![G, m, m]⟩ : Shape).Idx) (q : (gramDims w).contr.Idx) :
    ((gramDims w).rhsIdx j q 0).val = (j 0).val := rfl
/-- on the row the entry's last coordinate names, -/
theorem gram_rhs_row (j : (⟨3, ![G, m, m]⟩ : Shape).Idx) (q : (gramDims w).contr.Idx) :
    ((gramDims w).rhsIdx j q 1).val = (j 2).val := rfl
/-- at the contracted coordinate. -/
theorem gram_rhs_col (j : (⟨3, ![G, m, m]⟩ : Shape).Idx) (q : (gramDims w).contr.Idx) :
    ((gramDims w).rhsIdx j q 2).val = (q ⟨0, Nat.one_pos⟩).val :=
  (gramDims w).rhsIdx_val_of_single rfl j q

/-- The table at an entry: `gram (g, i, l) = ∑ d, A (g, i, d) * B (g, l, d)`. -/
theorem gram_dot_apply {φ₁ φ₂ : FTy} (prec : Option ContractPrecision)
    (A : FVec Ideal ⟨3, ![G, m, K]⟩ φ₁) (B : FVec Ideal ⟨3, ![G, m, K]⟩ φ₂) (g : Fin G) (i l : Fin m) :
    Host.dotGeneral (gramDims w) prec A B (ix3 g i l) = ∑ d : Fin K, A (ix3 g i d) * B (ix3 g l d) := by
  show FloatOps.dotGeneral _ prec _ A B (ix3 g i l) = _
  rw [Ideal.dotGeneral_apply, ← Equiv.sum_comp (contrEquiv1 (gramDims w) K rfl rfl).symm]
  refine Finset.sum_congr rfl fun k _ => ?_
  have hk := contrEquiv1_symm_val (gramDims w) K rfl rfl k
  have el : (gramDims w).lhsIdx (ix3 g i l) ((contrEquiv1 (gramDims w) K rfl rfl).symm k) = ix3 g i k :=
    funext fun c => Fin.ext (by
      match c with
      | ⟨0, _⟩ => exact gram_lhs_batch w _ _
      | ⟨1, _⟩ => exact gram_lhs_row w _ _
      | ⟨2, _⟩ => exact (gram_lhs_col w _ _).trans hk)
  have er : (gramDims w).rhsIdx (ix3 g i l) ((contrEquiv1 (gramDims w) K rfl rfl).symm k) = ix3 g l k :=
    funext fun c => Fin.ext (by
      match c with
      | ⟨0, _⟩ => exact gram_rhs_batch w _ _
      | ⟨1, _⟩ => exact gram_rhs_row w _ _
      | ⟨2, _⟩ => exact (gram_rhs_col w _ _).trans hk)
  rw [el, er]

end Gram

/-! ## Broadcasts read at an index -/

section Broadcasts
variable {α : Type}

/-- A vector of `K` entries laid as one row and copied down `M` rows reads, at `(b, k)`, its entry `k`. -/
theorem bias_apply {M K : Nat} (h1 : (⟨1, ![K]⟩ : Shape).BroadcastsInDim ⟨2, ![1, K]⟩ ![1])
    (h2 : (⟨2, ![1, K]⟩ : Shape).BroadcastsInDim ⟨2, ![M, K]⟩ ![0, 1]) (x : (⟨1, ![K]⟩ : Shape).Idx → α)
    (b : Fin M) (k : Fin K) :
    broadcastInDim ⟨2, ![M, K]⟩ ![0, 1] h2 (broadcastInDim ⟨2, ![1, K]⟩ ![1] h1 x) (ix2 b k) = x (ix1 k) := by
  have hk : k.val < K := k.isLt
  refine (broadcastInDim_apply ![0, 1] h2 _ (ix2 b k) (ix2 (0 : Fin 1) k) ?_).trans
    (broadcastInDim_apply ![1] h1 x (ix2 (0 : Fin 1) k) (ix1 k) ?_)
  · intro a
    match a with
    | ⟨0, _⟩ => show (0 : ℕ) = if (1 : ℕ) = 1 then 0 else _; rw [if_pos rfl]
    | ⟨1, _⟩ =>
      show k.val = if K = 1 then 0 else k.val
      split
      · omega
      · rfl
  · intro a
    match a with
    | ⟨0, _⟩ =>
      show k.val = if K = 1 then 0 else k.val
      split
      · omega
      · rfl

/-- A `G × n` array given a middle axis of extent one reads, at `(g, 0, d)`, its entry `(g, d)`. -/
theorem unit_axis_apply {G n : Nat} (h : (⟨2, ![G, n]⟩ : Shape).BroadcastsInDim ⟨3, ![G, 1, n]⟩ ![0, 2])
    (x : (⟨2, ![G, n]⟩ : Shape).Idx → α) (g : Fin G) (z : Fin 1) (d : Fin n) :
    broadcastInDim ⟨3, ![G, 1, n]⟩ ![0, 2] h x (ix3 g z d) = x (ix2 g d) := by
  have hg : g.val < G := g.isLt
  have hd : d.val < n := d.isLt
  refine broadcastInDim_apply ![0, 2] h x (ix3 g z d) (ix2 g d) ?_
  intro a
  match a with
  | ⟨0, _⟩ =>
    show g.val = if G = 1 then 0 else g.val
    split
    · omega
    · rfl
  | ⟨1, _⟩ =>
    show d.val = if n = 1 then 0 else d.val
    split
    · omega
    · rfl

end Broadcasts

end Idealize.ShloMosaic.HostContract

end
-- ==== Proof.RValue.lean ====
/-
  The reference's term, read entry by entry over the extended reals, is the model's result array.

  The term is read from the outside in. The output layer and the hidden layer are plain matrix products plus a bias
  copied down the rows, so an entry `(b, n)` is a sum over the contracted coordinate plus the bias entry; the rectifier
  acts entry by entry. The 135-wide feature array is eight pieces laid end to end along the columns, so its entry
  `(b, i)` is the entry of the piece whose span holds `i`: the dense projection, one of the six pooled arrays, or one of
  the fifteen gathered pair products. A gathered product `(b, p)` is the entry of the 6 × 6 table of batch row `b` at
  the row and column that the two constant index columns give for `p`; those thirty words, read signed and clamped into
  `[0, 5]`, are the first and second vectors of the fifteen pairs. The table's entry `(b, i, l)` is the inner product of
  rows `i` and `l` of member `b` of the stack, and row `i` of that member is the `i`-th of the six 20-vectors of batch
  row `b`. The six pooled arrays are arbitrary arrays throughout: nothing of how they are computed is used.
-/
import proofs.«401512_j75213467287608_3_alg».proof.Proof.Gen.ReferenceIdeal
import proofs.«401512_j75213467287608_3_alg».proof.Proof.RefTerm
import proofs.«401512_j75213467287608_3_alg».proof.Proof.Spec
import proofs.«401512_j75213467287608_3_alg».proof.Proof.LibHostContract
import Idealize.ShloMosaic.Lib.Pipeline.Value
import Idealize.ShloMosaic.Lib.ValueLayout

noncomputable section

namespace Cert.ReferenceIdeal.RefValue

open Idealize.ShloMosaic Idealize.ShloMosaic.ValueIdx Idealize.ShloMosaic.HostContract
open Cert.ReferenceIdeal Cert.ReferenceIdeal.Gen Cert.ReferenceIdeal.Pool Cert.ReferenceIdeal.RefTerm

/-! ## The pair gather read at an index, and its two constant index columns -/

section PairGather

/-- The gather that keeps the whole batch axis and collapses the two table axes reads, at `(b, p)`, the table entry of
    batch row `b` whose row and column are the two words of index row `p`, each read signed and clamped into `[0, 5]`. -/
theorem pair_gather_apply {α : Type} (x : S65536x6x6.Idx → α) (idx : IVec S15x2 32) (b : Fin 65536) (p : Fin 15) :
    Host.gather gather_S65536x6x6_S15x2_S65536x15_0_12_n_n_12_1_6553611 x idx (ix2 b p)
      = x (ix3 b ⟨min (idx (ix2 p 0)).toInt.toNat 5, by omega⟩ ⟨min (idx (ix2 p 1)).toInt.toNat 5, by omega⟩) := by
  -- the start-indices index of each of the two components of index row `p`
  have hs0 : gather_S65536x6x6_S15x2_S65536x15_0_12_n_n_12_1_6553611.siIdx (ix2 b p)
      ⟨List.idxOf (1 : Fin 3) gather_S65536x6x6_S15x2_S65536x15_0_12_n_n_12_1_6553611.startIndexMap,
        List.idxOf_lt_length_iff.2 (by decide)⟩ = ix2 p 0 := by
    funext c; refine Fin.ext ?_
    match c with
    | ⟨0, _⟩ => rfl
    | ⟨1, _⟩ => rfl
  have hs1 : gather_S65536x6x6_S15x2_S65536x15_0_12_n_n_12_1_6553611.siIdx (ix2 b p)
      ⟨List.idxOf (2 : Fin 3) gather_S65536x6x6_S15x2_S65536x15_0_12_n_n_12_1_6553611.startIndexMap,
        List.idxOf_lt_length_iff.2 (by decide)⟩ = ix2 p 1 := by
    funext c; refine Fin.ext ?_
    match c with
    | ⟨0, _⟩ => rfl
    | ⟨1, _⟩ => rfl
  -- the one offset axis of the result is its axis 0
  have hoff : ∀ (n : Nat) (hn : n < gather_S65536x6x6_S15x2_S65536x15_0_12_n_n_12_1_6553611.offsetDims.length), n = 0 →
      ((ix2 b p : S65536x15.Idx) (gather_S65536x6x6_S15x2_S65536x15_0_12_n_n_12_1_6553611.offsetDims[n]'hn)).val = b.val := by
    intro n hn h0; subst h0; rfl
  unfold Host.gather
  congr 1
  funext a
  refine Fin.ext ?_
  match a with
  | ⟨0, _⟩ =>
    show GatherDims.start _ (ix2 b p) idx 0 + GatherDims.batchCoord _ (ix2 b p) 0 + GatherDims.offCoord _ (ix2 b p) 0 = b.val
    rw [GatherDims.batchCoord_eq_zero _ _ _ List.not_mem_nil]
    unfold GatherDims.start
    rw [dif_neg (by decide)]
    unfold GatherDims.offCoord
    rw [dif_pos (by decide), Nat.add_zero, Nat.zero_add]
    exact hoff _ _ (by decide)
  | ⟨1, _⟩ =>
    show GatherDims.start _ (ix2 b p) idx 1 + GatherDims.batchCoord _ (ix2 b p) 1 + GatherDims.offCoord _ (ix2 b p) 1 = _
    rw [GatherDims.batchCoord_eq_zero _ _ _ List.not_mem_nil,
      GatherDims.offCoord_eq_zero _ _ _ (by decide)]
    unfold GatherDims.start
    rw [dif_pos (by decide), hs0]
    rfl
  | ⟨2, _⟩ =>
    show GatherDims.start _ (ix2 b p) idx 2 + GatherDims.batchCoord _ (ix2 b p) 2 + GatherDims.offCoord _ (ix2 b p) 2 = _
    rw [GatherDims.batchCoord_eq_zero _ _ _ List.not_mem_nil,
      GatherDims.offCoord_eq_zero _ _ _ (by decide)]
    unfold GatherDims.start
    rw [dif_pos (by decide), hs1]
    rfl

/-- The index array of the pair gather: the two constant columns side by side. -/
def pairIdx : IVec S15x2 32 :=
  concatenate S15x2 1 [⟨S15x1, pairCol0⟩, ⟨S15x1, pairCol1⟩] concatenates_S15x1_S15x1_S15x2_d1

/-- A constant table of fifteen words, under the wrap that the all-false mask never selects and laid as a column,
    reads its word `p` at `(p, 0)`. -/
theorem col_apply (lit : Fin 15 → BitVec 32) (p : Fin 15) (z : Fin 1) :
    broadcastInDim S15x1 ![0] bcast_S15_S15x1_0
      (select (constantI S15 1 0#1) (addi (fun i => lit (S15.rowMajor i)) (broadcastInDim S15 ![] bcast_S_S15 (constantI S_ 32 6#32)))
        (fun i => lit (S15.rowMajor i))) (ix2 p z) = lit p := by
  refine (broadcastInDim_apply ![0] bcast_S15_S15x1_0 _ (ix2 p z) (ix1 p) ?_).trans ?_
  · intro a
    match a with
    | ⟨0, _⟩ => rfl
  · rw [select_apply]
    show Scalar.select 0#1 _ (lit (S15.rowMajor (ix1 p))) = lit p
    rw [select_zero]
    exact congrArg lit (Fin.ext (Shape.rowMajor_val_one (ix1 p)))

theorem pairIdx_fst (p : Fin 15) : pairIdx (ix2 p 0) = lit0 p := by
  unfold pairIdx
  refine (concatenate_pair_apply_left 1 pairCol0 pairCol1 concatenates_S15x1_S15x1_S15x2_d1 (ix2 p 0) rfl (ix2 p 0) ?_).trans
    (col_apply lit0 p 0)
  intro c
  match c with
  | ⟨0, _⟩ => rfl
  | ⟨1, _⟩ => rfl

theorem pairIdx_snd (p : Fin 15) : pairIdx (ix2 p 1) = lit1 p := by
  unfold pairIdx
  refine (concatenate_pair_apply_right 1 pairCol0 pairCol1 concatenates_S15x1_S15x1_S15x2_d1 (ix2 p 1) rfl rfl (ix2 p 0) ?_ rfl).trans
    (col_apply lit1 p 0)
  intro c hc
  match c with
  | ⟨0, _⟩ => rfl
  | ⟨1, _⟩ => exact absurd rfl hc

/-- The fifteen first members, as words read signed and clamped into `[0, 5]`, are the first vectors of the pairs; -/
theorem lit0_val : ∀ p : Fin 15, min (lit0 p).toInt.toNat 5 = (Cert.Spec.pairFst p).val := by decide
/-- the fifteen second members the second vectors. -/
theorem lit1_val : ∀ p : Fin 15, min (lit1 p).toInt.toNat 5 = (Cert.Spec.pairSnd p).val := by decide

/-- The pair gather of a table at `(b, p)` is the table's entry at row `b` and the two vectors of pair `p`. -/
theorem pair_gather_pairIdx {α : Type} (x : S65536x6x6.Idx → α) (b : Fin 65536) (p : Fin 15) :
    Host.gather gather_S65536x6x6_S15x2_S65536x15_0_12_n_n_12_1_6553611 x pairIdx (ix2 b p)
      = x (ix3 b (Cert.Spec.pairFst p) (Cert.Spec.pairSnd p)) := by
  rw [pair_gather_apply]
  refine congrArg x ?_
  have e0 : (⟨min (pairIdx (ix2 p 0)).toInt.toNat 5, by omega⟩ : Fin 6) = Cert.Spec.pairFst p :=
    Fin.ext (by show min (pairIdx (ix2 p 0)).toInt.toNat 5 = _; rw [pairIdx_fst]; exact lit0_val p)
  have e1 : (⟨min (pairIdx (ix2 p 1)).toInt.toNat 5, by omega⟩ : Fin 6) = Cert.Spec.pairSnd p :=
    Fin.ext (by show min (pairIdx (ix2 p 1)).toInt.toNat 5 = _; rw [pairIdx_snd]; exact lit1_val p)
  rw [e0, e1]

end PairGather

/-! ## The reference's result in stages

`head` spelt as a composition of named arrays (the same operations in the same order), so that each can be read at an
index on its own. -/

section Stages

/-- The two short embeddings laid end to end. -/
def basicArr (e1 e2 : FVec Ideal S65536x10 .f32) : FVec Ideal S65536x20 .f32 :=
  concatenate S65536x20 1 [⟨S65536x10, e1⟩, ⟨S65536x10, e2⟩] concatenates_S65536x10_S65536x10_S65536x20_d1

/-- Six 20-wide arrays stacked along a new middle axis. -/
def stackArr (v0 v1 v2 v3 v4 v5 : FVec Ideal S65536x20 .f32) : FVec Ideal S65536x6x20 .f32 :=
  concatenate S65536x6x20 1
    [⟨S65536x1x20, broadcastInDim S65536x1x20 ![0, 2] bcast_S65536x20_S65536x1x20_0_2 v0⟩,
     ⟨S65536x1x20, broadcastInDim S65536x1x20 ![0, 2] bcast_S65536x20_S65536x1x20_0_2 v1⟩,
     ⟨S65536x1x20, broadcastInDim S65536x1x20 ![0, 2] bcast_S65536x20_S65536x1x20_0_2 v2⟩,
     ⟨S65536x1x20, broadcastInDim S65536x1x20 ![0, 2] bcast_S65536x20_S65536x1x20_0_2 v3⟩,
     ⟨S65536x1x20, broadcastInDim S65536x1x20 ![0, 2] bcast_S65536x20_S65536x1x20_0_2 v4⟩,
     ⟨S65536x1x20, broadcastInDim S65536x1x20 ![0, 2] bcast_S65536x20_S65536x1x20_0_2 v5⟩]
    concatenates_S65536x1x20_S65536x1x20_S65536x1x20_S65536x1x20_S65536x1x20_S65536x1x20_S65536x6x20_d1

/-- The fifteen pair entries of the table of inner products of a stack's rows. -/
def dotsArr (stack : FVec Ideal S65536x6x20 .f32) : FVec Ideal S65536x15 .f32 :=
  Host.gather gather_S65536x6x6_S15x2_S65536x15_0_12_n_n_12_1_6553611
    (Host.dotGeneral dot_S65536x6x20_S65536x6x20_S65536x6x6_2_2_1_1_0_0 none stack stack) pairIdx

/-- The 135-wide feature array. -/
def featArr (de : FVec Ideal S65536x20 .f32) (e1 e2 : FVec Ideal S65536x10 .f32) (e3 e4 e5 e6 : FVec Ideal S65536x20 .f32)
    (dots : FVec Ideal S65536x15 .f32) : FVec Ideal S65536x135 .f32 :=
  concatenate S65536x135 1
    [⟨S65536x20, de⟩, ⟨S65536x10, e1⟩, ⟨S65536x10, e2⟩, ⟨S65536x20, e3⟩, ⟨S65536x20, e4⟩, ⟨S65536x20, e5⟩, ⟨S65536x20, e6⟩, ⟨S65536x15, dots⟩]
    concatenates_S65536x20_S65536x10_S65536x10_S65536x20_S65536x20_S65536x20_S65536x20_S65536x15_S65536x135_d1

/-- The hidden layer before the rectifier. -/
def hidArr (feat : FVec Ideal S65536x135 .f32) (a15 : FVec Ideal S135x64 .f32) (a16 : FVec Ideal S64 .f32) :
    FVec Ideal S65536x64 .f32 :=
  addf (Host.dotGeneral dot_S65536x135_S135x64_S65536x64_1_0_0_1_n_n none feat a15)
    (broadcastInDim S65536x64 ![0, 1] bcast_S1x64_S65536x64_0_1 (broadcastInDim S1x64 ![1] bcast_S64_S1x64_1 a16))

/-- The leaky rectifier, entry by entry. -/
def actArr (hid : FVec Ideal S65536x64 .f32) : FVec Ideal S65536x64 .f32 :=
  select (cmpf .ogt hid (broadcastInDim S65536x64 ![] bcast_S_S65536x64 (constant S_ .f32 0x00000000#32))) hid
    (mulf (broadcastInDim S65536x64 ![] bcast_S_S65536x64 (constant S_ .f32 0x3C23D70A#32)) hid)

/-- The output layer. -/
def outArr (act : FVec Ideal S65536x64 .f32) (a17 : FVec Ideal S64x128 .f32) (a18 : FVec Ideal S128 .f32) :
    FVec Ideal S65536x128 .f32 :=
  addf (Host.dotGeneral dot_S65536x64_S64x128_S65536x128_1_0_0_1_n_n none act a17)
    (broadcastInDim S65536x128 ![0, 1] bcast_S1x128_S65536x128_0_1 (broadcastInDim S1x128 ![1] bcast_S128_S1x128_1 a18))

theorem head_stages (de : FVec Ideal S65536x20 .f32) (e1 e2 : FVec Ideal S65536x10 .f32) (e3 e4 e5 e6 : FVec Ideal S65536x20 .f32)
    (a15 : FVec Ideal S135x64 .f32) (a16 : FVec Ideal S64 .f32) (a17 : FVec Ideal S64x128 .f32) (a18 : FVec Ideal S128 .f32) :
    head de e1 e2 e3 e4 e5 e6 a15 a16 a17 a18
      = outArr (actArr (hidArr (featArr de e1 e2 e3 e4 e5 e6 (dotsArr (stackArr de (basicArr e1 e2) e3 e4 e5 e6))) a15 a16)) a17 a18 :=
  rfl

/-- The dense projection at `(b, k)`. -/
theorem denseProj_apply (a0 : FVec Ideal S65536x64 .f32) (a7 : FVec Ideal S64x20 .f32) (a8 : FVec Ideal S20 .f32)
    (b : Fin 65536) (k : Fin 20) :
    denseProj a0 a7 a8 (ix2 b k) = Cert.Spec.denseRow (fun d => a0 (ix2 b d)) a7 a8 k := by
  unfold denseProj Cert.Spec.denseRow
  refine (addf_apply _ _ _).trans ?_
  exact congrArg₂ (· + ·) (plain_dot_apply _ none a0 a7 b k) (bias_apply _ _ a8 b k)

/-- The hidden layer at `(b, j)`. -/
theorem hidArr_apply (feat : FVec Ideal S65536x135 .f32) (a15 : FVec Ideal S135x64 .f32) (a16 : FVec Ideal S64 .f32)
    (b : Fin 65536) (j : Fin 64) :
    hidArr feat a15 a16 (ix2 b j) = (∑ i : Fin 135, feat (ix2 b i) * a15 (ix2 i j)) + a16 (ix1 j) := by
  unfold hidArr
  refine (addf_apply _ _ _).trans ?_
  exact congrArg₂ (· + ·) (plain_dot_apply _ none feat a15 b j) (bias_apply _ _ a16 b j)

/-- The rectifier at an entry. -/
theorem actArr_apply (hid : FVec Ideal S65536x64 .f32) (j : S65536x64.Idx) : actArr hid j = Cert.Spec.leaky (hid j) := rfl

/-- The output layer at `(b, n)`. -/
theorem outArr_apply (act : FVec Ideal S65536x64 .f32) (a17 : FVec Ideal S64x128 .f32) (a18 : FVec Ideal S128 .f32)
    (b : Fin 65536) (n : Fin 128) :
    outArr act a17 a18 (ix2 b n) = (∑ j : Fin 64, act (ix2 b j) * a17 (ix2 j n)) + a18 (ix1 n) := by
  unfold outArr
  refine (addf_apply _ _ _).trans ?_
  exact congrArg₂ (· + ·) (plain_dot_apply _ none act a17 b n) (bias_apply _ _ a18 b n)

/-- The two short embeddings end to end, at `(b, k)`. -/
theorem basicArr_apply (e1 e2 : FVec Ideal S65536x10 .f32) (b : Fin 65536) (k : Fin 20) :
    basicArr e1 e2 (ix2 b k) = Cert.Spec.basicRow (fun k => e1 (ix2 b k)) (fun k => e2 (ix2 b k)) k := by
  unfold basicArr Cert.Spec.basicRow
  by_cases h : k.val < 10
  · rw [dif_pos h]
    refine concatenate_pair_apply_left 1 e1 e2 _ (ix2 b k) rfl (ix2 b ⟨k.val, h⟩) ?_
    intro c
    match c with
    | ⟨0, _⟩ => rfl
    | ⟨1, _⟩ => rfl
  · rw [dif_neg h]
    have hk : k.val < 20 := k.isLt
    refine concatenate_pair_apply_right 1 e1 e2 _ (ix2 b k) rfl rfl (ix2 b ⟨k.val - 10, by omega⟩) ?_ ?_
    · intro c hc
      match c with
      | ⟨0, _⟩ => rfl
      | ⟨1, _⟩ => exact absurd rfl hc
    · show k.val - 10 + 10 = k.val
      omega

end Stages

section Rows

/-- Off the middle axis, an index of the stack and the index of a one-row piece with the same outer coordinates agree. -/
theorem off_mid {G m n : Nat} (b : Fin G) (z : Fin 1) (i : Fin m) (d : Fin n) (c : Fin 3) (hc : c ≠ 1) :
    ((ix3 b z d : (⟨3, ![G, 1, n]⟩ : Shape).Idx) c).val = ((ix3 b i d : (⟨3, ![G, m, n]⟩ : Shape).Idx) c).val := by
  match c with
  | ⟨0, _⟩ => rfl
  | ⟨1, _⟩ => exact absurd rfl hc
  | ⟨2, _⟩ => rfl

/-- Off the column axis, two indices on one row agree. -/
theorem off_col {G m n : Nat} (b : Fin G) (k : Fin m) (i : Fin n) (c : Fin 2) (hc : c ≠ 1) :
    ((ix2 b k : (⟨2, ![G, m]⟩ : Shape).Idx) c).val = ((ix2 b i : (⟨2, ![G, n]⟩ : Shape).Idx) c).val := by
  match c with
  | ⟨0, _⟩ => rfl
  | ⟨1, _⟩ => exact absurd rfl hc

/-- Row `i` of member `b` of the stack is the `i`-th of the six 20-vectors of batch row `b`. -/
theorem stack_vecRow (a0 : FVec Ideal S65536x64 .f32) (a7 : FVec Ideal S64x20 .f32) (a8 : FVec Ideal S20 .f32)
    (e1 e2 : FVec Ideal S65536x10 .f32) (e3 e4 e5 e6 : FVec Ideal S65536x20 .f32)
    (b : Fin 65536) (i : Fin 6) (d : Fin 20) :
    stackArr (denseProj a0 a7 a8) (basicArr e1 e2) e3 e4 e5 e6 (ix3 b i d)
      = Cert.Spec.vecRow (fun d => a0 (ix2 b d)) (fun k => e1 (ix2 b k)) (fun k => e2 (ix2 b k)) (fun k => e3 (ix2 b k))
          (fun k => e4 (ix2 b k)) (fun k => e5 (ix2 b k)) (fun k => e6 (ix2 b k)) a7 a8 i d := by
  unfold stackArr
  match i with
  | ⟨0, _⟩ =>
    refine Eq.trans (concatenate_apply_piece (t := S65536x6x20) 1 _ _ (ix3 b _ d) 0 (by exact (by decide : 0 < 6)) S65536x1x20
      (broadcastInDim S65536x1x20 ![0, 2] bcast_S65536x20_S65536x1x20_0_2 (denseProj a0 a7 a8)) (by rfl) rfl 0 (by rfl) (ix3 b (0 : Fin 1) d) (off_mid b 0 _ d) (by rfl)) ?_
    exact (unit_axis_apply _ _ b 0 d).trans (denseProj_apply a0 a7 a8 b d)
  | ⟨1, _⟩ =>
    refine Eq.trans (concatenate_apply_piece (t := S65536x6x20) 1 _ _ (ix3 b _ d) 1 (by exact (by decide : 1 < 6)) S65536x1x20
      (broadcastInDim S65536x1x20 ![0, 2] bcast_S65536x20_S65536x1x20_0_2 (basicArr e1 e2)) (by rfl) rfl 1 (by rfl) (ix3 b (0 : Fin 1) d) (off_mid b 0 _ d) (by rfl)) ?_
    exact (unit_axis_apply _ _ b 0 d).trans (basicArr_apply e1 e2 b d)
  | ⟨2, _⟩ =>
    refine Eq.trans (concatenate_apply_piece (t := S65536x6x20) 1 _ _ (ix3 b _ d) 2 (by exact (by decide : 2 < 6)) S65536x1x20
      (broadcastInDim S65536x1x20 ![0, 2] bcast_S65536x20_S65536x1x20_0_2 e3) (by rfl) rfl 2 (by rfl) (ix3 b (0 : Fin 1) d) (off_mid b 0 _ d) (by rfl)) ?_
    exact unit_axis_apply _ _ b 0 d
  | ⟨3, _⟩ =>
    refine Eq.trans (concatenate_apply_piece (t := S65536x6x20) 1 _ _ (ix3 b _ d) 3 (by exact (by decide : 3 < 6)) S65536x1x20
      (broadcastInDim S65536x1x20 ![0, 2] bcast_S65536x20_S65536x1x20_0_2 e4) (by rfl) rfl 3 (by rfl) (ix3 b (0 : Fin 1) d) (off_mid b 0 _ d) (by rfl)) ?_
    exact unit_axis_apply _ _ b 0 d
  | ⟨4, _⟩ =>
    refine Eq.trans (concatenate_apply_piece (t := S65536x6x20) 1 _ _ (ix3 b _ d) 4 (by exact (by decide : 4 < 6)) S65536x1x20
      (broadcastInDim S65536x1x20 ![0, 2] bcast_S65536x20_S65536x1x20_0_2 e5) (by rfl) rfl 4 (by rfl) (ix3 b (0 : Fin 1) d) (off_mid b 0 _ d) (by rfl)) ?_
    exact unit_axis_apply _ _ b 0 d
  | ⟨5, _⟩ =>
    refine Eq.trans (concatenate_apply_piece (t := S65536x6x20) 1 _ _ (ix3 b _ d) 5 (by exact (by decide : 5 < 6)) S65536x1x20
      (broadcastInDim S65536x1x20 ![0, 2] bcast_S65536x20_S65536x1x20_0_2 e6) (by rfl) rfl 5 (by rfl) (ix3 b (0 : Fin 1) d) (off_mid b 0 _ d) (by rfl)) ?_
    exact unit_axis_apply _ _ b 0 d

/-- The gathered entry `(b, p)` is the inner product of pair `p` of batch row `b`. -/
theorem dots_apply (a0 : FVec Ideal S65536x64 .f32) (a7 : FVec Ideal S64x20 .f32) (a8 : FVec Ideal S20 .f32)
    (e1 e2 : FVec Ideal S65536x10 .f32) (e3 e4 e5 e6 : FVec Ideal S65536x20 .f32)
    (b : Fin 65536) (p : Fin 15) :
    dotsArr (stackArr (denseProj a0 a7 a8) (basicArr e1 e2) e3 e4 e5 e6) (ix2 b p)
      = Cert.Spec.pairDotRow (fun d => a0 (ix2 b d)) (fun k => e1 (ix2 b k)) (fun k => e2 (ix2 b k)) (fun k => e3 (ix2 b k))
          (fun k => e4 (ix2 b k)) (fun k => e5 (ix2 b k)) (fun k => e6 (ix2 b k)) a7 a8 p := by
  unfold dotsArr Cert.Spec.pairDotRow
  rw [pair_gather_pairIdx]
  refine (gram_dot_apply _ none _ _ b _ _).trans (Finset.sum_congr rfl fun d _ => ?_)
  rw [stack_vecRow, stack_vecRow]

/-- The feature array at `(b, i)` is entry `i` of the feature row of batch row `b`. -/
theorem feat_apply (a0 : FVec Ideal S65536x64 .f32) (a7 : FVec Ideal S64x20 .f32) (a8 : FVec Ideal S20 .f32)
    (e1 e2 : FVec Ideal S65536x10 .f32) (e3 e4 e5 e6 : FVec Ideal S65536x20 .f32)
    (b : Fin 65536) (i : Fin 135) :
    featArr (denseProj a0 a7 a8) e1 e2 e3 e4 e5 e6 (dotsArr (stackArr (denseProj a0 a7 a8) (basicArr e1 e2) e3 e4 e5 e6)) (ix2 b i)
      = Cert.Spec.featRow (fun d => a0 (ix2 b d)) (fun k => e1 (ix2 b k)) (fun k => e2 (ix2 b k)) (fun k => e3 (ix2 b k))
          (fun k => e4 (ix2 b k)) (fun k => e5 (ix2 b k)) (fun k => e6 (ix2 b k)) a7 a8 i := by
  have hi : i.val < 135 := i.isLt
  unfold featArr Cert.Spec.featRow
  by_cases h0 : i.val < 20
  · rw [dif_pos h0]
    exact (concatenate_apply_piece (t := S65536x135) 1 _ _ (ix2 b i) 0 (by exact (by decide : 0 < 8)) S65536x20 (denseProj a0 a7 a8) (by rfl) rfl 0 (by rfl)
      (ix2 b ⟨i.val, h0⟩) (off_col b _ i) (Nat.zero_add _)).trans
      (denseProj_apply a0 a7 a8 b ⟨i.val, h0⟩)
  rw [dif_neg h0]
  by_cases h1 : i.val < 30
  · rw [dif_pos h1]
    exact concatenate_apply_piece (t := S65536x135) 1 _ _ (ix2 b i) 1 (by exact (by decide : 1 < 8)) S65536x10 e1 (by rfl) rfl 20 (by rfl)
      (ix2 b ⟨i.val - 20, by omega⟩) (off_col b _ i) (by show 20 + (i.val - 20) = i.val; omega)
  rw [dif_neg h1]
  by_cases h2 : i.val < 40
  · rw [dif_pos h2]
    exact concatenate_apply_piece (t := S65536x135) 1 _ _ (ix2 b i) 2 (by exact (by decide : 2 < 8)) S65536x10 e2 (by rfl) rfl 30 (by rfl)
      (ix2 b ⟨i.val - 30, by omega⟩) (off_col b _ i) (by show 30 + (i.val - 30) = i.val; omega)
  rw [dif_neg h2]
  by_cases h3 : i.val < 60
  · rw [dif_pos h3]
    exact concatenate_apply_piece (t := S65536x135) 1 _ _ (ix2 b i) 3 (by exact (by decide : 3 < 8)) S65536x20 e3 (by rfl) rfl 40 (by rfl)
      (ix2 b ⟨i.val - 40, by omega⟩) (off_col b _ i) (by show 40 + (i.val - 40) = i.val; omega)
  rw [dif_neg h3]
  by_cases h4 : i.val < 80
  · rw [dif_pos h4]
    exact concatenate_apply_piece (t := S65536x135) 1 _ _ (ix2 b i) 4 (by exact (by decide : 4 < 8)) S65536x20 e4 (by rfl) rfl 60 (by rfl)
      (ix2 b ⟨i.val - 60, by omega⟩) (off_col b _ i) (by show 60 + (i.val - 60) = i.val; omega)
  rw [dif_neg h4]
  by_cases h5 : i.val < 100
  · rw [dif_pos h5]
    exact concatenate_apply_piece (t := S65536x135) 1 _ _ (ix2 b i) 5 (by exact (by decide : 5 < 8)) S65536x20 e5 (by rfl) rfl 80 (by rfl)
      (ix2 b ⟨i.val - 80, by omega⟩) (off_col b _ i) (by show 80 + (i.val - 80) = i.val; omega)
  rw [dif_neg h5]
  by_cases h6 : i.val < 120
  · rw [dif_pos h6]
    exact concatenate_apply_piece (t := S65536x135) 1 _ _ (ix2 b i) 6 (by exact (by decide : 6 < 8)) S65536x20 e6 (by rfl) rfl 100 (by rfl)
      (ix2 b ⟨i.val - 100, by omega⟩) (off_col b _ i) (by show 100 + (i.val - 100) = i.val; omega)
  rw [dif_neg h6]
  exact (concatenate_apply_piece (t := S65536x135) 1 _ _ (ix2 b i) 7 (by exact (by decide : 7 < 8)) S65536x15 (dotsArr (stackArr (denseProj a0 a7 a8) (basicArr e1 e2) e3 e4 e5 e6)) (by rfl) rfl 120 (by rfl)
      (ix2 b ⟨i.val - 120, by omega⟩) (off_col b _ i) (by show 120 + (i.val - 120) = i.val; omega)).trans
    (dots_apply a0 a7 a8 e1 e2 e3 e4 e5 e6 b ⟨i.val - 120, by omega⟩)

/-- From the dense projection and any six pooled arrays onward, the reference's result is the model's. -/
theorem head_value (a0 : FVec Ideal S65536x64 .f32) (a7 : FVec Ideal S64x20 .f32) (a8 : FVec Ideal S20 .f32)
    (e1 e2 : FVec Ideal S65536x10 .f32) (e3 e4 e5 e6 : FVec Ideal S65536x20 .f32)
    (a15 : FVec Ideal S135x64 .f32) (a16 : FVec Ideal S64 .f32) (a17 : FVec Ideal S64x128 .f32) (a18 : FVec Ideal S128 .f32) :
    head (denseProj a0 a7 a8) e1 e2 e3 e4 e5 e6 a15 a16 a17 a18
      = Cert.Spec.Z a0 e1 e2 e3 e4 e5 e6 a7 a8 a15 a16 a17 a18 := by
  funext j
  obtain ⟨b, n, rfl⟩ : ∃ (b : Fin 65536) (n : Fin 128), j = ix2 b n := ⟨j 0, j 1, eq_ix2 j⟩
  rw [Cert.Spec.Z_apply, head_stages, outArr_apply]
  unfold Cert.Spec.outRow
  refine congrArg (· + a18 (ix1 n)) (Finset.sum_congr rfl fun c _ => ?_)
  rw [actArr_apply, hidArr_apply]
  unfold Cert.Spec.hiddenRow
  refine congrArg (fun t => Cert.Spec.leaky (t + a16 (ix1 c)) * a17 (ix2 c n)) (Finset.sum_congr rfl fun i _ => ?_)
  rw [feat_apply]

end Rows

/-- The reference's term is the model's result array, the six pooled arrays being whatever they are. -/
theorem refTerm_eq (a0 : FVec Ideal S65536x64 .f32) (a1 : IVec S65536x1 32) (a2 : IVec S65536x2 32) (a3 a4 : IVec S65536x3 32)
    (a5 : IVec S65536x5 32) (a6 : IVec S65536x10 32) (a7 : FVec Ideal S64x20 .f32) (a8 : FVec Ideal S20 .f32)
    (a9 a10 : FVec Ideal S50000x10 .f32) (a11 a12 a13 a14 : FVec Ideal S50000x20 .f32)
    (a15 : FVec Ideal S135x64 .f32) (a16 : FVec Ideal S64 .f32) (a17 : FVec Ideal S64x128 .f32) (a18 : FVec Ideal S128 .f32) :
    refTerm (F := Ideal) a0 a1 a2 a3 a4 a5 a6 a7 a8 a9 a10 a11 a12 a13 a14 a15 a16 a17 a18
      = Cert.Spec.Z a0 (pool1x10 a9 a1) (pool2x10 a10 a2) (pool3x20 a11 a3) (pool3x20 a12 a4) (pool5x20 a13 a5)
          (pool10x20 a14 a6) a7 a8 a15 a16 a17 a18 :=
  head_value a0 a7 a8 (pool1x10 a9 a1) (pool2x10 a10 a2) (pool3x20 a11 a3) (pool3x20 a12 a4) (pool5x20 a13 a5)
    (pool10x20 a14 a6) a15 a16 a17 a18

end Cert.ReferenceIdeal.RefValue

end
-- ==== Proof.lean ====
/-
  The certificate: a fused feature-interaction model — six sum-pooled, norm-clipped embedding bags beside a dense
  vector, their fifteen pairwise inner products, and a two-layer perceptron — computed once with the pooling on the host
  and everything after it in one kernel over 32 blocks of 2048 batch rows, and once entirely on the host.

  Both programs pool each bag by the same chain of operations; the kernel's program first clamps the ids into
  `[0, 49999]`, which under the precondition (every id already in that range) changes nothing. From the pooled arrays on,
  each program is matched, entry by entry over the extended reals, against one model function (`Cert.Spec.Z`): the
  kernel's through the block it stores at a grid point and the cover of the result by the 32 blocks, the host program's
  through its composed term. No law beyond commutativity and associativity of the extended reals' sum and product is
  used, so finiteness of the inputs is never needed. The three frames: the two kernel programs by the launch of one
  region after a host prefix, the host program by its run with the result dropped. The idealization applied no rule to
  the kernel, so `preserves` asks nothing.
-/
import proofs.«401512_j75213467287608_3_alg».proof.Defs
import proofs.«401512_j75213467287608_3_alg».proof.Proof.Gen.Kernel
import proofs.«401512_j75213467287608_3_alg».proof.Proof.Gen.KernelIdeal
import proofs.«401512_j75213467287608_3_alg».proof.Proof.Gen.ReferenceIdeal
import proofs.«401512_j75213467287608_3_alg».proof.Proof.Gen.Pre_finite_inputs
import proofs.«401512_j75213467287608_3_alg».proof.Proof.KFrameB
import proofs.«401512_j75213467287608_3_alg».proof.Proof.KFrameI
import proofs.«401512_j75213467287608_3_alg».proof.Proof.KValue
import proofs.«401512_j75213467287608_3_alg».proof.Proof.PreDecode
import proofs.«401512_j75213467287608_3_alg».proof.Proof.RRun
import proofs.«401512_j75213467287608_3_alg».proof.Proof.RValue
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the result at the model's result array of those
    arguments: the kernel's by its value run, the host program's by its run and its term's reading; the pooled arrays
    agree because clamping ids that are already in range is the identity. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18⟩ := hagree c
  obtain ⟨k1, k2, k3, k4, k5, k6⟩ := Cert.KernelIdeal.PreDecode.clamp_id m hpre c
  show _ = Cert.KernelIdeal.KValue.G m c
  rw [h0, h1, h2, h3, h4, h5, h6, h7, h8, h9, h10, h11, h12, h13, h14, h15, h16, h17, h18,
    Cert.ReferenceIdeal.RefValue.refTerm_eq]
  unfold Cert.KernelIdeal.KValue.G Cert.KernelIdeal.KValue.aX Cert.KernelIdeal.KValue.p1 Cert.KernelIdeal.KValue.p2
    Cert.KernelIdeal.KValue.p3 Cert.KernelIdeal.KValue.p4 Cert.KernelIdeal.KValue.p5 Cert.KernelIdeal.KValue.p6
  rw [k1, k2, k3, k4, k5, k6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
